-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x128 .f32) (main_arg3 : FVec F S128x128 .f32) (main_arg4 : FVec F S128x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S10000x256 : Shape := ⟨2, ![10000, 256]⟩
abbrev S2000x128 : Shape := ⟨2, ![2000, 128]⟩
abbrev S2000x256 : Shape := ⟨2, ![2000, 256]⟩
abbrev S1x128 : Shape := ⟨2, ![1, 128]⟩
abbrev S8x128 : Shape := ⟨2, ![8, 128]⟩
abbrev S10240x10240 : Shape := ⟨2, ![10240, 10240]⟩
abbrev S1024x2048 : Shape := ⟨2, ![1024, 2048]⟩
abbrev S2048x256 : Shape := ⟨2, ![2048, 256]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S2048x128 : Shape := ⟨2, ![2048, 128]⟩

abbrev nBuf : Space → Nat
  | .hbm => 11
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S128x128, .f32⟩
  | .hbm, ⟨4, _⟩ => ⟨S128x1, .f32⟩
  | .hbm, ⟨5, _⟩ => ⟨S10000x256, .f32⟩
  | .hbm, ⟨6, _⟩ => ⟨S1x128, .f32⟩
  | .hbm, ⟨7, _⟩ => ⟨S8x128, .f32⟩
  | .hbm, ⟨8, _⟩ => ⟨S10000x128, .f32⟩
  | .hbm, ⟨9, _⟩ => ⟨S10240x10240, .bf16⟩
  | .hbm, ⟨10, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S2000x256, .f32⟩
  | .local _ .vmem, ⟨6, _⟩ => ⟨S2000x256, .f32⟩
  | .local _ .vmem, ⟨7, _⟩ => ⟨S1024x2048, .f32⟩
  | .local _ .vmem, ⟨8, _⟩ => ⟨S1024x2048, .f32⟩
  | .local _ .vmem, ⟨9, _⟩ => ⟨S2048x256, .f32⟩
  | .local _ .vmem, ⟨10, _⟩ => ⟨S2048x256, .f32⟩
  | .local _ .vmem, ⟨11, _⟩ => ⟨S8x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .vmem, ⟨15, _⟩ => ⟨S1024x2048, .bf16⟩
  | .local _ .vmem, ⟨16, _⟩ => ⟨S1024x256, .f32⟩
  | .local _ .vmem, ⟨17, _⟩ => ⟨S1024x2048, .bf16⟩
  | .local _ .vmem, ⟨18, _⟩ => ⟨S1024x2048, .bf16⟩
  | .local _ .vmem, ⟨19, _⟩ => ⟨S2048x128, .f32⟩
  | .local _ .vmem, ⟨20, _⟩ => ⟨S2048x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![10, 5], ![false, false]⟩

def k1_cond3 (i : grid1.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def k1_cond2 (i : grid1.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![10, 5], ![false, false]⟩

def k2_cond3 (i : grid2.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S2000x128_S2000x128_0_0 : ∀ a, (![0, 0] : Fin 2 → Nat) a + S2000x128.size a ≤ S2000x128.size a
  h_S2000x128 : 0 < S2000x128.numel
  inb_S2000x256_S2000x128_0_0 : ∀ a, (![0, 0] : Fin 2 → Nat) a + S2000x128.size a ≤ S2000x256.size a
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x256_S2000x128_0_128 : ∀ a, (![0, 128] : Fin 2 → Nat) a + S2000x128.size a ≤ S2000x256.size a
  shapeCasts_S128x1_S1x128 : S128x1.ShapeCasts S1x128
  bcast_S1x128_S8x128_0_1 : S1x128.BroadcastsInDim S8x128 (![0, 1] : Fin 2 → Fin S8x128.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  iota_S1024x2048_d1_w32 : S1024x2048.Iotas .tc 32 [1]
  iota_S2048x256_d0_w32 : S2048x256.Iotas .tc 32 [0]
  slices_S1024x256_o0_0_S1024x128 : S1024x256.Slices ![0, 0] S1024x128
  slices_S1024x256_o0_128_S1024x128 : S1024x256.Slices ![0, 128] S1024x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x128_d0_w32 : S2048x128.Iotas .tc 32 [0]
  dot_S2000x128_S128x128_S2000x128_1_0_0_1_n_n_wf : DotDims.WF S2000x128 S128x128 S2000x128 [1] [0] [0] [1] [] []
  dot_S1024x2048_S2048x256_S1024x256_1_0_0_1_n_n_wf : DotDims.WF S1024x2048 S2048x256 S1024x256 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1024x2048.size a < S10000x10000.size a
  hwx1_0 : ∀ i : grid1.Coords, EltTy.bits .f32 = 32 ∨ (Rect.unit (s := S10000x10000) (fun a => cc1_transform_0 i a * S1024x2048.size a) (fun a => (Pipeline.Clip.of (cc1_transform_0 i a) (S1024x2048.size a) (S10000x10000.size a)).extent (S1024x2048.size a)) fun a => Pipeline.Clip.inb (Pipeline.Clip.ok_of (hstart1_0 i a))).WholeWords (EltTy.packing .f32)
  hwxs1_0 : ∀ i : grid1.Coords, EltTy.bits .f32 = 32 ∨ (Rect.unit (s := S1024x2048) (fun _ => 0) (fun a => (Pipeline.Clip.of (cc1_transform_0 i a) (S1024x2048.size a) (S10000x10000.size a)).extent (S1024x2048.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x256.size a < S10000x256.size a
  hwx1_1 : ∀ i : grid1.Coords, EltTy.bits .f32 = 32 ∨ (Rect.unit (s := S10000x256) (fun a => cc1_transform_1 i a * S2048x256.size a) (fun a => (Pipeline.Clip.of (cc1_transform_1 i a) (S2048x256.size a) (S10000x256.size a)).extent (S2048x256.size a)) fun a => Pipeline.Clip.inb (Pipeline.Clip.ok_of (hstart1_1 i a))).WholeWords (EltTy.packing .f32)
  hwxs1_1 : ∀ i : grid1.Coords, EltTy.bits .f32 = 32 ∨ (Rect.unit (s := S2048x256) (fun _ => 0) (fun a => (Pipeline.Clip.of (cc1_transform_1 i a) (S2048x256.size a) (S10000x256.size a)).extent (S2048x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x128.size a
  hwx1_2 : ∀ i : grid1.Coords, EltTy.bits .f32 = 32 ∨ (Rect.block (s := S8x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x128.size a < S10000x128.size a
  hwx1_3 : ∀ i : grid1.Coords, EltTy.bits .f32 = 32 ∨ (Rect.unit (s := S10000x128) (fun a => cc1_transform_3 i a * S1024x128.size a) (fun a => (Pipeline.Clip.of (cc1_transform_3 i a) (S1024x128.size a) (S10000x128.size a)).extent (S1024x128.size a)) fun a => Pipeline.Clip.inb (Pipeline.Clip.ok_of (hstart1_3 i a))).WholeWords (EltTy.packing .f32)
  hwxs1_3 : ∀ i : grid1.Coords, EltTy.bits .f32 = 32 ∨ (Rect.unit (s := S1024x128) (fun _ => 0) (fun a => (Pipeline.Clip.of (cc1_transform_3 i a) (S1024x128.size a) (S10000x128.size a)).extent (S1024x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S10240x10240.size a
  hwx1_4 : ∀ i : grid1.Coords, EltTy.bits .bf16 = 32 ∨ (Rect.block (s := S10240x10240) S1024x2048.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S10240x10240.size a
  hwx2_0 : ∀ i : grid2.Coords, EltTy.bits .bf16 = 32 ∨ (Rect.block (s := S10240x10240) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x128.size a < S10000x128.size a
  hwx2_1 : ∀ i : grid2.Coords, EltTy.bits .f32 = 32 ∨ (Rect.unit (s := S10000x128) (fun a => cc2_transform_1 i a * S2048x128.size a) (fun a => (Pipeline.Clip.of (cc2_transform_1 i a) (S2048x128.size a) (S10000x128.size a)).extent (S2048x128.size a)) fun a => Pipeline.Clip.inb (Pipeline.Clip.ok_of (hstart2_1 i a))).WholeWords (EltTy.packing .f32)
  hwxs2_1 : ∀ i : grid2.Coords, EltTy.bits .f32 = 32 ∨ (Rect.unit (s := S2048x128) (fun _ => 0) (fun a => (Pipeline.Clip.of (cc2_transform_1 i a) (S2048x128.size a) (S10000x128.size a)).extent (S2048x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1024x128.size a < S10000x128.size a
  hwx2_2 : ∀ i : grid2.Coords, EltTy.bits .f32 = 32 ∨ (Rect.unit (s := S10000x128) (fun a => cc2_transform_2 i a * S1024x128.size a) (fun a => (Pipeline.Clip.of (cc2_transform_2 i a) (S1024x128.size a) (S10000x128.size a)).extent (S1024x128.size a)) fun a => Pipeline.Clip.inb (Pipeline.Clip.ok_of (hstart2_2 i a))).WholeWords (EltTy.packing .f32)
  hwxs2_2 : ∀ i : grid2.Coords, EltTy.bits .f32 = 32 ∨ (Rect.unit (s := S1024x128) (fun _ => 0) (fun a => (Pipeline.Clip.of (cc2_transform_2 i a) (S1024x128.size a) (S10000x128.size a)).extent (S1024x128.size a)) fun a => (Nat.zero_add _).trans_le (Pipeline.Clip.extent_le (Pipeline.Clip.ok_of (hstart2_2 i a)))).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_arg1) S1024x2048.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v0) S2048x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v2) S8x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v3_0) S1024x128.size cc1_transform_3 reads1_3 true false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_v3_1) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond3 i == 1#1) | 4 => fun i => !(k1_cond2 i == 1#1) && !(k1_cond3 i == 1#1) | ⟨_ + 5, h⟩ => absurd h (Nat.not_lt.2 (Nat.le_add_left _ _))

abbrev win2_0 : Pipeline.Window sig grid2 :=
  Pipeline.Window.ofSpec (Memref.whole main_v3_1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v3_0) S2048x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v4) S1024x128.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond3 i == 1#1) | ⟨_ + 3, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S_ : Shape := ⟨0, ![]⟩
abbrev S10000x1 : Shape := ⟨2, ![10000, 1]⟩

abbrev nBuf : Space → Nat
  | .hbm => 32
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S128x128, .f32⟩
  | .hbm, ⟨4, _⟩ => ⟨S128x1, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x1, .f32⟩
  | .hbm, ⟨15, _⟩ => ⟨S10000x1, .f32⟩
  | .hbm, ⟨16, _⟩ => ⟨S10000x1, .f32⟩
  | .hbm, ⟨17, _⟩ => ⟨S_, .f32⟩
  | .hbm, ⟨18, _⟩ => ⟨S10000x1, .f32⟩
  | .hbm, ⟨19, _⟩ => ⟨S10000x1, .f32⟩
  | .hbm, ⟨20, _⟩ => ⟨S_, .f32⟩
  | .hbm, ⟨21, _⟩ => ⟨S10000x1, .f32⟩
  | .hbm, ⟨22, _⟩ => ⟨S10000x1, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x1, .f32⟩
  | .hbm, ⟨27, _⟩ => ⟨S10000x1, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_cst : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.Pf.Base.lean ====
/- The resource algebra every module of this proof is stated over: two copies of the rounds algebra side by side.
   The left copy funds the staging cells of the regions the launch theorem runs; the right copy funds, a second
   time, the cells of the last region, whose proof data are chosen only once the contents the second region leaves
   in the bf16 copy of the adjacency are known. -/
import proofs.«145375_g77163382440895_cont_9to1c4b_61_6_alg».proof.Proof.Gen.KernelIdeal.Launch
import proofs.«145375_g77163382440895_cont_9to1c4b_61_6_alg».proof.Proof.Gen.KernelIdeal.Skeleton
import proofs.«145375_g77163382440895_cont_9to1c4b_61_6_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic
import Idealize.ShloMosaic.Lib.ValueIdx

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

/-- Two copies of the rounds algebra. -/
abbrev U2 : Type := UR sig nD τ × UR sig nD τ

/-- The machine's algebra over it, at the value family `F`. -/
abbrev M2 (F : FTy → Type) [FloatOps F] : Type := MT nD τ sig Unit (Elt F) ℕ U2 ℕ

end Cert.KernelIdeal.Pf

end
-- ==== Proof.Pf.Runs0.lean ====
/- The first kernel's body, run once on whole staging buffers: it copies the block of the second operand into the
   left 128 columns of the result's buffer and stores the product of the first operand's block with the third
   operand into the right 128 columns. -/
import proofs.«145375_g77163382440895_cont_9to1c4b_61_6_alg».proof.Proof.Pf.Base
import Idealize.ShloMosaic.Lib.Pipeline.Value

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

variable {F : FTy → Type} [FloatOps F]

local notation "𝕄" => M2 F

/-- The rectangle of the first store: the left 128 columns of the result's buffer. -/
abbrev k0_rL : Rect S2000x256 := Rect.unit (s := S2000x256) ![0, 0] S2000x128.size inb_S2000x256_S2000x128_0_0
/-- The rectangle of the second store: the right 128 columns. -/
abbrev k0_rR : Rect S2000x256 := Rect.unit (s := S2000x256) ![0, 128] S2000x128.size inb_S2000x256_S2000x128_0_128
/-- The whole of a 2000x128 buffer, as the loads of the first two operands spell it. -/
abbrev k0_rA : Rect S2000x128 := Rect.unit (s := S2000x128) ![0, 0] S2000x128.size inb_S2000x128_S2000x128_0_0
/-- The whole of the third operand's buffer. -/
abbrev k0_rB : Rect S128x128 := Rect.unit (s := S128x128) ![0, 0] S128x128.size inb_S128x128_S128x128_0_0

/-- What the result's buffer holds after the body, as ONE function of the three input blocks: the two stores as pieces,
    the last one first; each load of a whole input buffer reads its contents. -/
def out0 (x1 : Vec F S2000x128 .f32) (x2 : Vec F S2000x128 .f32) (x3 : Vec F S128x128 .f32) : Vec F S2000x256 .f32 :=
  View.canon [⟨k0_rR, k0_pay1 (View.ld x1 k0_rA) (View.ld x3 k0_rB)⟩, ⟨k0_rL, View.ld x2 k0_rA⟩]

/-- The two stores are the two 2000x128 blocks of the 2000x256 buffer, so they cover it. -/
theorem k0_cover (p0 p1 : Vec F S2000x128 .f32) (y : S2000x256.Idx) :
    ∃ pc ∈ ([⟨k0_rR, p0⟩, ⟨k0_rL, p1⟩] : List (View.Piece (Elt F) S2000x256 .f32)), y ∈ pc.1.set :=
  View.cover_of_tiled [⟨k0_rR, p0⟩, ⟨k0_rL, p1⟩] S2000x128.size (by rfl) y

/-- An index of the left half is off the right store's rectangle, whose columns start at 128. -/
theorem k0_not_mem_rR (r : Fin 2000) (q : Fin 128) :
    (ix2 r (⟨q.val, by omega⟩ : Fin 256) : S2000x256.Idx) ∉ k0_rR.set := by
  intro h
  have h1 := (Rect.mem_set_unit.mp h) 1
  have h2 : 128 ≤ q.val := h1.1
  omega

/-- An index (r, q) of the left half is the left store's rectangle's own index (r, q). -/
theorem k0_emb_rL (r : Fin 2000) (q : Fin 128) :
    (ix2 r (⟨q.val, by omega⟩ : Fin 256) : S2000x256.Idx) = k0_rL.emb (ix2 r q) := by
  funext a
  match a with
  | ⟨0, _⟩ => exact Fin.ext (by rw [Rect.emb_apply]; simp)
  | ⟨1, _⟩ => exact Fin.ext (by rw [Rect.emb_apply]; simp)

/-- An index (r, 128 + q) of the right half is the right store's rectangle's own index (r, q). -/
theorem k0_emb_rR (r : Fin 2000) (q : Fin 128) :
    (ix2 r (⟨128 + q.val, by omega⟩ : Fin 256) : S2000x256.Idx) = k0_rR.emb (ix2 r q) := by
  funext a
  match a with
  | ⟨0, _⟩ => exact Fin.ext (by rw [Rect.emb_apply]; simp)
  | ⟨1, _⟩ => exact Fin.ext (by rw [Rect.emb_apply]; simp)

/-- A load of a whole 2000x128 buffer reads its contents. -/
theorem k0_ld_rA (x : Vec F S2000x128 .f32) : View.ld x k0_rA = x :=
  View.ld_unit_zero (by funext a; fin_cases a <;> rfl) _ x

/-- A load of the whole 128x128 buffer reads its contents. -/
theorem k0_ld_rB (x : Vec F S128x128 .f32) : View.ld x k0_rB = x :=
  View.ld_unit_zero (by funext a; fin_cases a <;> rfl) _ x

set_option maxHeartbeats 1000000 in
/-- The body's run: the printed body is its skeleton; run load by load and store by store, it leaves the inputs'
    buffers as they were and the result's buffer reading as the two stores' pieces over whatever it held: since
    the pieces cover it, as `out0`. -/
theorem run0 (c : Dev nD) (E : Set ℕ) (i : grid0.Coords)
    (a1 : Memref sig .tc .vmem S2000x128 .f32) (h1 : a1.IsWhole) (a2 : Memref sig .tc .vmem S2000x128 .f32) (h2 : a2.IsWhole)
    (a3 : Memref sig .tc .vmem S128x128 .f32) (h3 : a3.IsWhole) (a4 : Memref sig .tc .vmem S2000x256 .f32) (h4 : a4.IsWhole)
    (x1 : Vec F S2000x128 .f32) (x2 : Vec F S2000x128 .f32) (x3 : Vec F S128x128 .f32) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
              ∗ owns (c : Thread nD τ) a4 fullShare (out0 x1 x2 x3)) -∗ K ⟨⟩))
      ⊢ wp frame (wpE (defs₀ (F := F)) Variants.none c none) E (cc0__build_w_kernel i a1 h1 a2 h2 a3 h3 a4 h4) K := by
  simp only [cc0__build_w_kernel_eq_skeleton]; unfold cc0__build_w_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (k0_cover _ _)

/-- The result's buffer read at an index: the second operand's block in the left half, -/
theorem out0_left (x1 : Vec F S2000x128 .f32) (x2 : Vec F S2000x128 .f32) (x3 : Vec F S128x128 .f32)
    (r : Fin 2000) (q : Fin 128) :
    out0 x1 x2 x3 (ix2 r (⟨q.val, by omega⟩ : Fin 256)) = x2 (ix2 r q) := by
  unfold out0
  have h := View.canon_cons_of_not_mem (Val := Elt F)
    (⟨k0_rR, k0_pay1 (View.ld x1 k0_rA) (View.ld x3 k0_rB)⟩ : View.Piece (Elt F) S2000x256 .f32)
    [⟨k0_rL, View.ld x2 k0_rA⟩] (k0_not_mem_rR r q)
  rw [h, k0_emb_rL, View.canon_cons_emb, k0_ld_rA]

/-- the product in the right half. -/
theorem out0_right (x1 : Vec F S2000x128 .f32) (x2 : Vec F S2000x128 .f32) (x3 : Vec F S128x128 .f32)
    (r : Fin 2000) (q : Fin 128) :
    out0 x1 x2 x3 (ix2 r (⟨128 + q.val, by omega⟩ : Fin 256)) = k0_pay1 x1 x3 (ix2 r q) := by
  unfold out0
  rw [k0_emb_rR, View.canon_cons_emb, k0_ld_rA, k0_ld_rB]

end Cert.KernelIdeal.Pf

end
-- ==== Proof.Pf.Reg0.lean ====
/- The first kernel region: the pipeline that builds the stacked right-hand side [w1 | x w2], five row blocks of 2000.
   Stated at any contents V of the unscoped buffers at the region's entry and any resource Ex that rides along: the
   proof data (exact: what the body leaves is named), the body obligation from the body's run, the four entailments
   around the region's thread states, and what the region leaves in its result array. -/
import proofs.«145375_g77163382440895_cont_9to1c4b_61_6_alg».proof.Proof.Pf.Runs0
import proofs.«145375_g77163382440895_cont_9to1c4b_61_6_alg».proof.Proof.Gen.KernelIdeal.Regions
import Idealize.ShloMosaic.Lib.Pipeline.Regions
import Idealize.ShloMosaic.Lib.Pipeline.RegionsLoop
import Idealize.ShloMosaic.Lib.Pipeline.FrameBody

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

variable {F : FTy → Type} [FloatOps F]

local notation "𝕄" => M2 F

section Region0

variable (V : (c : Dev nD) → Valuation τ sig (Elt F))
variable (Ex : Dev nD → sProp (M2 F))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place: window 0, -/
theorem before0_0_of {c : Dev nD} (dat : Dat τ (Elt F) Unit ℕ U2 ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- window 1, -/
theorem before0_1_of {c : Dev nD} (dat : Dat τ (Elt F) Unit ℕ U2 ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- window 2 (fetched at the first point only: its block index never moves). -/
theorem before0_2_of {c : Dev nD} (dat : Dat τ (Elt F) Unit ℕ U2 ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The proof data of the first pipeline on core `c`: the arrays as the region finds them; after the body at point `t`
    each input's buffer at its block and the result's at `out0` of the three input blocks; the invariant the scoped
    buffers no window stages and the generator register, untouched; nothing owed; full shares. -/
def dat0 (c : Dev nD) : Dat τ (Elt F) Unit ℕ U2 ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- The body at any point: the inputs' buffers hold their blocks, so the body's run applies; the invariant and the
    core's dues pass through unread. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The proof data read relationally. -/
def rd0 (c : Dev nD) : RDat τ (Elt F) Unit ℕ U2 ℕ cfg0 c := (dat0 V c).toR

/-- The body obligation of the relational data. -/
theorem hbody0 (c : Dev nD) : (rd0 V c).BodyObligation (defs₀ (F := F)) Variants.none () Set.univ :=
  (body_obligation0 V c).toR

/-! ## The thread states around the region -/

/-- What the region leaves in its result array: the entry contents, each of the five row blocks overwritten by what
    the body left at its point. -/
def o1 (c : Dev nD) : Buf (Elt F) ((c : Thread nD τ).loc main_v0) := (dat0 V c).arrAt 3 cfg0.N

/-- Entered from: every unscoped buffer at `V`, the generator register at some state, nothing owed, the rider. -/
abbrev pre0 (c : Dev nD) : sProp 𝕄 :=
  iprop(StableHlo.held (c : Thread nD τ) (Pipeline.ucRefs τ sig) (V c) ∗ (∃ r, prngReg c r)
    ∗ (∃ W, owes (c : Thread nD τ) (0 : CellTallies nD τ sig Unit) W) ∗ Ex c)

/-- The unscoped buffers' contents at the region's exit: as at entry, the result array at what the region leaves in it. -/
abbrev Vout0 (c : Dev nD) : Valuation τ sig (Elt F) := Function.update (V c) main_v0 (o1 V c)

/-- Left at: the same with the result array at what the region leaves in it. -/
abbrev post0 (c : Dev nD) : sProp 𝕄 :=
  iprop(StableHlo.held (c : Thread nD τ) (Pipeline.ucRefs τ sig) (Vout0 V c) ∗ (∃ r, prngReg c r)
    ∗ (∃ W, owes (c : Thread nD τ) (0 : CellTallies nD τ sig Unit) W) ∗ Ex c)

/-- What enters the invariant and what it gives back: the generator register. -/
abbrev X0 (c : Dev nD) : sProp 𝕄 := iprop(∃ r, prngReg c r)
abbrev Y0 (c : Dev nD) : sProp 𝕄 := iprop(∃ r, prngReg c r)
/-- What bypasses the region: the unscoped buffers that are no window's array, and the rider. -/
abbrev Z0 (c : Dev nD) : sProp 𝕄 :=
  iprop(Pipeline.unscopedRest (Ix := Unit) (Name := ℕ) (U := U2) (Lvl := ℕ) spec0 c (fun b => V c b) ∗ Ex c)

/-- The exit valuation has each window's array at what the write-backs leave, -/
theorem hF0 (c : Dev nD) (w : Fin cfg0.W) :
    (dat0 V c).arrAt w cfg0.N = Vout0 V c (Pipeline.arrRef spec0 w) := by
  match w with
  | ⟨0, _⟩ => exact ((dat0 V c).arrAt_in 0 rfl _).trans ((A_eq0 V c 0).trans (Function.update_of_ne (StableHlo.devRef_ne_of_ne (by decide)) _ _).symm)
  | ⟨1, _⟩ => exact ((dat0 V c).arrAt_in 1 rfl _).trans ((A_eq0 V c 1).trans (Function.update_of_ne (StableHlo.devRef_ne_of_ne (by decide)) _ _).symm)
  | ⟨2, _⟩ => exact ((dat0 V c).arrAt_in 2 rfl _).trans ((A_eq0 V c 2).trans (Function.update_of_ne (StableHlo.devRef_ne_of_ne (by decide)) _ _).symm)
  | ⟨3, _⟩ => exact (Function.update_self (β := fun b : DevRef τ sig => b.ty.Contents (Elt F)) _ _ _).symm

/-- and every other buffer as at entry. -/
theorem hrest0 (c : Dev nD) (b : Ref sig .tc) (hb : b ∉ Finset.univ.image (Pipeline.arrRef spec0)) :
    Vout0 V c b = V c b :=
  Function.update_of_ne (StableHlo.devRef_ne_of_ne fun e : b = main_v0 => hb (Finset.mem_image.mpr ⟨3, Finset.mem_univ _, e.symm⟩)) _ _

/-! ## The four entailments -/

variable (L : GSem nD τ sig → Finset Unit) (lv : GSem nD τ sig → Unit → ℕ)

set_option backward.isDefEq.respectTransparency.types false in
/-- ENTRY: the windows' arrays split out of the unscoped buffers; the generator register set aside for the invariant;
    the rest and the rider bypass the region. -/
theorem hentry0 (c : Dev nD) :
    iprop(pre0 V Ex c ∗ Pipeline.ownSems0 (fun k : PEmpty => k.elim) c ∗ levAts L lv)
      ⊢ |={Set.univ}=> iprop((rd0 V c).arrays (rd0 V c).A ∗ Pipeline.prefHeld (pcfgs (F := F) 0).pre c (fun _ => fullShare) (adm (F := F) 0).1
          ∗ (rd0 V c).owesAt () 0 ∗ X0 (F := F) c ∗ Z0 V Ex c) := by
  rw [Pipeline.ownSems0_none]
  have hsplit := Pipeline.RDat.arrays_of_unscopedBufs (p := ()) (fun _ : Unit => pcfgs (F := F) 0) (fun _ => adm (F := F) 0)
    (fun _ c => rd0 V c) launch0.win launch0.arr_whole c ((rd0 V c).share_full fun _ => rfl) (fun b => V c b) fun _ => rfl
  rw [Pipeline.unscopedBufs_held] at hsplit
  iintro ⟨⟨Hub, Hp, HO, HE⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.RDat.owesAt Pipeline.owesWithin
    icases HO with ⟨%W, HO⟩; iexists W; isplitr; · ipureintro; exact fun _ _ => Or.inl trivial
    iexact HO
  isplitl [Hp]; · iexact Hp
  isplitl [Hrest]; · iexact Hrest
  iexact HE

set_option backward.isDefEq.respectTransparency.types false in
/-- The invariant at the first point: the scoped buffers no window stages and the generator register. -/
theorem hin0 (c : Dev nD) :
    iprop(X0 (F := F) c ∗ Pipeline.prefHeld (pcfgs (F := F) 0).pre c (fun _ => fullShare) (adm (F := F) 0).1
        ∗ Pipeline.scopedRest (Ix := Unit) (Name := ℕ) (U := U2) (Lvl := ℕ) (Val := Elt F) (Pipeline.pin (pcfgs (F := F)) adm 0).spec c)
      ⊢ (rd0 V c).Φ 0 := by
  rw [show (rd0 V c).Φ 0 = Pipeline.ΦA spec0 c from rfl]; unfold Pipeline.ΦA
  iintro ⟨Hp, -, Hr⟩
  isplitl [Hr]; · iexact Hr
  iexact Hp

set_option backward.isDefEq.respectTransparency.types false in
/-- The invariant at the last point gives them back; the kernel has no semaphore of its own. -/
theorem hout0 (c : Dev nD) :
    (rd0 V c).Φ (Fin.last (Pipeline.pin (pcfgs (F := F)) adm 0).N)
      ⊢ iprop(Y0 (F := F) c ∗ Pipeline.ownSems0 (fun k : PEmpty => k.elim) c
        ∗ Pipeline.scopedRest (Ix := Unit) (Name := ℕ) (U := U2) (Lvl := ℕ) (Val := Elt F) (Pipeline.pin (pcfgs (F := F)) adm 0).spec c) := by
  rw [Pipeline.ownSems0_none, show (rd0 V c).Φ (Fin.last (Pipeline.pin (pcfgs (F := F)) adm 0).N) = Pipeline.ΦA spec0 c from rfl]; unfold Pipeline.ΦA
  iintro ⟨Hr, Hp⟩
  isplitl [Hp]; · iexact Hp
  isplitr; · iempintro
  iexact Hr

set_option backward.isDefEq.respectTransparency.types false in
/-- EXIT: for exact data the arrays are at what the write-backs leave; put back among the unscoped buffers they make
    the exit valuation. -/
theorem hexit0 (c : Dev nD) :
    iprop((rd0 V c).arraysAt (Pipeline.pin (pcfgs (F := F)) adm 0).N ∗ (rd0 V c).owesAt () (Fin.last (Pipeline.pin (pcfgs (F := F)) adm 0).N)
        ∗ Y0 (F := F) c ∗ Z0 V Ex c)
      ⊢ |={Set.univ}=> post0 V Ex c := by
  have hjoin := Pipeline.unscopedBufs_of_arrays (p := ()) (fun _ : Unit => pcfgs (F := F) 0) (fun _ => adm (F := F) 0)
    launch0.win launch0.arr_whole c (fun _ c => dat0 V c) ((dat0 V c).share_full fun _ => rfl)
    (fun b => V c b) (fun b => Vout0 V c b) ((dat0 V c).arrAt · cfg0.N) (hF0 V c) (hrest0 V c)
  rw [Pipeline.unscopedBufs_held] at hjoin
  rw [show (rd0 V c).arraysAt (Pipeline.pin (pcfgs (F := F)) adm 0).N = (dat0 V c).arrays ((dat0 V c).arrAt · cfg0.N) from (dat0 V c).toR_arraysAt_eq cfg0.N]
  iintro ⟨Ha, HO, HY, Hrest, HE⟩
  imodintro
  isplitl [Ha Hrest]
  · iapply hjoin; isplitl [Ha] <;> iassumption
  isplitl [HY]; · iexact HY
  isplitl [HO]
  · unfold Pipeline.RDat.owesAt Pipeline.owesWithin
    icases HO with ⟨%W, -, HO⟩; iexists W; iexact HO
  iexact HE

end Region0

end Cert.KernelIdeal.Pf

end
-- ==== Proof.Pf.Runs1.lean ====
/- The second kernel's body, run once on whole staging buffers and the accumulator, in each of the three cases of its
   reduction axis: the first block of the reduction (the accumulator is reset, then added to), a middle block (added
   to), and the last block (the tail of the reduction masked off, the gate computed and the result block stored). -/
import proofs.«145375_g77163382440895_cont_9to1c4b_61_6_alg».proof.Proof.Pf.Base
import Idealize.ShloMosaic.Lib.Pipeline.Value

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

variable {F : FTy → Type} [FloatOps F]

local notation "𝕄" => M2 F

/-! ## The three branch conditions

Each is a chain of word comparisons on the reduction coordinate, which takes five values: decided value by value. -/

/-- The first condition holds exactly at coordinate zero, -/
private theorem c1_iff : ∀ k : Fin 5, (Scalar.cmpi .ne (Scalar.extui (Scalar.cmpi .eq (BitVec.ofNat 32 k.val) 0#32)) 0#32 = 1#1) ↔ k.val = 0 := by decide
/-- the second exactly below four, -/
private theorem c2_iff : ∀ k : Fin 5, (Scalar.cmpi .ne (Scalar.extui (Scalar.cmpi .slt (BitVec.ofNat 32 k.val) 4#32)) 0#32 = 1#1) ↔ k.val < 4 := by decide
/-- the third exactly at four. -/
private theorem c3_iff : ∀ k : Fin 5, (Scalar.cmpi .ne (Scalar.extui (Scalar.cmpi .eq (BitVec.ofNat 32 k.val) 4#32)) 0#32 = 1#1) ↔ k.val = 4 := by decide

/-- The same at a grid point, whose second coordinate ranges over the five blocks of the reduction. -/
private theorem cond1_iff (i : grid1.Coords) : (Scalar.cmpi .ne (Scalar.extui (Scalar.cmpi .eq (BitVec.ofNat 32 (i 1).val) 0#32)) 0#32 = 1#1) ↔ (i 1).val = 0 := c1_iff (i 1)
private theorem cond2_iff (i : grid1.Coords) : k1_cond2 i = 1#1 ↔ (i 1).val < 4 := c2_iff (i 1)
private theorem cond3_iff (i : grid1.Coords) : k1_cond3 i = 1#1 ↔ (i 1).val = 4 := c3_iff (i 1)

/-! ## Whole-buffer accesses

Every access of this body is through the rectangle at offsets zero; all but one are of the buffer's own extents. -/

/-- The zero offsets, as the body spells them. -/
private theorem zeros2 : (![0, 0] : Fin 2 → Nat) = fun _ => 0 := funext fun a => by fin_cases a <;> rfl

/-- A load of the whole of a whole memref, held at the raw contents that read `X`, reads `X`. -/
private theorem readAt_whole_unread {κ : Kind} {sp : Space} {s : Shape} {e : EltTy} {m : Memref sig κ sp s e} (h : m.IsWhole)
    (X : s.Idx → Elt F e) {off : Fin s.rank → Nat} (hz : off = fun _ => 0) (inb : ∀ a, off a + s.size a ≤ s.size a) :
    m.view.readAt (Elt F) (Rect.unit off s.size inb).toLoadRect (h.unread X) = X := by
  rw [View.readAt_eq_ld, h.read_unread, View.ld_unit_zero hz]

/-- What a buffer reads after a run of stores the last of which wrote the whole of it: that store's payload. -/
private theorem read_writes_whole {κ : Kind} {sp : Space} {s : Shape} {e : EltTy} (v : View sig κ sp s e)
    (f : v.ty.Contents (Elt F)) {off : Fin s.rank → Nat} (hz : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, View.mem_set_unit_zero hz inb y⟩),
    View.canon_cons_unit_zero hz inb w L]

/-! ## The row of gate weights -/

/-- The first row of the gate-weights tile, as the body loads it. -/
def hrow (xh : Vec F S8x128 .f32) : Vec F S1x128 .f32 :=
  View.ld xh (Rect.unit (s := S8x128) ![0, 0] S1x128.size inb_S8x128_S1x128_0_0)

/-- It is row 0 of the tile. -/
theorem hrow_apply (xh : Vec F S8x128 .f32) (q : Fin 128) : hrow xh (ix2 (0 : Fin 1) q) = xh (ix2 (0 : Fin 8) q) := by
  unfold hrow View.ld
  refine congrArg xh (funext fun a => Fin.ext ?_)
  fin_cases a
  · rfl
  · show 0 + 1 * q.val = q.val
    omega

/-! ## The three runs -/

/-- First block of the reduction: the accumulator, whatever it held, ends at the first partial product; the bf16
    copy's buffer at the converted block; the result's buffer untouched. -/
theorem run1_first (c : Dev nD) (E : Set ℕ) (i : grid1.Coords)
    (a2 : Memref sig .tc .vmem S1024x2048 .f32) (h2 : a2.IsWhole) (a3 : Memref sig .tc .vmem S2048x256 .f32) (h3 : a3.IsWhole)
    (a4 : Memref sig .tc .vmem S8x128 .f32) (h4 : a4.IsWhole) (a5 : Memref sig .tc .vmem S1024x128 .f32) (h5 : a5.IsWhole)
    (a6 : Memref sig .tc .vmem S1024x2048 .bf16) (h6 : a6.IsWhole) (a7 : Memref sig .tc .vmem S1024x256 .f32) (h7 : a7.IsWhole)
    (xa : Vec F S1024x2048 .f32) (xw : Vec F S2048x256 .f32) (xh : Vec F S8x128 .f32) (K : PUnit → sProp 𝕄)
    (hk : (i 1).val = 0) (xy : Vec F S1024x128 .f32) :
    iprop(owns (c : Thread nD τ) a2 fullShare xa ∗ owns (c : Thread nD τ) a3 fullShare xw ∗ owns (c : Thread nD τ) a4 fullShare xh ∗ owns (c : Thread nD τ) a5 fullShare xy
        ∗ (∃ d, owns (c : Thread nD τ) a6 fullShare d) ∗ (∃ s, owns (c : Thread nD τ) a7 fullShare s)
        ∗ (iprop(owns (c : Thread nD τ) a2 fullShare xa ∗ owns (c : Thread nD τ) a3 fullShare xw ∗ owns (c : Thread nD τ) a4 fullShare xh ∗ owns (c : Thread nD τ) a5 fullShare xy
              ∗ owns (c : Thread nD τ) a6 fullShare (k1_pay2 xa) ∗ owns (c : Thread nD τ) a7 fullShare (k1_pay3 xa (k1_pay1 (F := F)) xw)) -∗ K ⟨⟩))
      ⊢ wp frame (wpE (defs₀ (F := F)) Variants.none c none) E (cc1__stage1_kernel i a2 h2 a3 h3 a4 h4 a5 h5 a6 h6 a7 h7) K := by
  have hc1 : (Scalar.cmpi .ne (Scalar.extui (Scalar.cmpi .eq (BitVec.ofNat 32 (i 1).val) 0#32)) 0#32 = 1#1) := (cond1_iff i).mpr hk
  have hc2 : k1_cond2 i = 1#1 := (cond2_iff i).mpr (by omega)
  have hc3 : ¬ (k1_cond3 i = 1#1) := fun h => by have := (cond3_iff i).mp h; omega
  simp only [cc1__stage1_kernel_eq_skeleton]; unfold cc1__stage1_kernel_skel
  unfold owns
  iintro ⟨⟨%f2, %hf2, H2⟩, ⟨%f3, %hf3, H3⟩, ⟨%f4, %hf4, H4⟩, ⟨%f5, %hf5, H5⟩, ⟨%d6, %f6, -, H6⟩, ⟨%s7, %f7, -, H7⟩, Hk⟩
  obtain rfl := h2.eq_unread hf2
  obtain rfl := h3.eq_unread hf3
  sl_exec (disch := first | sl_exact hc1 | sl_exact hc2 | sl_exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [read_writes_whole _ _ zeros2, readAt_whole_unread h2 xa zeros2]
  · iexists _; isplitr
    swap; · iexact H7
    ipureintro
    rw [read_writes_whole _ _ zeros2, readAt_whole_unread h2 xa zeros2, readAt_whole_unread h3 xw zeros2]
    unfold run1_first.sl.v12 run1_first.sl.H7_1
    rw [View.readCov_unit_zero a7.view zeros2]

/-- A middle block: the accumulator gains the block's partial product. -/
theorem run1_mid (c : Dev nD) (E : Set ℕ) (i : grid1.Coords)
    (a2 : Memref sig .tc .vmem S1024x2048 .f32) (h2 : a2.IsWhole) (a3 : Memref sig .tc .vmem S2048x256 .f32) (h3 : a3.IsWhole)
    (a4 : Memref sig .tc .vmem S8x128 .f32) (h4 : a4.IsWhole) (a5 : Memref sig .tc .vmem S1024x128 .f32) (h5 : a5.IsWhole)
    (a6 : Memref sig .tc .vmem S1024x2048 .bf16) (h6 : a6.IsWhole) (a7 : Memref sig .tc .vmem S1024x256 .f32) (h7 : a7.IsWhole)
    (xa : Vec F S1024x2048 .f32) (xw : Vec F S2048x256 .f32) (xh : Vec F S8x128 .f32) (K : PUnit → sProp 𝕄)
    (hk0 : (i 1).val ≠ 0) (hk4 : (i 1).val < 4) (xy : Vec F S1024x128 .f32) (s : Vec F S1024x256 .f32) :
    iprop(owns (c : Thread nD τ) a2 fullShare xa ∗ owns (c : Thread nD τ) a3 fullShare xw ∗ owns (c : Thread nD τ) a4 fullShare xh ∗ owns (c : Thread nD τ) a5 fullShare xy
        ∗ (∃ d, owns (c : Thread nD τ) a6 fullShare d) ∗ owns (c : Thread nD τ) a7 fullShare s
        ∗ (iprop(owns (c : Thread nD τ) a2 fullShare xa ∗ owns (c : Thread nD τ) a3 fullShare xw ∗ owns (c : Thread nD τ) a4 fullShare xh ∗ owns (c : Thread nD τ) a5 fullShare xy
              ∗ owns (c : Thread nD τ) a6 fullShare (k1_pay2 xa) ∗ owns (c : Thread nD τ) a7 fullShare (k1_pay3 xa s xw)) -∗ K ⟨⟩))
      ⊢ wp frame (wpE (defs₀ (F := F)) Variants.none c none) E (cc1__stage1_kernel i a2 h2 a3 h3 a4 h4 a5 h5 a6 h6 a7 h7) K := by
  have hc1 : ¬ (Scalar.cmpi .ne (Scalar.extui (Scalar.cmpi .eq (BitVec.ofNat 32 (i 1).val) 0#32)) 0#32 = 1#1) := fun h => hk0 ((cond1_iff i).mp h)
  have hc2 : k1_cond2 i = 1#1 := (cond2_iff i).mpr hk4
  have hc3 : ¬ (k1_cond3 i = 1#1) := fun h => by have := (cond3_iff i).mp h; omega
  simp only [cc1__stage1_kernel_eq_skeleton]; unfold cc1__stage1_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := h2.eq_unread hf2
  obtain rfl := h3.eq_unread hf3
  obtain rfl := h7.eq_unread hf7
  sl_exec (disch := first | sl_exact hc1 | sl_exact hc2 | sl_exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [read_writes_whole _ _ zeros2, readAt_whole_unread h2 xa zeros2]
  · iexists _; isplitr
    swap; · iexact H7
    ipureintro
    rw [read_writes_whole _ _ zeros2, readAt_whole_unread h2 xa zeros2, readAt_whole_unread h7 s zeros2,
      readAt_whole_unread h3 xw zeros2]

/-- The last block: the bf16 copy's buffer at the masked, converted block; the result's buffer at the gated
    combination of the two halves of the finished accumulation; the accumulator itself untouched. -/
theorem run1_last (c : Dev nD) (E : Set ℕ) (i : grid1.Coords)
    (a2 : Memref sig .tc .vmem S1024x2048 .f32) (h2 : a2.IsWhole) (a3 : Memref sig .tc .vmem S2048x256 .f32) (h3 : a3.IsWhole)
    (a4 : Memref sig .tc .vmem S8x128 .f32) (h4 : a4.IsWhole) (a5 : Memref sig .tc .vmem S1024x128 .f32) (h5 : a5.IsWhole)
    (a6 : Memref sig .tc .vmem S1024x2048 .bf16) (h6 : a6.IsWhole) (a7 : Memref sig .tc .vmem S1024x256 .f32) (h7 : a7.IsWhole)
    (xa : Vec F S1024x2048 .f32) (xw : Vec F S2048x256 .f32) (xh : Vec F S8x128 .f32) (K : PUnit → sProp 𝕄)
    (hk : (i 1).val = 4) (s : Vec F S1024x256 .f32) :
    iprop(owns (c : Thread nD τ) a2 fullShare xa ∗ owns (c : Thread nD τ) a3 fullShare xw ∗ owns (c : Thread nD τ) a4 fullShare xh ∗ (∃ d, owns (c : Thread nD τ) a5 fullShare d)
        ∗ (∃ d, owns (c : Thread nD τ) a6 fullShare d) ∗ owns (c : Thread nD τ) a7 fullShare s
        ∗ (iprop(owns (c : Thread nD τ) a2 fullShare xa ∗ owns (c : Thread nD τ) a3 fullShare xw ∗ owns (c : Thread nD τ) a4 fullShare xh ∗ owns (c : Thread nD τ) a5 fullShare (k1_pay5 xa xw s (hrow xh))
              ∗ owns (c : Thread nD τ) a6 fullShare (k1_pay4 xa) ∗ owns (c : Thread nD τ) a7 fullShare s) -∗ K ⟨⟩))
      ⊢ wp frame (wpE (defs₀ (F := F)) Variants.none c none) E (cc1__stage1_kernel i a2 h2 a3 h3 a4 h4 a5 h5 a6 h6 a7 h7) K := by
  have hc1 : ¬ (Scalar.cmpi .ne (Scalar.extui (Scalar.cmpi .eq (BitVec.ofNat 32 (i 1).val) 0#32)) 0#32 = 1#1) := fun h => by have := (cond1_iff i).mp h; omega
  have hc2 : ¬ (k1_cond2 i = 1#1) := fun h => by have := (cond2_iff i).mp h; omega
  have hc3 : k1_cond3 i = 1#1 := (cond3_iff i).mpr hk
  simp only [cc1__stage1_kernel_eq_skeleton]; unfold cc1__stage1_kernel_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := h2.eq_unread hf2
  obtain rfl := h3.eq_unread hf3
  obtain rfl := h4.eq_unread hf4
  obtain rfl := h7.eq_unread hf7
  sl_exec (disch := first | sl_exact hc1 | sl_exact hc2 | sl_exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_whole _ _ zeros2]
    unfold run1_last.sl.r
    rw [readAt_whole_unread h2 xa zeros2, readAt_whole_unread h3 xw zeros2, readAt_whole_unread h7 s zeros2,
      View.readAt_eq_ld, h4.read_unread]
    rfl
  isplitl [H6]
  · iexists _; isplitr
    swap; · iexact H6
    ipureintro
    rw [read_writes_whole _ _ zeros2, readAt_whole_unread h2 xa zeros2]
  · iexists _; isplitr; · ipureintro; exact hf7
    iexact H7

end Cert.KernelIdeal.Pf

end
-- ==== Proof.Pf.PayIdeal.lean ====
/- The pure payloads of the three kernel bodies, read at an index at the ideal values, where a float is an extended
   real, a change of format is the identity, a product into a zero accumulator is the plain sum over the contracted
   axis, a lane reduction is the plain sum over the lanes, and a select on "the coordinate is below 1808" is an `if`
   on the coordinate. Every statement is over explicit coordinates: row `p`, column `q`, contracted coordinate `j`. -/
import proofs.«145375_g77163382440895_cont_9to1c4b_61_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pf

open Cert.KernelIdeal Cert.KernelIdeal.Gen
open Idealize.ShloMosaic Idealize.ShloMosaic.TcCoe
open Idealize.SL Idealize.SL.Sem
open Idealize.ShloMosaic.ValueIdx (ix1 ix2)
open scoped BigOperators

/-! ## A rows-by-columns product read at an index

The three products of the kernel bodies all contract the left operand's axis 1 with the right operand's axis 0 and
have no batch axis. For such dimension numbers the operand indices at result index `(p, q)` and contraction
position `c` are `(p, c)` and `(c, q)`, one coordinate lemma per axis, and the sum over the contraction index is
the sum over the coordinates of the contracted axis. -/

section Plain
variable {m k n : Nat} (D : DotDims ⟨2, ![m, k]⟩ ⟨2, ![k, n]⟩ ⟨2, ![m, n]⟩)

/-- Two reads of a rank-2 index at equal axis numbers are equal. -/
theorem idx2_val_congr {a b : Nat} (i : (⟨2, ![a, b]⟩ : Shape).Idx) (x y : Nat) (hx : x < 2) (hy : y < 2) (h : x = y) :
    (i ⟨x, hx⟩).val = (i ⟨y, hy⟩).val := by subst h; rfl

/-- The left operand's row is the result's row. -/
theorem plain_lhs_0 (hlb : D.lhsBatch = []) (hln : D.lhsNonContracting = [0])
    (i : (⟨2, ![m, n]⟩ : Shape).Idx) (c : D.contr.Idx) : (D.lhsIdx i c 0).val = (i 0).val := by
  unfold DotDims.lhsIdx
  rw [dif_neg (by rw [hlb]; exact List.not_mem_nil), dif_pos (by rw [hln]; exact List.mem_singleton.mpr rfl)]
  simp only [Fin.val_cast]
  exact idx2_val_congr i _ _ _ _ (by simp [hlb, hln])

/-- The left operand's column is the contraction position. -/
theorem plain_lhs_1 (hlc : D.lhsContracting = [1]) (i : (⟨2, ![m, n]⟩ : Shape).Idx) (c : D.contr.Idx) :
    (D.lhsIdx i c 1).val = (c ⟨0, by rw [D.rank_contr, hlc]; exact Nat.one_pos⟩).val :=
  D.lhsIdx_val_of_single hlc i c

/-- The right operand's row is the contraction position. -/
theorem plain_rhs_0 (hlc : D.lhsContracting = [1]) (hrc : D.rhsContracting = [0]) (i : (⟨2, ![m, n]⟩ : Shape).Idx) (c : D.contr.Idx) :
    (D.rhsIdx i c 0).val = (c ⟨0, by rw [D.rank_contr, hlc]; exact Nat.one_pos⟩).val :=
  D.rhsIdx_val_of_single hrc i c

/-- The right operand's column is the result's column. -/
theorem plain_rhs_1 (hlb : D.lhsBatch = []) (hrb : D.rhsBatch = []) (hln : D.lhsNonContracting = [0]) (hrn : D.rhsNonContracting = [1])
    (i : (⟨2, ![m, n]⟩ : Shape).Idx) (c : D.contr.Idx) : (D.rhsIdx i c 1).val = (i 1).val := by
  unfold DotDims.rhsIdx
  rw [dif_neg (by rw [hrb]; exact List.not_mem_nil), dif_pos (by rw [hrn]; exact List.mem_singleton.mpr rfl)]
  simp only [Fin.val_cast]
  exact idx2_val_congr i _ _ _ _ (by simp [hlb, hln, hrn])

/-- The contraction shape has one axis … -/
theorem plain_rank (hlc : D.lhsContracting = [1]) : D.contr.rank = 1 := by rw [D.rank_contr, hlc]; rfl

/-- … of the contracted extent. -/
theorem plain_size (hlc : D.lhsContracting = [1]) :
    D.contr.size ⟨0, by rw [plain_rank D hlc]; exact Nat.one_pos⟩ = k := by
  have h := D.size_contr 0 (by rw [hlc]; exact Nat.one_pos)
  simp only [hlc, List.getElem_cons_zero] at h
  exact h

/-- The sum over the contraction index is the sum over the contracted axis's coordinates. -/
theorem plain_sum (hlc : D.lhsContracting = [1]) (hrc : D.rhsContracting = [0]) (hln : D.lhsNonContracting = [0])
    (hrn : D.rhsNonContracting = [1]) (hlb : D.lhsBatch = []) (hrb : D.rhsBatch = [])
    (lhs : (⟨2, ![m, k]⟩ : Shape).Idx → EReal) (rhs : (⟨2, ![k, n]⟩ : Shape).Idx → EReal) (p : Fin m) (q : Fin n) :
    ∑ c : D.contr.Idx, lhs (D.lhsIdx (ix2 p q) c) * rhs (D.rhsIdx (ix2 p q) c) = ∑ j : Fin k, lhs (ix2 p j) * rhs (ix2 j q) := by
  rw [← Equiv.sum_comp (ValueIdx.contrEquiv1 D k (plain_rank D hlc) (plain_size D hlc)).symm]
  refine Finset.sum_congr rfl fun j _ => ?_
  have hj := ValueIdx.contrEquiv1_symm_val D k (plain_rank D hlc) (plain_size D hlc) j
  have el : D.lhsIdx (ix2 p q) ((ValueIdx.contrEquiv1 D k (plain_rank D hlc) (plain_size D hlc)).symm j) = ix2 p j :=
    Shape.idx_ext₂ (plain_lhs_0 D hlb hln _ _) ((plain_lhs_1 D hlc _ _).trans hj)
  have er : D.rhsIdx (ix2 p q) ((ValueIdx.contrEquiv1 D k (plain_rank D hlc) (plain_size D hlc)).symm j) = ix2 j q :=
    Shape.idx_ext₂ ((plain_rhs_0 D hlc hrc _ _).trans hj) (plain_rhs_1 D hlb hrb hln hrn _ _)
  rw [el, er]

end Plain

/-! ## Words and constants -/

/-- The f32 pattern `0x3F800000` is the extended real one. -/
theorem ofBits_one_f32 : Ideal.ofBits .f32 0x3F800000#32 = (1 : EReal) :=
  IdealRules.sign_bit.ideal_onePat .f32

/-- Below 2048 the signed 32-bit comparison of a coordinate with 1808 is the comparison of naturals. -/
theorem cmpi_lt_1808 : ∀ l : Fin 2048, IntOp.cmpi .slt (BitVec.ofNat 32 l.val) 1808#32 = if l.val < 1808 then 1#1 else 0#1 := by
  decide +kernel

/-- So a select on it is the `if` on the coordinate. -/
theorem select_lt_1808 {α : Type} (l : Fin 2048) (A B : α) :
    Scalar.select (IntOp.cmpi .slt (BitVec.ofNat 32 l.val) 1808#32) A B = if l.val < 1808 then A else B := by
  rw [cmpi_lt_1808 l]
  by_cases h : l.val < 1808
  · rw [if_pos h, if_pos h]; exact ValueIdx.select_one A B
  · rw [if_neg h, if_neg h]; exact ValueIdx.select_zero A B

/-- The logistic of a vector at an index is the logistic of the element. -/
theorem logistic_apply {s : Shape} {φ : FTy} (x : FVec Ideal s φ) (i : s.Idx) : logistic x i = Ideal.logistic (x i) := rfl

/-! ## The three products into a zero accumulator, read at coordinates -/

/-- The first kernel's product: 2000 by 128 times 128 by 128. -/
theorem mm0_apply (A : FVec Ideal S2000x128 .bf16) (W : FVec Ideal S128x128 .bf16) (r : Fin 2000) (q : Fin 128) :
    matmul dot_S2000x128_S128x128_S2000x128_1_0_0_1_n_n none A W (constant S2000x128 .f32 0x00000000#32) (ix2 r q)
      = ∑ j : Fin 128, A (ix2 r j) * W (ix2 j q) :=
  (Ideal.matmul_constant_zero_apply _ none A W _).trans
    (plain_sum dot_S2000x128_S128x128_S2000x128_1_0_0_1_n_n rfl rfl rfl rfl rfl rfl A W r q)

/-- The second kernel's product: 1024 by 2048 times 2048 by 256. -/
theorem mm256_apply (A : FVec Ideal S1024x2048 .bf16) (W : FVec Ideal S2048x256 .bf16) (p : Fin 1024) (q : Fin 256) :
    matmul dot_S1024x2048_S2048x256_S1024x256_1_0_0_1_n_n none A W (constant S1024x256 .f32 0x00000000#32) (ix2 p q)
      = ∑ j : Fin 2048, A (ix2 p j) * W (ix2 j q) :=
  (Ideal.matmul_constant_zero_apply _ none A W _).trans
    (plain_sum dot_S1024x2048_S2048x256_S1024x256_1_0_0_1_n_n rfl rfl rfl rfl rfl rfl A W p q)

/-- The third kernel's product: 1024 by 2048 times 2048 by 128. -/
theorem mm128_apply (A : FVec Ideal S1024x2048 .bf16) (W : FVec Ideal S2048x128 .bf16) (p : Fin 1024) (q : Fin 128) :
    matmul dot_S1024x2048_S2048x128_S1024x128_1_0_0_1_n_n none A W (constant S1024x128 .f32 0x00000000#32) (ix2 p q)
      = ∑ j : Fin 2048, A (ix2 p j) * W (ix2 j q) :=
  (Ideal.matmul_constant_zero_apply _ none A W _).trans
    (plain_sum dot_S1024x2048_S2048x128_S1024x128_1_0_0_1_n_n rfl rfl rfl rfl rfl rfl A W p q)

/-! ## The masks: a select on "the coordinate along the contracted axis is below 1808" -/

/-- On the adjacency block the contracted axis is the columns. -/
theorem mask_cols_apply {α : Type} (X Y : S1024x2048.Idx → α) (p : Fin 1024) (j : Fin 2048) :
    select (cmpi .slt (iota .tc S1024x2048 32 ([1] : List (Fin 2)) iota_S1024x2048_d1_w32) (broadcast S1024x2048 1808#32)) X Y (ix2 p j)
      = if j.val < 1808 then X (ix2 p j) else Y (ix2 p j) := by
  refine (ValueIdx.select_apply _ _ _ _).trans ?_
  rw [show cmpi .slt (iota .tc S1024x2048 32 [1] iota_S1024x2048_d1_w32) (broadcast S1024x2048 1808#32) (ix2 p j)
      = IntOp.cmpi .slt (BitVec.ofNat 32 j.val) 1808#32 from
    congrArg (IntOp.cmpi .slt · 1808#32) (iota_single_apply .tc S1024x2048 32 1 iota_S1024x2048_d1_w32 (ix2 p j))]
  exact select_lt_1808 j _ _

/-- On a weights block it is the rows: at 256 columns … -/
theorem mask_rows256_apply {α : Type} (X Y : S2048x256.Idx → α) (j : Fin 2048) (q : Fin 256) :
    select (cmpi .slt (iota .tc S2048x256 32 ([0] : List (Fin 2)) iota_S2048x256_d0_w32) (broadcast S2048x256 1808#32)) X Y (ix2 j q)
      = if j.val < 1808 then X (ix2 j q) else Y (ix2 j q) := by
  refine (ValueIdx.select_apply _ _ _ _).trans ?_
  rw [show cmpi .slt (iota .tc S2048x256 32 [0] iota_S2048x256_d0_w32) (broadcast S2048x256 1808#32) (ix2 j q)
      = IntOp.cmpi .slt (BitVec.ofNat 32 j.val) 1808#32 from
    congrArg (IntOp.cmpi .slt · 1808#32) (iota_single_apply .tc S2048x256 32 0 iota_S2048x256_d0_w32 (ix2 j q))]
  exact select_lt_1808 j _ _

/-- … and at 128. -/
theorem mask_rows128_apply {α : Type} (X Y : S2048x128.Idx → α) (j : Fin 2048) (q : Fin 128) :
    select (cmpi .slt (iota .tc S2048x128 32 ([0] : List (Fin 2)) iota_S2048x128_d0_w32) (broadcast S2048x128 1808#32)) X Y (ix2 j q)
      = if j.val < 1808 then X (ix2 j q) else Y (ix2 j q) := by
  refine (ValueIdx.select_apply _ _ _ _).trans ?_
  rw [show cmpi .slt (iota .tc S2048x128 32 [0] iota_S2048x128_d0_w32) (broadcast S2048x128 1808#32) (ix2 j q)
      = IntOp.cmpi .slt (BitVec.ofNat 32 j.val) 1808#32 from
    congrArg (IntOp.cmpi .slt · 1808#32) (iota_single_apply .tc S2048x128 32 0 iota_S2048x128_d0_w32 (ix2 j q))]
  exact select_lt_1808 j _ _

/-! ## Layout operations of the second kernel's last step, read at coordinates -/

/-- A column vector broadcast along the rows' 128 lanes reads the row's entry. -/
theorem bcast_col_apply {α : Type} (g : S1024x1.Idx → α) (p : Fin 1024) (q : Fin 128) :
    broadcastTo S1024x128 g broadcasts_S1024x1_S1024x128 (ix2 p q) = g (ix2 p (0 : Fin 1)) :=
  broadcastTo_apply g broadcasts_S1024x1_S1024x128 (ix2 p q) (ix2 p (0 : Fin 1)) fun a => by
    match a with
    | ⟨0, _⟩ => rfl
    | ⟨1, _⟩ => rfl

/-- A single row broadcast down the 1024 rows reads the lane's entry. -/
theorem bcast_row_apply {α : Type} (h : S1x128.Idx → α) (p : Fin 1024) (q : Fin 128) :
    broadcastTo S1024x128 h broadcasts_S1x128_S1024x128 (ix2 p q) = h (ix2 (0 : Fin 1) q) :=
  broadcastTo_apply h broadcasts_S1x128_S1024x128 (ix2 p q) (ix2 (0 : Fin 1) q) fun a => by
    match a with
    | ⟨0, _⟩ => rfl
    | ⟨1, _⟩ => rfl

/-- A length-1024 vector viewed as a column reads its entry. -/
theorem cast_col_apply {α : Type} (v : S1024.Idx → α) (p : Fin 1024) :
    shapeCast S1024x1 v shapeCasts_S1024_S1024x1 (ix2 p (0 : Fin 1)) = v (ix1 p) :=
  shapeCast_apply v shapeCasts_S1024_S1024x1 (ix2 p (0 : Fin 1)) (ix1 p) (by
    rw [Shape.rowMajor_val_one, Shape.rowMajor_val_two]
    show p.val = p.val * 1 + 0
    omega)

/-- The sum over the 128 lanes of a row. -/
theorem row_sum_apply (w : FVec Ideal S1024x128 .f32) (p : Fin 1024) :
    multiReduction (F := Ideal) .add ([1] : List (Fin 2)) S1024 w 0x00000000#32 reduces_S1024x128_S1024 (.inl rfl) rfl (ix1 p)
      = ∑ q' : Fin 128, w (ix2 p q') := by
  refine (Ideal.multiReduction_add_single w _ reduces_S1024x128_S1024 (.inl rfl) rfl (ix1 p)).trans ?_
  refine Finset.sum_congr rfl fun q' _ => congrArg w ?_
  exact Shape.idx_ext₂ rfl rfl

/-- The left 128 columns of a 256-column block … -/
theorem slice_left_apply {α : Type} (v : S1024x256.Idx → α) (p : Fin 1024) (q : Fin 128) :
    extractStridedSlice S1024x128 ![0, 0] v slices_S1024x256_o0_0_S1024x128 (ix2 p q)
      = v (ix2 p (⟨q.val, by omega⟩ : Fin 256)) :=
  extractStridedSlice_apply ![0, 0] v slices_S1024x256_o0_0_S1024x128 (ix2 p q) (ix2 p (⟨q.val, by omega⟩ : Fin 256)) fun a => by
    match a with
    | ⟨0, _⟩ => show p.val = 0 + p.val; omega
    | ⟨1, _⟩ => show q.val = 0 + q.val; omega

/-- … and the right 128. -/
theorem slice_right_apply {α : Type} (v : S1024x256.Idx → α) (p : Fin 1024) (q : Fin 128) :
    extractStridedSlice S1024x128 ![0, 128] v slices_S1024x256_o0_128_S1024x128 (ix2 p q)
      = v (ix2 p (⟨128 + q.val, by omega⟩ : Fin 256)) :=
  extractStridedSlice_apply ![0, 128] v slices_S1024x256_o0_128_S1024x128 (ix2 p q) (ix2 p (⟨128 + q.val, by omega⟩ : Fin 256)) fun a => by
    match a with
    | ⟨0, _⟩ => show p.val = 0 + p.val; omega
    | ⟨1, _⟩ => rfl

/-! ## The first kernel's product -/

/-- The product of the first operand's block with the third operand. -/
theorem k0_pay1_apply (x1 : Vec Ideal S2000x128 .f32) (x3 : Vec Ideal S128x128 .f32) (r : Fin 2000) (q : Fin 128) :
    k0_pay1 (F := Ideal) x1 x3 (ix2 r q) = ∑ j : Fin 128, x1 (ix2 r j) * x3 (ix2 j q) := by
  unfold k0_pay1
  simp only [mm0_apply, ValueIdx.truncf_apply]

/-! ## The second kernel's payloads -/

/-- The accumulator's initial value is zero. -/
theorem k1_pay1_apply (p : Fin 1024) (q : Fin 256) : k1_pay1 (F := Ideal) (ix2 p q) = (0 : EReal) := by
  unfold k1_pay1
  simp only [shapeCast_self, ValueIdx.broadcast_apply, Ideal.ofBits_def, Ideal.ofBits_zero_f32]

/-- The adjacency block in the narrower format is the block itself. -/
theorem k1_pay2_apply (xa : Vec Ideal S1024x2048 .f32) (p : Fin 1024) (j : Fin 2048) :
    k1_pay2 (F := Ideal) xa (ix2 p j) = xa (ix2 p j) := rfl

/-- A step inside the contracted range adds the block product to the accumulator. -/
theorem k1_pay3_apply (xa : Vec Ideal S1024x2048 .f32) (s : Vec Ideal S1024x256 .f32) (xw : Vec Ideal S2048x256 .f32)
    (p : Fin 1024) (q : Fin 256) :
    k1_pay3 (F := Ideal) xa s xw (ix2 p q) = s (ix2 p q) + ∑ j : Fin 2048, xa (ix2 p j) * xw (ix2 j q) := by
  unfold k1_pay3
  simp only [shapeCast_self, ValueIdx.addf_apply, mm256_apply, ValueIdx.truncf_apply, k1_pay2_apply]

/-- At the last step the adjacency block's columns from 1808 on are zeroed. -/
theorem k1_pay4_apply (xa : Vec Ideal S1024x2048 .f32) (p : Fin 1024) (j : Fin 2048) :
    k1_pay4 (F := Ideal) xa (ix2 p j) = if j.val < 1808 then xa (ix2 p j) else (0 : EReal) := by
  unfold k1_pay4
  simp only [ValueIdx.truncf_apply, mask_cols_apply, ValueIdx.broadcast_apply, Ideal.ofBits_def, Ideal.ofBits_zero_f32]

/-! ## The second kernel's last step -/

/-- The accumulator after the last step, at row `p` and column `col`: what the buffer held plus the product of the
    adjacency block and the weights block, each with its coordinates from 1808 on along the contracted axis zeroed. -/
def acc1 (xa : Vec Ideal S1024x2048 .f32) (xw : Vec Ideal S2048x256 .f32) (s : Vec Ideal S1024x256 .f32)
    (p : Fin 1024) (col : Fin 256) : EReal :=
  s (ix2 p col) + ∑ j : Fin 2048, (if j.val < 1808 then xa (ix2 p j) else 0) * (if j.val < 1808 then xw (ix2 j col) else 0)

/-- Its left half, clamped at zero from below. -/
def left1 (xa : Vec Ideal S1024x2048 .f32) (xw : Vec Ideal S2048x256 .f32) (s : Vec Ideal S1024x256 .f32)
    (p : Fin 1024) (q : Fin 128) : EReal :=
  max (acc1 xa xw s p ⟨q.val, by omega⟩) 0

/-- Its right half, clamped at zero from below. -/
def right1 (xa : Vec Ideal S1024x2048 .f32) (xw : Vec Ideal S2048x256 .f32) (s : Vec Ideal S1024x256 .f32)
    (p : Fin 1024) (q : Fin 128) : EReal :=
  max (acc1 xa xw s p ⟨128 + q.val, by omega⟩) 0

/-- The row's gate: the logistic of the right half's inner product with the gate vector. -/
def gate1 (xa : Vec Ideal S1024x2048 .f32) (xw : Vec Ideal S2048x256 .f32) (s : Vec Ideal S1024x256 .f32)
    (h : Vec Ideal S1x128 .f32) (p : Fin 1024) : EReal :=
  Ideal.logistic (∑ q' : Fin 128, right1 xa xw s p q' * h (ix2 (0 : Fin 1) q'))

/-- The last step's result at row `p` and column `q`: the gate times the left half plus one minus the gate times the
    right half. -/
theorem k1_pay5_apply (xa : Vec Ideal S1024x2048 .f32) (xw : Vec Ideal S2048x256 .f32) (s : Vec Ideal S1024x256 .f32)
    (h : Vec Ideal S1x128 .f32) (p : Fin 1024) (q : Fin 128) :
    k1_pay5 (F := Ideal) xa xw s h (ix2 p q)
      = gate1 xa xw s h p * left1 xa xw s p q + (1 - gate1 xa xw s h p) * right1 xa xw s p q := by
  unfold k1_pay5 gate1 left1 right1 acc1
  simp only [ValueIdx.addf_apply, ValueIdx.mulf_apply, ValueIdx.subf_apply, ValueIdx.maximumf_apply,
    ValueIdx.broadcast_apply, ValueIdx.truncf_apply, logistic_apply, bcast_col_apply, bcast_row_apply, cast_col_apply,
    row_sum_apply, slice_left_apply, slice_right_apply, shapeCast_self, mm256_apply, mask_rows256_apply, k1_pay4_apply,
    Ideal.ofBits_def, Ideal.ofBits_zero_f32, ofBits_one_f32]

/-! ## The third kernel's payloads -/

/-- The accumulator's initial value is zero. -/
theorem k2_pay1_apply (p : Fin 1024) (q : Fin 128) : k2_pay1 (F := Ideal) (ix2 p q) = (0 : EReal) := by
  unfold k2_pay1
  simp only [shapeCast_self, ValueIdx.broadcast_apply, Ideal.ofBits_def, Ideal.ofBits_zero_f32]

/-- A step inside the contracted range adds the block product to the accumulator. -/
theorem k2_pay2_apply (s : Vec Ideal S1024x128 .f32) (xa : Vec Ideal S1024x2048 .bf16) (xy : Vec Ideal S2048x128 .f32)
    (p : Fin 1024) (q : Fin 128) :
    k2_pay2 (F := Ideal) s xa xy (ix2 p q) = s (ix2 p q) + ∑ j : Fin 2048, xa (ix2 p j) * xy (ix2 j q) := by
  unfold k2_pay2
  simp only [shapeCast_self, ValueIdx.addf_apply, mm128_apply, ValueIdx.truncf_apply]

/-- The last step adds the product with the second operand's rows from 1808 on zeroed. -/
theorem k2_pay3_apply (xy : Vec Ideal S2048x128 .f32) (s : Vec Ideal S1024x128 .f32) (xa : Vec Ideal S1024x2048 .bf16)
    (p : Fin 1024) (q : Fin 128) :
    k2_pay3 (F := Ideal) xy s xa (ix2 p q)
      = s (ix2 p q) + ∑ j : Fin 2048, xa (ix2 p j) * (if j.val < 1808 then xy (ix2 j q) else 0) := by
  unfold k2_pay3
  simp only [shapeCast_self, ValueIdx.addf_apply, mm128_apply, ValueIdx.truncf_apply, mask_rows128_apply,
    ValueIdx.broadcast_apply, Ideal.ofBits_def, Ideal.ofBits_zero_f32]

end Cert.KernelIdeal.Pf

end
-- ==== Proof.Pf.Spec.lean ====
/- The function both programs compute, over the extended reals, index by index.
   With A the (10000 x 10000) adjacency, x the features, w1, w2, wh the weights:
     a = max (A w1) 0,  b = max (A (x w2)) 0  (two aggregations through the same adjacency),
     T r = logistic (∑ q, b r q * wh q)        (one gate per row),
     y = T a + (1 - T) b                        (the highway combination),
     out = A y.
   Every sum is a finite sum over the extended reals; nothing here needs finiteness of the entries. -/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

/-- An (n x m) array of extended reals, as the printed programs index it. -/
abbrev Mat (n m : Nat) : Type := (⟨2, ![n, m]⟩ : Shape).Idx → EReal

/-- The feature product x w2, entry (r, q). -/
def xw2 (x : Mat 10000 128) (w2 : Mat 128 128) (r : Fin 10000) (q : Fin 128) : EReal :=
  ∑ j : Fin 128, x (ix2 r j) * w2 (ix2 j q)

/-- The stacked right-hand side [w1 | x w2], entry (k, col), col below 256. -/
def wcat (x : Mat 10000 128) (w1 : Mat 10000 128) (w2 : Mat 128 128) (k : Fin 10000) (col : Fin 256) : EReal :=
  if h : col.val < 128 then w1 (ix2 k ⟨col.val, h⟩) else xw2 x w2 k ⟨col.val - 128, by omega⟩

/-- One aggregation through the adjacency: (A v) at (r, q) for a right-hand side given entrywise. -/
def agg {m : Nat} (A : Mat 10000 10000) (v : Fin 10000 → Fin m → EReal) (r : Fin 10000) (q : Fin m) : EReal :=
  ∑ k : Fin 10000, A (ix2 r k) * v k q

/-- The first activated aggregation a = max (A w1) 0. -/
def actA (A : Mat 10000 10000) (w1 : Mat 10000 128) (r : Fin 10000) (q : Fin 128) : EReal :=
  max (agg A (fun k q => w1 (ix2 k q)) r q) 0

/-- The second activated aggregation b = max (A (x w2)) 0. -/
def actB (A : Mat 10000 10000) (x : Mat 10000 128) (w2 : Mat 128 128) (r : Fin 10000) (q : Fin 128) : EReal :=
  max (agg A (xw2 x w2) r q) 0

/-- The gate of row r. -/
def gate (A : Mat 10000 10000) (x : Mat 10000 128) (w2 : Mat 128 128) (wh : Mat 128 1) (r : Fin 10000) : EReal :=
  Ideal.logistic (∑ q : Fin 128, actB A x w2 r q * wh (ix2 q (0 : Fin 1)))

/-- The highway combination y = T a + (1 - T) b, entry (r, q). -/
def yv (x : Mat 10000 128) (A : Mat 10000 10000) (w1 : Mat 10000 128) (w2 : Mat 128 128) (wh : Mat 128 1)
    (r : Fin 10000) (q : Fin 128) : EReal :=
  gate A x w2 wh r * actA A w1 r q + (1 - gate A x w2 wh r) * actB A x w2 r q

/-- The result out = A y, entry (r, q). -/
def outv (x : Mat 10000 128) (A : Mat 10000 10000) (w1 : Mat 10000 128) (w2 : Mat 128 128) (wh : Mat 128 1)
    (r : Fin 10000) (q : Fin 128) : EReal :=
  agg A (yv x A w1 w2 wh) r q

/-- The result as an array. -/
def G (x : Mat 10000 128) (A : Mat 10000 10000) (w1 : Mat 10000 128) (w2 : Mat 128 128) (wh : Mat 128 1) : Mat 10000 128 :=
  fun i => outv x A w1 w2 wh ⟨(i 0).val, idx2_lt0 i⟩ ⟨(i 1).val, idx2_lt1 i⟩

theorem G_apply (x : Mat 10000 128) (A : Mat 10000 10000) (w1 : Mat 10000 128) (w2 : Mat 128 128) (wh : Mat 128 1)
    (r : Fin 10000) (q : Fin 128) : G x A w1 w2 wh (ix2 r q) = outv x A w1 w2 wh r q := rfl

end Cert.Spec

end
-- ==== Proof.Pf.Blocked.lean ====
/- The reductions as the kernels perform them: the 10000 terms of a row's sum taken in five blocks of 2048, added to a
   running accumulator that starts at zero, the terms of the last block past the 10000th (there are 240 of them)
   replaced by zero. Each such accumulation is the plain sum of the specification: a finite sum over the extended reals
   may be regrouped and zero terms dropped (addition there is commutative and associative; no finiteness is needed). -/
import proofs.«145375_g77163382440895_cont_9to1c4b_61_6_alg».proof.Proof.Pf.Spec

noncomputable section

namespace Cert.Blocked

open Idealize.ShloMosaic Idealize.ShloMosaic.ValueIdx Cert.Spec

/-- Regrouping: a sum over the 10000 indices, taken as five blocks of 2048 with the terms past the 10000th replaced by
    zero, is the plain sum. Extend the summand by zero to all naturals; the sum over the first 10000 naturals is then the
    sum over the first 10240 = 5 * 2048, and an index below 5 * 2048 is 2048 * n + j for exactly one block n and offset j. -/
theorem sum_blocks {M : Type*} [AddCommMonoid M] (f : Fin 10000 → M) :
    ∑ n : Fin 5, ∑ j : Fin 2048, (if h : 2048 * n.val + j.val < 10000 then f ⟨2048 * n.val + j.val, h⟩ else 0)
      = ∑ k : Fin 10000, f k := by
  let g : ℕ → M := fun k => if h : k < 10000 then f ⟨k, h⟩ else 0
  have h1 : ∑ k : Fin 10000, f k = ∑ k ∈ Finset.range 10000, g k := by
    rw [← Fin.sum_univ_eq_sum_range]
    refine Finset.sum_congr rfl fun k _ => ?_
    show f k = if h : k.val < 10000 then f ⟨k.val, h⟩ else 0
    rw [dif_pos k.isLt]
  have h2 : ∑ k ∈ Finset.range 10000, g k = ∑ k ∈ Finset.range 10240, g k := by
    refine Finset.sum_subset (Finset.range_mono (by norm_num)) fun k _ hk => ?_
    have hk' : ¬ k < 10000 := fun h => hk (Finset.mem_range.mpr h)
    show (if h : k < 10000 then f ⟨k, h⟩ else 0) = 0
    rw [dif_neg hk']
  have h3 : ∑ k ∈ Finset.range 10240, g k = ∑ k : Fin (5 * 2048), g k.val := by
    rw [Fin.sum_univ_eq_sum_range]
  have h4 : ∑ k : Fin (5 * 2048), g k.val = ∑ n : Fin 5, ∑ j : Fin 2048, g (2048 * n.val + j.val) := by
    rw [← Equiv.sum_comp finProdFinEquiv, Fintype.sum_prod_type]
    refine Finset.sum_congr rfl fun n _ => Finset.sum_congr rfl fun j _ => ?_
    rw [finProdFinEquiv_apply_val, Nat.add_comm]
  rw [h1, h2, h3, h4]

/-- One block's partial product for row r and column col: the terms inside the 10000, the others zero. -/
def part {m : Nat} (A : Mat 10000 10000) (W : Fin 10000 → Fin m → EReal) (r : Fin 10000) (col : Fin m) (n : Fin 5) : EReal :=
  ∑ j : Fin 2048, if h : 2048 * n.val + j.val < 10000 then A (ix2 r ⟨2048 * n.val + j.val, h⟩) * W ⟨2048 * n.val + j.val, h⟩ col else 0

/-- The accumulator after the first n blocks, from zero. -/
def acc {m : Nat} (A : Mat 10000 10000) (W : Fin 10000 → Fin m → EReal) (r : Fin 10000) (col : Fin m) : Nat → EReal
  | 0 => 0
  | n + 1 => if h : n < 5 then acc A W r col n + part A W r col ⟨n, h⟩ else acc A W r col n

/-- After all five blocks the accumulator is the aggregation. -/
theorem acc_five {m : Nat} (A : Mat 10000 10000) (W : Fin 10000 → Fin m → EReal) (r : Fin 10000) (col : Fin m) :
    acc A W r col 5 = agg A W r col := by
  have h5 : acc A W r col 5
      = 0 + part A W r col 0 + part A W r col 1 + part A W r col 2 + part A W r col 3 + part A W r col 4 := rfl
  rw [h5, zero_add, ← Fin.sum_univ_five (fun n => part A W r col n)]
  exact sum_blocks (fun k => A (ix2 r k) * W k col)

/-- The left 128 columns of the stacked right-hand side are w1. -/
theorem wcat_left (x : Mat 10000 128) (w1 : Mat 10000 128) (w2 : Mat 128 128) (k : Fin 10000) (q : Fin 128) :
    wcat x w1 w2 k ⟨q.val, by omega⟩ = w1 (ix2 k q) :=
  dif_pos q.isLt

/-- The right 128 columns are the feature product x w2. -/
theorem wcat_right (x : Mat 10000 128) (w1 : Mat 10000 128) (w2 : Mat 128 128) (k : Fin 10000) (q : Fin 128) :
    wcat x w1 w2 k ⟨128 + q.val, by omega⟩ = xw2 x w2 k q := by
  have hn : ¬ (128 + q.val < 128) := by omega
  refine (dif_neg hn).trans ?_
  congr 1
  exact Fin.ext (Nat.add_sub_cancel_left 128 q.val)

/-- The second kernel's result entry from its finished accumulator (256 columns: the two aggregations side by side) and
    the gate weights' tile H (row 0 used). -/
def y1 (A : Mat 10000 10000) (W : Fin 10000 → Fin 256 → EReal) (H : Mat 8 128) (r : Fin 10000) (q : Fin 128) : EReal :=
  let b : Fin 128 → EReal := fun q' => max (acc A W r ⟨128 + q'.val, by omega⟩ 5) 0
  let T : EReal := Ideal.logistic (∑ q' : Fin 128, b q' * H (ix2 (0 : Fin 8) q'))
  T * max (acc A W r ⟨q.val, by omega⟩ 5) 0 + (1 - T) * b q

/-- It is the specification's highway combination when the stacked right-hand side is [w1 | x w2] and the tile's row 0
    is the gate weights. -/
theorem y1_eq (x : Mat 10000 128) (A : Mat 10000 10000) (w1 : Mat 10000 128) (w2 : Mat 128 128) (wh : Mat 128 1) (H : Mat 8 128)
    (hH : ∀ q : Fin 128, H (ix2 (0 : Fin 8) q) = wh (ix2 q (0 : Fin 1))) (r : Fin 10000) (q : Fin 128) :
    y1 A (wcat x w1 w2) H r q = yv x A w1 w2 wh r q := by
  have hb : ∀ q' : Fin 128, max (acc A (wcat x w1 w2) r ⟨128 + q'.val, by omega⟩ 5) 0 = actB A x w2 r q' := by
    intro q'
    rw [acc_five]
    unfold actB agg
    congr 1
    refine Finset.sum_congr rfl fun k _ => ?_
    rw [wcat_right]
  have ha : max (acc A (wcat x w1 w2) r ⟨q.val, by omega⟩ 5) 0 = actA A w1 r q := by
    rw [acc_five]
    unfold actA agg
    congr 1
    refine Finset.sum_congr rfl fun k _ => ?_
    rw [wcat_left]
  unfold y1 yv gate
  simp only [hb, ha, hH]

/-- One block's partial product of the third kernel: the bf16 copy's row (10240 columns) against y, y's rows past the
    10000th replaced by zero. -/
def part2 (Ab : Fin 10000 → Fin 10240 → EReal) (Y : Fin 10000 → Fin 128 → EReal) (r : Fin 10000) (q : Fin 128) (n : Fin 5) : EReal :=
  ∑ j : Fin 2048, Ab r ⟨2048 * n.val + j.val, by omega⟩ * (if h : 2048 * n.val + j.val < 10000 then Y ⟨2048 * n.val + j.val, h⟩ q else 0)

/-- The third kernel's accumulator after the first n blocks. -/
def acc2 (Ab : Fin 10000 → Fin 10240 → EReal) (Y : Fin 10000 → Fin 128 → EReal) (r : Fin 10000) (q : Fin 128) : Nat → EReal
  | 0 => 0
  | n + 1 => if h : n < 5 then acc2 Ab Y r q n + part2 Ab Y r q ⟨n, h⟩ else acc2 Ab Y r q n

/-- The third kernel's result entry. -/
def out2 (Ab : Fin 10000 → Fin 10240 → EReal) (Y : Fin 10000 → Fin 128 → EReal) (r : Fin 10000) (q : Fin 128) : EReal :=
  acc2 Ab Y r q 5

/-- A block of the third kernel is a block of the aggregation: inside the 10000 the copy's entry is the adjacency's, and
    past it the other factor is zero. -/
theorem part2_eq (A : Mat 10000 10000) (Ab : Fin 10000 → Fin 10240 → EReal) (Y : Fin 10000 → Fin 128 → EReal)
    (hAb : ∀ (r : Fin 10000) (col : Fin 10240), Ab r col = if h : col.val < 10000 then A (ix2 r ⟨col.val, h⟩) else 0)
    (r : Fin 10000) (q : Fin 128) (n : Fin 5) : part2 Ab Y r q n = part A Y r q n := by
  unfold part2 part
  refine Finset.sum_congr rfl fun j _ => ?_
  by_cases h : 2048 * n.val + j.val < 10000
  · have e : Ab r ⟨2048 * n.val + j.val, by omega⟩ = A (ix2 r ⟨2048 * n.val + j.val, h⟩) := (hAb r _).trans (dif_pos h)
    rw [dif_pos h, dif_pos h, e]
  · rw [dif_neg h, dif_neg h, mul_zero]

/-- It is the aggregation of Y through the adjacency when the copy's row is the adjacency's row followed by zeros. -/
theorem out2_eq (A : Mat 10000 10000) (Ab : Fin 10000 → Fin 10240 → EReal) (Y : Fin 10000 → Fin 128 → EReal)
    (hAb : ∀ (r : Fin 10000) (col : Fin 10240), Ab r col = if h : col.val < 10000 then A (ix2 r ⟨col.val, h⟩) else 0)
    (r : Fin 10000) (q : Fin 128) : out2 Ab Y r q = agg A Y r q := by
  have h5 : out2 Ab Y r q
      = 0 + part2 Ab Y r q 0 + part2 Ab Y r q 1 + part2 Ab Y r q 2 + part2 Ab Y r q 3 + part2 Ab Y r q 4 := rfl
  rw [h5, zero_add]
  simp only [part2_eq A Ab Y hAb]
  rw [← Fin.sum_univ_five (fun n => part A Y r q n)]
  exact sum_blocks (fun k => A (ix2 r k) * Y k q)

/-- The whole computation, blocked, is the specification. -/
theorem out2_y1_eq (x : Mat 10000 128) (A : Mat 10000 10000) (w1 : Mat 10000 128) (w2 : Mat 128 128) (wh : Mat 128 1) (H : Mat 8 128)
    (Ab : Fin 10000 → Fin 10240 → EReal)
    (hH : ∀ q : Fin 128, H (ix2 (0 : Fin 8) q) = wh (ix2 q (0 : Fin 1)))
    (hAb : ∀ (r : Fin 10000) (col : Fin 10240), Ab r col = if h : col.val < 10000 then A (ix2 r ⟨col.val, h⟩) else 0)
    (r : Fin 10000) (q : Fin 128) :
    out2 Ab (y1 A (wcat x w1 w2) H) r q = outv x A w1 w2 wh r q := by
  rw [out2_eq A Ab _ hAb]
  unfold outv agg
  refine Finset.sum_congr rfl fun k _ => ?_
  rw [y1_eq x A w1 w2 wh H hH]

/-- End to end: arrays o1, o3, o4, o5 and a tile H that hold, entry by entry, what the three kernels write — o1 the
    stacked right-hand side [w1 | x w2], H's row 0 the gate weights, o3 the second kernel's result from o1, o4's first 10000
    rows the adjacency's rows followed by zeros, o5 the third kernel's result from o4 and o3 — end at the specification. -/
theorem final_eq (x : Mat 10000 128) (A : Mat 10000 10000) (w1 : Mat 10000 128) (w2 : Mat 128 128) (wh : Mat 128 1) (o1 : Mat 10000 256) (H : Mat 8 128) (o3 : Mat 10000 128) (o4 : Mat 10240 10240) (o5 : Mat 10000 128)
    (h1 : ∀ (k : Fin 10000) (col : Fin 256), o1 (ix2 k col) = wcat x w1 w2 k col)
    (hH : ∀ q : Fin 128, H (ix2 (0 : Fin 8) q) = wh (ix2 q (0 : Fin 1)))
    (h3 : ∀ (r : Fin 10000) (q : Fin 128), o3 (ix2 r q) = y1 A (fun k col => o1 (ix2 k col)) H r q)
    (h4 : ∀ (r : Fin 10000) (col : Fin 10240), o4 (ix2 (⟨r.val, by omega⟩ : Fin 10240) col) = if h : col.val < 10000 then A (ix2 r ⟨col.val, h⟩) else 0)
    (h5 : ∀ (r : Fin 10000) (q : Fin 128), o5 (ix2 r q) = out2 (fun r col => o4 (ix2 (⟨r.val, by omega⟩ : Fin 10240) col)) (fun k q => o3 (ix2 k q)) r q) :
    o5 = G x A w1 w2 wh := by
  funext i
  obtain ⟨r, q, rfl⟩ : ∃ (r : Fin 10000) (q : Fin 128), i = ix2 r q := ⟨i 0, i 1, eq_ix2 i⟩
  have hW : (fun k col => o1 (ix2 k col)) = wcat x w1 w2 := by
    funext k col
    exact h1 k col
  have hY : (fun k q => o3 (ix2 k q)) = y1 A (wcat x w1 w2) H := by
    funext k q'
    rw [h3, hW]
  rw [G_apply, h5, hY]
  exact out2_y1_eq x A w1 w2 wh H _ hH h4 r q

end Cert.Blocked
end
-- ==== Proof.Pf.Reg1Data.lean ====
/- The second kernel region's proof data. The region runs the second kernel over a 10 by 5 grid: point t has row block
   i = t / 5 and reduction block k = t % 5. The adjacency's and the weights' blocks overhang their arrays at i = 9 and
   at k = 4, so their staging buffers hold, past the arrays' ends, words nothing names; the data therefore CONSTRAIN
   what the body leaves in the two results' staging buffers on the rows that lie inside the arrays, and say nothing
   of the others. -/
import proofs.«145375_g77163382440895_cont_9to1c4b_61_6_alg».proof.Proof.Pf.Runs1
import proofs.«145375_g77163382440895_cont_9to1c4b_61_6_alg».proof.Proof.Pf.PayIdeal
import proofs.«145375_g77163382440895_cont_9to1c4b_61_6_alg».proof.Proof.Pf.Blocked
import Idealize.ShloMosaic.Lib.Pipeline.Regions
import Idealize.ShloMosaic.Lib.Pipeline.RegionsLoop

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

local notation "𝕄" => M2 Ideal

/-- The contents every unscoped buffer holds when the region is entered, per core. -/
abbrev Entry : Type := (c : Dev nD) → Valuation τ sig (Elt Ideal)

variable (V : Entry)

/-! ## The operands, as the specification's matrices -/

/-- The adjacency at entry. -/
def adjM (c : Dev nD) : Cert.Spec.Mat 10000 10000 := V c main_arg1
/-- The stacked right-hand side at entry, entry by entry. -/
def wM (c : Dev nD) : Fin 10000 → Fin 256 → EReal := fun k col => V c main_v0 (ix2 k col)
/-- The gate weights' tile at entry. -/
def hM (c : Dev nD) : Cert.Spec.Mat 8 128 := V c main_v2

/-! ## The grid's points -/

/-- Point t's coordinates: the row block t / 5 and the reduction block t % 5. -/
theorem coords1 : ∀ t : Fin cfg1.N, ((grid1.coords t) 0).val = t.val / 5 ∧ ((grid1.coords t) 1).val = t.val % 5 :=
  (by decide +kernel : ∀ t : Fin grid1.N, ((grid1.coords t) 0).val = t.val / 5 ∧ ((grid1.coords t) 1).val = t.val % 5)

/-! ## What the body may leave in the results' staging buffers -/

/-- The result's buffer at a last reduction block: on the rows inside the array, the gated combination of the two
    finished accumulations. At the other points nothing is asked (the block is not written back there). -/
def R3 (c : Dev nD) (t : Fin cfg1.N) (X : Vec Ideal S1024x128 .f32) : Prop :=
  t.val % 5 = 4 → ∀ (p : Fin 1024) (q : Fin 128) (h : 1024 * (t.val / 5) + p.val < 10000),
    X (ix2 p q) = Cert.Blocked.y1 (adjM V c) (wM V c) (hM V c) ⟨1024 * (t.val / 5) + p.val, h⟩ q

/-- The bf16 copy's buffer at every point: on the rows inside the adjacency, the adjacency's entry, zero at the
    columns past its end. -/
def R4 (c : Dev nD) (t : Fin cfg1.N) (X : Vec Ideal S1024x2048 .bf16) : Prop :=
  ∀ (p : Fin 1024) (j : Fin 2048) (h : 1024 * (t.val / 5) + p.val < 10000),
    X (ix2 p j) = if h' : 2048 * (t.val % 5) + j.val < 10000 then adjM V c (ix2 ⟨1024 * (t.val / 5) + p.val, h⟩ ⟨2048 * (t.val % 5) + j.val, h'⟩) else (0 : EReal)

/-! ## The invariant between points -/

/-- What is known of the accumulator before point t: past the first reduction block, on the rows inside the
    adjacency, it holds the accumulation of the blocks before this one. -/
def accOK (c : Dev nD) (t : Fin (cfg1.N + 1)) (s : Vec Ideal S1024x256 .f32) : Prop :=
  t.val % 5 ≠ 0 → ∀ (p : Fin 1024) (col : Fin 256) (h : 1024 * (t.val / 5) + p.val < 10000),
    s (ix2 p col) = Cert.Blocked.acc (adjM V c) (wM V c) ⟨1024 * (t.val / 5) + p.val, h⟩ col (t.val % 5)

/-- The core's scoped buffers that are neither a staging buffer of this region nor its accumulator, each whole at
    some contents. -/
def scopedOthers1 (c : Dev nD) : sProp 𝕄 :=
  iprop((∃ f : Buf (Elt Ideal) ((c : Thread nD τ).loc cc0_stg0_0), ((c : Thread nD τ).loc cc0_stg0_0) ↦{fullShare} f) ∗ (∃ f : Buf (Elt Ideal) ((c : Thread nD τ).loc cc0_stg0_1), ((c : Thread nD τ).loc cc0_stg0_1) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg1_1), ((c : Thread nD τ).loc cc0_stg1_1) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg3_1), ((c : Thread nD τ).loc cc0_stg3_1) ↦{fullShare} f) ∗ (∃ f : Buf (Elt Ideal) ((c : Thread nD τ).loc cc2_stg0_0), ((c : Thread nD τ).loc cc2_stg0_0) ↦{fullShare} f) ∗ (∃ f : Buf (Elt Ideal) ((c : Thread nD τ).loc cc2_stg0_1), ((c : Thread nD τ).loc cc2_stg0_1) ↦{fullShare} f) ∗ (∃ f : Buf (Elt Ideal) ((c : Thread nD τ).loc cc2_stg1_0), ((c : Thread nD τ).loc cc2_stg1_0) ↦{fullShare} f) ∗ (∃ f : Buf (Elt Ideal) ((c : Thread nD τ).loc cc2_stg1_1), ((c : Thread nD τ).loc cc2_stg1_1) ↦{fullShare} f) ∗ (∃ f : Buf (Elt Ideal) ((c : Thread nD τ).loc cc2_stg2_0), ((c : Thread nD τ).loc cc2_stg2_0) ↦{fullShare} f) ∗ (∃ f : Buf (Elt Ideal) ((c : Thread nD τ).loc cc2_stg2_1), ((c : Thread nD τ).loc cc2_stg2_1) ↦{fullShare} f) ∗ (∃ f : Buf (Elt Ideal) ((c : Thread nD τ).loc cc2_scratch0), ((c : Thread nD τ).loc cc2_scratch0) ↦{fullShare} f))

/-- The invariant before point t: those buffers, the generator register, and the accumulator at contents of which
    `accOK` holds. -/
def Φ1 (c : Dev nD) (t : Fin (cfg1.N + 1)) : sProp 𝕄 :=
  iprop(scopedOthers1 c ∗ (∃ r, prngReg c r)
    ∗ ∃ s : Vec Ideal S1024x256 .f32, ⌜accOK V c t s⌝ ∗ owns (c : Thread nD τ) (Memref.whole cc1_scratch0) fullShare s)

/-! ## The proof data -/

/-- The region's relational proof data on core c: the arrays as the region finds them; the inputs' buffers left as
    found; the results' buffers constrained by `R3` and `R4`; nothing owed; full shares. -/
def rd1 (c : Dev nD) : RDat τ (Elt Ideal) Unit ℕ U2 ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun _ X => R3 V c t X
    | ⟨4, _⟩ => fun _ X => R4 V c t X
  Φ t := Φ1 V c t
  q _ := fullShare
  owed _ := 0

theorem rd1_A (c : Dev nD) (w : Fin cfg1.W) : (rd1 V c).A w = V c (Pipeline.arrRef spec1 w) := by dsimp only [rd1]
theorem rd1_Φ (c : Dev nD) (t : Fin (cfg1.N + 1)) : (rd1 V c).Φ t = Φ1 V c t := by dsimp only [rd1]
theorem rd1_after0 (c : Dev nD) (t : Fin cfg1.N) (Y X) : (rd1 V c).after 0 t Y X = (X = Y) := by dsimp only [rd1]
theorem rd1_after1 (c : Dev nD) (t : Fin cfg1.N) (Y X) : (rd1 V c).after 1 t Y X = (X = Y) := by dsimp only [rd1]
theorem rd1_after2 (c : Dev nD) (t : Fin cfg1.N) (Y X) : (rd1 V c).after 2 t Y X = (X = Y) := by dsimp only [rd1]
theorem rd1_after3 (c : Dev nD) (t : Fin cfg1.N) (Y X) : (rd1 V c).after 3 t Y X = R3 V c t X := by dsimp only [rd1]
theorem rd1_after4 (c : Dev nD) (t : Fin cfg1.N) (Y X) : (rd1 V c).after 4 t Y X = R4 V c t X := by dsimp only [rd1]

/-! ## The thread states around the region -/

/-- What is known of what the region leaves in its two result arrays. -/
def Q1 (c : Dev nD) (o3 : Buf (Elt Ideal) ((c : Thread nD τ).loc main_v3_0)) (o4 : Buf (Elt Ideal) ((c : Thread nD τ).loc main_v3_1)) : Prop :=
  (∀ (r : Fin 10000) (q : Fin 128), o3 (ix2 r q) = Cert.Blocked.y1 (V c main_arg1) (fun k col => V c main_v0 (ix2 k col)) (V c main_v2) r q)
  ∧ (∀ (r : Fin 10000) (col : Fin 10240), o4 (ix2 (⟨r.val, by omega⟩ : Fin 10240) col) = if h : col.val < 10000 then V c main_arg1 (ix2 r ⟨col.val, h⟩) else (0 : EReal))

variable (Ex : Dev nD → sProp 𝕄)

/-- The thread state the region is entered from. -/
def pre1 (c : Dev nD) : sProp 𝕄 :=
  iprop(StableHlo.held (c : Thread nD τ) (Pipeline.ucRefs τ sig) (V c) ∗ (∃ r, prngReg c r) ∗ (∃ W, owes (c : Thread nD τ) (0 : CellTallies nD τ sig Unit) W) ∗ Ex c)
/-- What enters the invariant, -/
def X1 (c : Dev nD) : sProp 𝕄 := iprop(∃ r, prngReg c r)
/-- what it gives back, -/
def Y1 (c : Dev nD) : sProp 𝕄 := iprop(∃ r, prngReg c r)
/-- what bypasses the region. -/
def Z1 (c : Dev nD) : sProp 𝕄 := iprop(Pipeline.unscopedRest (Ix := Unit) (Name := ℕ) (U := U2) (Lvl := ℕ) spec1 c (fun b : Ref sig .tc => V c b) ∗ Ex c)
/-- The thread state the region leaves. -/
def post1 (c : Dev nD) : sProp 𝕄 :=
  iprop(∃ (o3 : (c' : Dev nD) → Buf (Elt Ideal) ((c' : Thread nD τ).loc main_v3_0)) (o4 : (c' : Dev nD) → Buf (Elt Ideal) ((c' : Thread nD τ).loc main_v3_1)),
    ⌜∀ c', Q1 V c' (o3 c') (o4 c')⌝
    ∗ StableHlo.held (c : Thread nD τ) (Pipeline.ucRefs τ sig) (Function.update (Function.update (V c) main_v3_0 (o3 c)) main_v3_1 (o4 c))
    ∗ (∃ r, prngReg c r) ∗ (∃ W, owes (c : Thread nD τ) (0 : CellTallies nD τ sig Unit) W) ∗ Ex c)

end Cert.KernelIdeal.Pf

end
-- ==== Proof.Pf.Reg1Body.lean ====
/- The second kernel region's body obligation: what the windows' current staging buffers hold at a point of the grid
   (the adjacency's and the weights' blocks inside their arrays, the gate weights' tile), the block products as the
   specification's partial sums, and the body's three runs — first, middle and last reduction block — closed against
   the region's proof data. -/
import proofs.«145375_g77163382440895_cont_9to1c4b_61_6_alg».proof.Proof.Pf.Reg1Data

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

local notation "𝕄" => M2 Ideal

variable (V : Entry)

/-! ## The input windows' blocks over the grid -/

/-- The adjacency's block at point t is block (t / 5, t % 5), -/
theorem idx1_0 : ∀ t : Fin cfg1.N, win1_0.index t 0 = t.val / 5 ∧ win1_0.index t 1 = t.val % 5 :=
  (by decide +kernel : ∀ t : Fin grid1.N, win1_0.index t 0 = t.val / 5 ∧ win1_0.index t 1 = t.val % 5)
/-- cut to the rows and columns inside the array. -/
theorem xs1_0 : ∀ t : Fin cfg1.N, win1_0.xsize (grid1.coords t) 0 = min 1024 (10000 - 1024 * (t.val / 5))
    ∧ win1_0.xsize (grid1.coords t) 1 = min 2048 (10000 - 2048 * (t.val % 5)) :=
  (by decide +kernel : ∀ t : Fin grid1.N, win1_0.xsize (grid1.coords t) 0 = min 1024 (10000 - 1024 * (t.val / 5))
    ∧ win1_0.xsize (grid1.coords t) 1 = min 2048 (10000 - 2048 * (t.val % 5)))
/-- The weights' block at point t is block (t % 5, 0), -/
theorem idx1_1 : ∀ t : Fin cfg1.N, win1_1.index t 0 = t.val % 5 ∧ win1_1.index t 1 = 0 :=
  (by decide +kernel : ∀ t : Fin grid1.N, win1_1.index t 0 = t.val % 5 ∧ win1_1.index t 1 = 0)
/-- cut to the rows inside the array. -/
theorem xs1_1 : ∀ t : Fin cfg1.N, win1_1.xsize (grid1.coords t) 0 = min 2048 (10000 - 2048 * (t.val % 5))
    ∧ win1_1.xsize (grid1.coords t) 1 = 256 :=
  (by decide +kernel : ∀ t : Fin grid1.N, win1_1.xsize (grid1.coords t) 0 = min 2048 (10000 - 2048 * (t.val % 5))
    ∧ win1_1.xsize (grid1.coords t) 1 = 256)
/-- The gate weights' tile is never written back. -/
theorem flush1_2 : ∀ t : Fin cfg1.N, (cfg1.win 2).flush t = false :=
  (by decide +kernel : ∀ t : Fin grid1.N, win1_2.flush t = false)

/-- The adjacency's staging buffer once the fetch at point t has landed, at an element whose array row and column
    lie inside the adjacency: the adjacency's entry. -/
theorem fetched1_0_apply (c : Dev nD) (t : Fin cfg1.N) (d : Vec Ideal S1024x2048 .f32) (p : Fin 1024) (j : Fin 2048)
    (hp : 1024 * (t.val / 5) + p.val < 10000) (hj : 2048 * (t.val % 5) + j.val < 10000) :
    (rd1 V c).fetched 0 t d (ix2 p j) = adjM V c (ix2 ⟨1024 * (t.val / 5) + p.val, hp⟩ ⟨2048 * (t.val % 5) + j.val, hj⟩) := by
  have hm : (cfg1.win 0).moved (grid1.coords t) (ix2 p j) = true := by
    rw [Window.moved_iff]
    intro a
    match a with
    | ⟨0, _⟩ => show p.val < win1_0.xsize (grid1.coords t) 0; rw [(xs1_0 t).1]; omega
    | ⟨1, _⟩ => show j.val < win1_0.xsize (grid1.coords t) 1; rw [(xs1_0 t).2]; omega
  unfold RDat.fetched Window.fill
  rw [dif_pos hm]
  unfold RDat.blockOf
  rw [View.read_apply]
  refine (cast_eq _ _).trans ?_
  rw [rd1_A]
  unfold adjM
  show V c main_arg1 ((win1_0.rect t).emb _) = V c main_arg1 _
  refine congrArg (V c main_arg1) (Shape.idx_ext₂ ?_ ?_)
  · rw [Window.rect_emb_val, (idx1_0 t).1]; show t.val / 5 * 1024 + p.val = 1024 * (t.val / 5) + p.val; omega
  · rw [Window.rect_emb_val, (idx1_0 t).2]; show t.val % 5 * 2048 + j.val = 2048 * (t.val % 5) + j.val; omega

/-- The weights' staging buffer once the fetch at point t has landed, at an element whose array row lies inside the
    stacked right-hand side: its entry. -/
theorem fetched1_1_apply (c : Dev nD) (t : Fin cfg1.N) (d : Vec Ideal S2048x256 .f32) (j : Fin 2048) (col : Fin 256)
    (hj : 2048 * (t.val % 5) + j.val < 10000) :
    (rd1 V c).fetched 1 t d (ix2 j col) = wM V c ⟨2048 * (t.val % 5) + j.val, hj⟩ col := by
  have hm : (cfg1.win 1).moved (grid1.coords t) (ix2 j col) = true := by
    rw [Window.moved_iff]
    intro a
    match a with
    | ⟨0, _⟩ => show j.val < win1_1.xsize (grid1.coords t) 0; rw [(xs1_1 t).1]; omega
    | ⟨1, _⟩ => show col.val < win1_1.xsize (grid1.coords t) 1; rw [(xs1_1 t).2]; omega
  unfold RDat.fetched Window.fill
  rw [dif_pos hm]
  unfold RDat.blockOf
  rw [View.read_apply]
  refine (cast_eq _ _).trans ?_
  rw [rd1_A]
  unfold wM
  show V c main_v0 ((win1_1.rect t).emb _) = V c main_v0 _
  refine congrArg (V c main_v0) (Shape.idx_ext₂ ?_ ?_)
  · rw [Window.rect_emb_val, (idx1_1 t).1]; show t.val % 5 * 2048 + j.val = 2048 * (t.val % 5) + j.val; omega
  · rw [Window.rect_emb_val, (idx1_1 t).2]; show 0 * 256 + col.val = col.val; omega

/-- The gate weights' tile sits at block (0, 0) at every point. -/
theorem idx1_2 : ∀ t : Fin cfg1.N, win1_2.index t 0 = 0 ∧ win1_2.index t 1 = 0 :=
  (by decide +kernel : ∀ t : Fin grid1.N, win1_2.index t 0 = 0 ∧ win1_2.index t 1 = 0)

/-- What the body finds in the gate weights' buffer, at every point: the tile, fetched at the first point and left
    as found ever since. -/
theorem finds1_2 (c : Dev nD) : ∀ (t : Fin cfg1.N) (X : Vec Ideal S8x128 .f32), (rd1 V c).Finds 2 t X → X = hM V c := by
  intro t
  induction hn : t.val using Nat.strong_induction_on generalizing t with
  | _ n ih =>
    subst hn
    intro X hX
    by_cases hfe : (cfg1.win 2).fetch t = true
    · obtain ⟨d, rfl⟩ := ((rd1 V c).finds_of_fetch hfe X).mp hX
      funext y
      have hm : (cfg1.win 2).moved (grid1.coords t) y = true :=
        ((cfg1.win 2).moved_iff _ y).mpr fun a => (y a).isLt
      unfold RDat.fetched Window.fill
      rw [dif_pos hm]
      unfold RDat.blockOf
      rw [View.read_apply]
      refine (cast_eq _ _).trans ?_
      rw [rd1_A]
      unfold hM
      show V c main_v2 ((win1_2.rect t).emb _) = V c main_v2 y
      refine congrArg (V c main_v2) (Shape.idx_ext₂ ?_ ?_)
      · rw [Window.rect_emb_val, (idx1_2 t).1]; show 0 * 8 + (y 0).val = (y 0).val; omega
      · rw [Window.rect_emb_val, (idx1_2 t).2]; show 0 * 128 + (y 1).val = (y 1).val; omega
    · have hfe' : (cfg1.win 2).fetch t = false := eq_false_of_ne_true hfe
      have ht : t.val ≠ 0 := fun h0 => hfe ((fetch1_2 t).mpr (by omega))
      rcases ((rd1 V c).finds_of_pos hfe' ht X).mp hX with hfl | ⟨Y, hY, hYX⟩
      · exact absurd hfl (by rw [flush1_2]; exact Bool.false_ne_true)
      · rw [rd1_after2] at hYX
        subst hYX
        exact ih (t.val - 1) (by omega) ⟨t.val - 1, Nat.lt_of_le_of_lt (Nat.sub_le _ _) t.isLt⟩ rfl _ hY

/-! ## The block products are the specification's partial sums -/

/-- The adjacency's staging buffer just fetched at point t (over whatever it held before, `d`), -/
def xa1 (c : Dev nD) (t : Fin cfg1.N) (d : Vec Ideal S1024x2048 .f32) : Vec Ideal S1024x2048 .f32 := (rd1 V c).fetched 0 t d
/-- and the weights'. -/
def xw1 (c : Dev nD) (t : Fin cfg1.N) (d : Vec Ideal S2048x256 .f32) : Vec Ideal S2048x256 .f32 := (rd1 V c).fetched 1 t d

theorem xa1_apply (c : Dev nD) (t : Fin cfg1.N) (d : Vec Ideal S1024x2048 .f32) (p : Fin 1024) (j : Fin 2048)
    (hp : 1024 * (t.val / 5) + p.val < 10000) (hj : 2048 * (t.val % 5) + j.val < 10000) :
    xa1 V c t d (ix2 p j) = adjM V c (ix2 ⟨1024 * (t.val / 5) + p.val, hp⟩ ⟨2048 * (t.val % 5) + j.val, hj⟩) :=
  fetched1_0_apply V c t d p j hp hj

theorem xw1_apply (c : Dev nD) (t : Fin cfg1.N) (d : Vec Ideal S2048x256 .f32) (j : Fin 2048) (col : Fin 256)
    (hj : 2048 * (t.val % 5) + j.val < 10000) :
    xw1 V c t d (ix2 j col) = wM V c ⟨2048 * (t.val % 5) + j.val, hj⟩ col :=
  fetched1_1_apply V c t d j col hj

/-- Before the last reduction block every column of the block lies inside the adjacency: the product of the two
    staging buffers' rows and columns is the block's partial sum. -/
theorem sum_part_lt4 (c : Dev nD) (t : Fin cfg1.N) (hk : t.val % 5 < 4) (d0 : Vec Ideal S1024x2048 .f32) (d1 : Vec Ideal S2048x256 .f32)
    (p : Fin 1024) (col : Fin 256) (hp : 1024 * (t.val / 5) + p.val < 10000) :
    ∑ j : Fin 2048, xa1 V c t d0 (ix2 p j) * xw1 V c t d1 (ix2 j col)
      = Cert.Blocked.part (adjM V c) (wM V c) ⟨1024 * (t.val / 5) + p.val, hp⟩ col ⟨t.val % 5, by omega⟩ := by
  unfold Cert.Blocked.part
  refine Finset.sum_congr rfl fun j _ => ?_
  have hj : 2048 * (t.val % 5) + j.val < 10000 := by have := j.isLt; omega
  rw [dif_pos hj, xa1_apply V c t d0 p j hp hj, xw1_apply V c t d1 j col hj]

/-- At the last reduction block the columns from 1808 on lie past the adjacency's end, and the body zeroes them on
    both sides. -/
theorem sum_part_4 (c : Dev nD) (t : Fin cfg1.N) (hk : t.val % 5 = 4) (d0 : Vec Ideal S1024x2048 .f32) (d1 : Vec Ideal S2048x256 .f32)
    (p : Fin 1024) (col : Fin 256) (hp : 1024 * (t.val / 5) + p.val < 10000) :
    ∑ j : Fin 2048, (if j.val < 1808 then xa1 V c t d0 (ix2 p j) else (0 : EReal))
        * (if j.val < 1808 then xw1 V c t d1 (ix2 j col) else (0 : EReal))
      = Cert.Blocked.part (adjM V c) (wM V c) ⟨1024 * (t.val / 5) + p.val, hp⟩ col ⟨t.val % 5, by omega⟩ := by
  unfold Cert.Blocked.part
  refine Finset.sum_congr rfl fun j _ => ?_
  by_cases hj8 : j.val < 1808
  · have hj : 2048 * (t.val % 5) + j.val < 10000 := by omega
    rw [if_pos hj8, if_pos hj8, dif_pos hj, xa1_apply V c t d0 p j hp hj, xw1_apply V c t d1 j col hj]
  · have hj : ¬ 2048 * (t.val % 5) + j.val < 10000 := by omega
    rw [if_neg hj8, if_neg hj8, dif_neg hj, mul_zero]

/-- One more block: the accumulation gains the block's partial sum. -/
theorem blockedAcc_succ {m : Nat} (A : Cert.Spec.Mat 10000 10000) (W : Fin 10000 → Fin m → EReal) (r : Fin 10000) (col : Fin m)
    (n : Nat) (h : n < 5) : Cert.Blocked.acc A W r col (n + 1) = Cert.Blocked.acc A W r col n + Cert.Blocked.part A W r col ⟨n, h⟩ := by
  rw [Cert.Blocked.acc, dif_pos h]

/-! ## What the body's stores leave, case by case -/

/-- The accumulator's invariant after a point that is not a last reduction block, from what the buffer holds on the
    rows inside the adjacency. -/
theorem accOK_succ_of (c : Dev nD) (t : Fin cfg1.N) (hk4 : t.val % 5 < 4) (s' : Vec Ideal S1024x256 .f32)
    (h : ∀ (p : Fin 1024) (col : Fin 256) (hp : 1024 * (t.val / 5) + p.val < 10000),
      s' (ix2 p col) = Cert.Blocked.acc (adjM V c) (wM V c) ⟨1024 * (t.val / 5) + p.val, hp⟩ col (t.val % 5 + 1)) :
    accOK V c t.succ s' := by
  intro _ p col hp'
  have e1 : t.succ.val / 5 = t.val / 5 := by rw [Fin.val_succ]; omega
  have e2 : t.succ.val % 5 = t.val % 5 + 1 := by rw [Fin.val_succ]; omega
  have hp : 1024 * (t.val / 5) + p.val < 10000 := e1 ▸ hp'
  have eF : (⟨1024 * (t.succ.val / 5) + p.val, hp'⟩ : Fin 10000) = ⟨1024 * (t.val / 5) + p.val, hp⟩ := Fin.ext (congrArg (fun x => 1024 * x + p.val) e1)
  rw [eF, e2]
  exact h p col hp

/-- After a last reduction block nothing is asked of the accumulator: the next point resets it. -/
theorem accOK_succ_last (c : Dev nD) (t : Fin cfg1.N) (hk : t.val % 5 = 4) (s : Vec Ideal S1024x256 .f32) : accOK V c t.succ s := by
  intro hne
  exact absurd (by rw [Fin.val_succ]; omega) hne

/-- First reduction block: the accumulator, reset to zero and added to, holds the first partial sum. -/
theorem acc_first (c : Dev nD) (t : Fin cfg1.N) (hk : t.val % 5 = 0) (d0 : Vec Ideal S1024x2048 .f32) (d1 : Vec Ideal S2048x256 .f32) :
    accOK V c t.succ (k1_pay3 (F := Ideal) (xa1 V c t d0) (k1_pay1 (F := Ideal)) (xw1 V c t d1)) := by
  refine accOK_succ_of V c t (by omega) _ fun p col hp => ?_
  rw [k1_pay3_apply, k1_pay1_apply, sum_part_lt4 V c t (by omega) d0 d1 p col hp, blockedAcc_succ _ _ _ _ _ (by omega)]
  congr 1
  rw [hk]; rfl

/-- A middle block: the accumulator gains the block's partial sum. -/
theorem acc_mid (c : Dev nD) (t : Fin cfg1.N) (hk0 : t.val % 5 ≠ 0) (hk4 : t.val % 5 < 4) (d0 : Vec Ideal S1024x2048 .f32) (d1 : Vec Ideal S2048x256 .f32)
    (s : Vec Ideal S1024x256 .f32) (hs : accOK V c t.castSucc s) :
    accOK V c t.succ (k1_pay3 (F := Ideal) (xa1 V c t d0) s (xw1 V c t d1)) := by
  refine accOK_succ_of V c t hk4 _ fun p col hp => ?_
  rw [k1_pay3_apply, sum_part_lt4 V c t hk4 d0 d1 p col hp, blockedAcc_succ _ _ _ _ _ (by omega)]
  congr 1
  exact hs hk0 p col hp

/-- The bf16 copy's buffer before the last reduction block: the adjacency's block, every column inside the array. -/
theorem r4_lt4 (c : Dev nD) (t : Fin cfg1.N) (hk4 : t.val % 5 < 4) (d0 : Vec Ideal S1024x2048 .f32) :
    R4 V c t (k1_pay2 (F := Ideal) (xa1 V c t d0)) := by
  intro p j hp
  have hj : 2048 * (t.val % 5) + j.val < 10000 := by have := j.isLt; omega
  rw [dif_pos hj, k1_pay2_apply, xa1_apply V c t d0 p j hp hj]

/-- At the last reduction block: the columns past the adjacency's end zeroed. -/
theorem r4_4 (c : Dev nD) (t : Fin cfg1.N) (hk : t.val % 5 = 4) (d0 : Vec Ideal S1024x2048 .f32) :
    R4 V c t (k1_pay4 (F := Ideal) (xa1 V c t d0)) := by
  intro p j hp
  rw [k1_pay4_apply]
  by_cases hj8 : j.val < 1808
  · have hj : 2048 * (t.val % 5) + j.val < 10000 := by omega
    rw [if_pos hj8, dif_pos hj, xa1_apply V c t d0 p j hp hj]
  · have hj : ¬ 2048 * (t.val % 5) + j.val < 10000 := by omega
    rw [if_neg hj8, dif_neg hj]

/-- Off the last reduction block nothing is asked of the result's buffer. -/
theorem r3_ne4 (c : Dev nD) (t : Fin cfg1.N) (hk : t.val % 5 ≠ 4) (X : Vec Ideal S1024x128 .f32) : R3 V c t X :=
  fun h => absurd h hk

/-- At the last reduction block the finished accumulation, on a row inside the adjacency, is the specification's. -/
theorem acc1_eq (c : Dev nD) (t : Fin cfg1.N) (hk : t.val % 5 = 4) (d0 : Vec Ideal S1024x2048 .f32) (d1 : Vec Ideal S2048x256 .f32)
    (s : Vec Ideal S1024x256 .f32) (hs : accOK V c t.castSucc s) (p : Fin 1024) (col : Fin 256) (hp : 1024 * (t.val / 5) + p.val < 10000) :
    acc1 (xa1 V c t d0) (xw1 V c t d1) s p col = Cert.Blocked.acc (adjM V c) (wM V c) ⟨1024 * (t.val / 5) + p.val, hp⟩ col 5 := by
  unfold acc1
  rw [sum_part_4 V c t hk d0 d1 p col hp, hs (by show t.val % 5 ≠ 0; omega) p col hp]
  show Cert.Blocked.acc (adjM V c) (wM V c) ⟨1024 * (t.val / 5) + p.val, hp⟩ col (t.val % 5)
      + Cert.Blocked.part (adjM V c) (wM V c) ⟨1024 * (t.val / 5) + p.val, hp⟩ col ⟨t.val % 5, _⟩
    = Cert.Blocked.acc (adjM V c) (wM V c) ⟨1024 * (t.val / 5) + p.val, hp⟩ col (4 + 1)
  rw [blockedAcc_succ _ _ _ _ 4 (by omega)]
  congr 1
  · rw [hk]
  · congr 1; exact Fin.ext hk

/-- So the result's buffer holds, on the rows inside the array, the gated combination. -/
theorem r3_4 (c : Dev nD) (t : Fin cfg1.N) (hk : t.val % 5 = 4) (d0 : Vec Ideal S1024x2048 .f32) (d1 : Vec Ideal S2048x256 .f32)
    (s : Vec Ideal S1024x256 .f32) (hs : accOK V c t.castSucc s) :
    R3 V c t (k1_pay5 (F := Ideal) (xa1 V c t d0) (xw1 V c t d1) s (hrow (hM V c))) := by
  intro _ p q hp
  rw [k1_pay5_apply]
  unfold gate1 left1 right1 Cert.Blocked.y1
  simp only [acc1_eq V c t hk d0 d1 s hs p _ hp, hrow_apply]

/-! ## The body obligation -/

set_option maxHeartbeats 1000000 in
/-- At every point, on whatever the windows' current buffers may hold: the body runs, by the case of its reduction
    block, to the invariant at the next point, the inputs' buffers as found and the results' buffers constrained. -/
theorem hbody1 (c : Dev nD) : (rd1 V c).BodyObligation (defs₀ (F := Ideal)) Variants.none () Set.univ := by
  intro t Y hY
  obtain ⟨d0, h0'⟩ := ((rd1 V c).finds_of_fetch (fetch1_0 t) (Y 0)).mp (hY 0)
  obtain ⟨d1, h1'⟩ := ((rd1 V c).finds_of_fetch (fetch1_1 t) (Y 1)).mp (hY 1)
  have h0 : Y 0 = xa1 V c t d0 := h0'
  have h1 : Y 1 = xw1 V c t d1 := h1'
  have h2 : Y 2 = hM V c := finds1_2 V c t (Y 2) (hY 2)
  have hc := coords1 t
  rw [bigSep_W1, bigSep_W1, rd1_Φ, rd1_Φ]
  simp only [rd1_after0, rd1_after1, rd1_after2, rd1_after3, rd1_after4]
  rw [show (rd1 V c).owesAt () t.succ = (rd1 V c).owesAt () t.castSucc from rfl]
  show _ ⊢ wp frame (wpE (defs₀ (F := Ideal)) Variants.none c none) Set.univ (bodyAt1 (F := Ideal) t) _
  unfold Φ1 bodyAt1
  iintro ⟨⟨Hs, Hp, ⟨%s, %hs, H7⟩⟩, Ho, H0, H1, H2, H3, H4⟩
  by_cases hk0 : t.val % 5 = 0
  · -- the first reduction block
    iapply (run1_first (F := Ideal) c Set.univ (grid1.coords t) _ _ _ _ _ _ _ _ _ _ _ _ (Y 0) (Y 1) (Y 2) _ (by rw [hc.2]; exact hk0) (Y 3))
    isplitl [H0]; · iexact H0
    isplitl [H1]; · iexact H1
    isplitl [H2]; · iexact H2
    isplitl [H3]; · iexact H3
    isplitl [H4]; · iexists _; iexact H4
    isplitl [H7]; · iexists _; iexact H7
    iintro ⟨H0, H1, H2, H3, H4, H7⟩
    isplitl [Hs Hp H7]
    · isplitl [Hs]; · iexact Hs
      isplitl [Hp]; · iexact Hp
      iexists _; isplitr
      swap; · iexact H7
      ipureintro; rw [h0, h1]; exact acc_first V c t hk0 d0 d1
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr
      swap; · iexact H3
      ipureintro; exact r3_ne4 V c t (by omega) _
    · iexists _; isplitr
      swap; · iexact H4
      ipureintro; rw [h0]; exact r4_lt4 V c t (by omega) d0
  by_cases hk4 : t.val % 5 < 4
  · -- a middle block
    iapply (run1_mid (F := Ideal) c Set.univ (grid1.coords t) _ _ _ _ _ _ _ _ _ _ _ _ (Y 0) (Y 1) (Y 2) _ (by rw [hc.2]; exact hk0) (by rw [hc.2]; exact hk4) (Y 3) s)
    isplitl [H0]; · iexact H0
    isplitl [H1]; · iexact H1
    isplitl [H2]; · iexact H2
    isplitl [H3]; · iexact H3
    isplitl [H4]; · iexists _; iexact H4
    isplitl [H7]; · iexact H7
    iintro ⟨H0, H1, H2, H3, H4, H7⟩
    isplitl [Hs Hp H7]
    · isplitl [Hs]; · iexact Hs
      isplitl [Hp]; · iexact Hp
      iexists _; isplitr
      swap; · iexact H7
      ipureintro; rw [h0, h1]; exact acc_mid V c t hk0 hk4 d0 d1 s hs
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr
      swap; · iexact H3
      ipureintro; exact r3_ne4 V c t (by omega) _
    · iexists _; isplitr
      swap; · iexact H4
      ipureintro; rw [h0]; exact r4_lt4 V c t hk4 d0
  · -- the last reduction block
    have hk : t.val % 5 = 4 := by have := Nat.mod_lt t.val (by decide : 0 < 5); omega
    iapply (run1_last (F := Ideal) c Set.univ (grid1.coords t) _ _ _ _ _ _ _ _ _ _ _ _ (Y 0) (Y 1) (Y 2) _ (by rw [hc.2]; exact hk) s)
    isplitl [H0]; · iexact H0
    isplitl [H1]; · iexact H1
    isplitl [H2]; · iexact H2
    isplitl [H3]; · iexists _; iexact H3
    isplitl [H4]; · iexists _; iexact H4
    isplitl [H7]; · iexact H7
    iintro ⟨H0, H1, H2, H3, H4, H7⟩
    isplitl [Hs Hp H7]
    · isplitl [Hs]; · iexact Hs
      isplitl [Hp]; · iexact Hp
      iexists _; isplitr
      swap; · iexact H7
      ipureintro; exact accOK_succ_last V c t hk s
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr
      swap; · iexact H3
      ipureintro; rw [h0, h1, h2]; exact r3_4 V c t hk d0 d1 s hs
    · iexists _; isplitr
      swap; · iexact H4
      ipureintro; rw [h0]; exact r4_4 V c t hk d0

end Cert.KernelIdeal.Pf

end
-- ==== Proof.Pf.Reg1Exit.lean ====
/- What the second kernel region leaves in its two result arrays, read off the write-backs: every element a
   write-back wrote satisfies what the proof data ask of the staging buffer it came from, and the last write-back to
   reach an element decides it. -/
import proofs.«145375_g77163382440895_cont_9to1c4b_61_6_alg».proof.Proof.Pf.Reg1Data

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

local notation "𝕄" => M2 Ideal

variable (V : Entry)

/-! ## What the write-backs leave in a result array

The array after the write-backs below a point is its entry contents overwritten, in point order, at each written-back
block by the moved part of SOME contents the body may have left in the staging buffer. A property of an element and
its value that every written-back element has, whatever those contents were, every element some write-back covers
has afterwards: the last write-back to reach it wrote a value with the property. -/

theorem arrAt_forall_of_leaves {cfg : Cfg sig Λ₀} {c : Dev nD} (rd : RDat τ (Elt Ideal) Unit ℕ U2 ℕ cfg c) (w : Fin cfg.W)
    (P : ((cfg.win w).arr.view.loc (c.tc : Thread nD τ)).2.ty.Idx → Elt Ideal ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg (Elt Ideal) ((cfg.win w).blk t).view.elt_eq.symm) ((cfg.win w).cut (cfg.grid.coords t) X y))) :
    ∀ (n : Nat) (t : Fin cfg.N) (i : ((cfg.win w).arr.view.loc (c.tc : Thread nD τ)).2.ty.Idx),
      t.val < n → (cfg.win w).flush t = true → i ∈ ((cfg.win w).blk t).view.set →
      ∀ F, rd.ArrAt w n F → P i (F i)
  | 0, _, _, ht, _, _, _, _ => absurd ht (Nat.not_lt_zero _)
  | n + 1, t, i, ht, hf, hi, F, hF => by
    by_cases hn : n < cfg.N
    swap
    · -- past the grid nothing changes, and the point is below n
      rw [rd.ArrAt_stable w (n + 1) (by omega), ← rd.ArrAt_stable w n (by omega)] at hF
      exact arrAt_forall_of_leaves rd w P hP n t i (by have := t.isLt; omega) hf hi F hF
    rw [show n + 1 = (⟨n, hn⟩ : Fin cfg.N).val + 1 from rfl, rd.ArrAt_succ w ⟨n, hn⟩] at hF
    by_cases hfn : (cfg.win w).flush ⟨n, hn⟩ = true
    · rw [if_pos hfn] at hF
      obtain ⟨G₀, X, hG₀, hX, rfl⟩ := hF
      by_cases hin : i ∈ ((cfg.win w).blk ⟨n, hn⟩).view.set
      · -- under point n's block: what point n wrote
        obtain ⟨y, -, rfl⟩ := Finset.mem_map.mp hin
        rw [View.write_emb_of_mem _ _ (Finset.mem_univ y)]
        exact hP _ hfn X hX y
      · -- off it: as before, and the covering point is an earlier one
        rw [View.write_of_not_mem _ _ _ (by rwa [View.setOn_univ])]
        have htn : t.val ≠ n := fun e => hin (by have : t = ⟨n, hn⟩ := Fin.ext e; exact this ▸ hi)
        exact arrAt_forall_of_leaves rd w P hP n t i (by omega) hf hi G₀ hG₀
    · rw [if_neg hfn] at hF
      have htn : t.val ≠ n := fun e => hfn (by have : t = ⟨n, hn⟩ := Fin.ext e; exact this ▸ hf)
      exact arrAt_forall_of_leaves rd w P hP n t i (by omega) hf hi F hF

/-! ## The result windows' blocks over the grid -/

/-- The result's block at point t is block (t / 5, 0), -/
theorem idx1_3 : ∀ t : Fin cfg1.N, win1_3.index t 0 = t.val / 5 ∧ win1_3.index t 1 = 0 :=
  (by decide +kernel : ∀ t : Fin grid1.N, win1_3.index t 0 = t.val / 5 ∧ win1_3.index t 1 = 0)
/-- cut to the rows inside the array. -/
theorem xs1_3 : ∀ t : Fin cfg1.N, win1_3.xsize (grid1.coords t) 0 = min 1024 (10000 - 1024 * (t.val / 5))
    ∧ win1_3.xsize (grid1.coords t) 1 = 128 :=
  (by decide +kernel : ∀ t : Fin grid1.N, win1_3.xsize (grid1.coords t) 0 = min 1024 (10000 - 1024 * (t.val / 5))
    ∧ win1_3.xsize (grid1.coords t) 1 = 128)
/-- The bf16 copy's block at point t is block (t / 5, t % 5), -/
theorem idx1_4 : ∀ t : Fin cfg1.N, win1_4.index t 0 = t.val / 5 ∧ win1_4.index t 1 = t.val % 5 :=
  (by decide +kernel : ∀ t : Fin grid1.N, win1_4.index t 0 = t.val / 5 ∧ win1_4.index t 1 = t.val % 5)
/-- whole: its array is padded to a whole number of blocks. -/
theorem xs1_4 : ∀ t : Fin cfg1.N, win1_4.xsize (grid1.coords t) 0 = 1024 ∧ win1_4.xsize (grid1.coords t) 1 = 2048 :=
  (by decide +kernel : ∀ t : Fin grid1.N, win1_4.xsize (grid1.coords t) 0 = 1024 ∧ win1_4.xsize (grid1.coords t) 1 = 2048)

/-! ## The result array -/

/-- What every written-back element of the result has: at array row r and column q, the gated combination. -/
def P3 (c : Dev nD) (i : S10000x128.Idx) (v : EReal) : Prop :=
  ∀ (r : Fin 10000) (q : Fin 128), (i 0).val = r.val → (i 1).val = q.val →
    v = Cert.Blocked.y1 (adjM V c) (wM V c) (hM V c) r q

theorem hP3 (c : Dev nD) : ∀ t, (cfg1.win 3).flush t = true → ∀ X, (rd1 V c).Leaves 3 t X →
    ∀ y : ((cfg1.win 3).xblock (grid1.coords t)).Idx,
      P3 V c (((cfg1.win 3).blk t).view.emb y)
        (_root_.cast (congrArg (Elt Ideal) ((cfg1.win 3).blk t).view.elt_eq.symm) ((cfg1.win 3).cut (grid1.coords t) X y)) := by
  intro t hf X hL y r q hr hq
  obtain ⟨Y, -, hYX⟩ := hL
  rw [rd1_after3] at hYX
  have hk : t.val % 5 = 4 := (flush1_3 t).mp hf
  have hy0 : (y 0).val < win1_3.xsize (grid1.coords t) 0 := (y 0).isLt
  have hy1 : (y 1).val < win1_3.xsize (grid1.coords t) 1 := (y 1).isLt
  rw [(xs1_3 t).1] at hy0
  rw [(xs1_3 t).2] at hy1
  have e0 : ((win1_3.rect t).emb y 0).val = 1024 * (t.val / 5) + (y 0).val := by
    rw [Window.rect_emb_val, (idx1_3 t).1]; show t.val / 5 * 1024 + (y 0).val = _; omega
  have e1 : ((win1_3.rect t).emb y 1).val = (y 1).val := by
    rw [Window.rect_emb_val, (idx1_3 t).2]; show 0 * 128 + (y 1).val = _; omega
  have hp : 1024 * (t.val / 5) + (y 0).val < 10000 := by omega
  have hX := hYX hk ⟨(y 0).val, by omega⟩ ⟨(y 1).val, hy1⟩ hp
  refine (cast_eq _ _).trans ?_
  show X ((cfg1.win 3).xinj (grid1.coords t) y) = _
  rw [show (cfg1.win 3).xinj (grid1.coords t) y = ix2 (⟨(y 0).val, by omega⟩ : Fin 1024) (⟨(y 1).val, hy1⟩ : Fin 128) from Shape.idx_ext₂ rfl rfl, hX]
  congr 1
  · exact Fin.ext (e0.symm.trans hr)
  · exact Fin.ext (e1.symm.trans hq)

/-- The result array after the region, on every row: the row's block is written back once, at its last reduction
    block. -/
theorem exit3 (c : Dev nD) (F3 : Buf (Elt Ideal) ((cfg1.win 3).arr.view.loc (c.tc : Thread nD τ)))
    (h3 : (rd1 V c).ArrAt 3 cfg1.N F3) (r : Fin 10000) (q : Fin 128) :
    F3 (ix2 r q) = Cert.Blocked.y1 (adjM V c) (wM V c) (hM V c) r q := by
  have ht : 5 * (r.val / 1024) + 4 < cfg1.N := by rw [show cfg1.N = 50 from N_1]; omega
  have hmem : (ix2 r q : S10000x128.Idx) ∈ ((cfg1.win 3).blk ⟨5 * (r.val / 1024) + 4, ht⟩).view.set := by
    show (ix2 r q : S10000x128.Idx) ∈ ((View.whole main_v3_0).slice (win1_3.rect ⟨5 * (r.val / 1024) + 4, ht⟩)).set
    rw [View.set_slice_whole, Rect.mem_set_unit]
    intro a
    match a with
    | ⟨0, _⟩ =>
      show win1_3.index ⟨5 * (r.val / 1024) + 4, ht⟩ 0 * 1024 ≤ r.val ∧ r.val < win1_3.index ⟨5 * (r.val / 1024) + 4, ht⟩ 0 * 1024 + win1_3.xsize (grid1.coords ⟨5 * (r.val / 1024) + 4, ht⟩) 0
      rw [(idx1_3 _).1, (xs1_3 _).1]
      show (5 * (r.val / 1024) + 4) / 5 * 1024 ≤ r.val ∧ r.val < (5 * (r.val / 1024) + 4) / 5 * 1024 + min 1024 (10000 - 1024 * ((5 * (r.val / 1024) + 4) / 5))
      have := r.isLt
      omega
    | ⟨1, _⟩ =>
      show win1_3.index ⟨5 * (r.val / 1024) + 4, ht⟩ 1 * 128 ≤ q.val ∧ q.val < win1_3.index ⟨5 * (r.val / 1024) + 4, ht⟩ 1 * 128 + win1_3.xsize (grid1.coords ⟨5 * (r.val / 1024) + 4, ht⟩) 1
      rw [(idx1_3 _).2, (xs1_3 _).2]
      have := q.isLt
      omega
  exact arrAt_forall_of_leaves (rd1 V c) 3 (P3 V c) (hP3 V c) cfg1.N ⟨5 * (r.val / 1024) + 4, ht⟩ (ix2 r q) ht
    ((flush1_3 _).mpr (by show (5 * (r.val / 1024) + 4) % 5 = 4; omega)) hmem F3 h3 r q rfl rfl

/-! ## The bf16 copy -/

/-- What every written-back element of the bf16 copy has: on a row inside the adjacency, the adjacency's entry, zero
    at the columns past its end. -/
def P4 (c : Dev nD) (i : S10240x10240.Idx) (v : EReal) : Prop :=
  ∀ (r : Fin 10000) (col : Fin 10240), (i 0).val = r.val → (i 1).val = col.val →
    v = if h : col.val < 10000 then adjM V c (ix2 r ⟨col.val, h⟩) else (0 : EReal)

theorem hP4 (c : Dev nD) : ∀ t, (cfg1.win 4).flush t = true → ∀ X, (rd1 V c).Leaves 4 t X →
    ∀ y : ((cfg1.win 4).xblock (grid1.coords t)).Idx,
      P4 V c (((cfg1.win 4).blk t).view.emb y)
        (_root_.cast (congrArg (Elt Ideal) ((cfg1.win 4).blk t).view.elt_eq.symm) ((cfg1.win 4).cut (grid1.coords t) X y)) := by
  intro t hf X hL y r col hr hcol
  obtain ⟨Y, -, hYX⟩ := hL
  rw [rd1_after4] at hYX
  have hy0 : (y 0).val < win1_4.xsize (grid1.coords t) 0 := (y 0).isLt
  have hy1 : (y 1).val < win1_4.xsize (grid1.coords t) 1 := (y 1).isLt
  rw [(xs1_4 t).1] at hy0
  rw [(xs1_4 t).2] at hy1
  have e0 : ((win1_4.rect t).emb y 0).val = 1024 * (t.val / 5) + (y 0).val := by
    rw [Window.rect_emb_val, (idx1_4 t).1]; show t.val / 5 * 1024 + (y 0).val = _; omega
  have e1 : ((win1_4.rect t).emb y 1).val = 2048 * (t.val % 5) + (y 1).val := by
    rw [Window.rect_emb_val, (idx1_4 t).2]; show t.val % 5 * 2048 + (y 1).val = _; omega
  have hr' : 1024 * (t.val / 5) + (y 0).val = r.val := e0.symm.trans hr
  have hc' : 2048 * (t.val % 5) + (y 1).val = col.val := e1.symm.trans hcol
  have hp : 1024 * (t.val / 5) + (y 0).val < 10000 := by have := r.isLt; omega
  have hX := hYX ⟨(y 0).val, hy0⟩ ⟨(y 1).val, hy1⟩ hp
  refine (cast_eq _ _).trans ?_
  show X ((cfg1.win 4).xinj (grid1.coords t) y) = _
  rw [show (cfg1.win 4).xinj (grid1.coords t) y = ix2 (⟨(y 0).val, hy0⟩ : Fin 1024) (⟨(y 1).val, hy1⟩ : Fin 2048) from Shape.idx_ext₂ rfl rfl, hX]
  by_cases hc : col.val < 10000
  · rw [dif_pos hc, dif_pos (show 2048 * (t.val % 5) + (y 1).val < 10000 by omega)]
    exact congrArg (adjM V c) (Shape.idx_ext₂ hr' hc')
  · rw [dif_neg hc, dif_neg (show ¬ 2048 * (t.val % 5) + (y 1).val < 10000 by omega)]

/-- The bf16 copy after the region, on the rows inside the adjacency: every block is written back, at its own point. -/
theorem exit4 (c : Dev nD) (F4 : Buf (Elt Ideal) ((cfg1.win 4).arr.view.loc (c.tc : Thread nD τ)))
    (h4 : (rd1 V c).ArrAt 4 cfg1.N F4) (r : Fin 10000) (col : Fin 10240) :
    F4 (ix2 (⟨r.val, by omega⟩ : Fin 10240) col) = if h : col.val < 10000 then adjM V c (ix2 r ⟨col.val, h⟩) else (0 : EReal) := by
  have ht : 5 * (r.val / 1024) + col.val / 2048 < cfg1.N := by rw [show cfg1.N = 50 from N_1]; omega
  have hmem : (ix2 (⟨r.val, by omega⟩ : Fin 10240) col : S10240x10240.Idx) ∈ ((cfg1.win 4).blk ⟨5 * (r.val / 1024) + col.val / 2048, ht⟩).view.set := by
    show (ix2 (⟨r.val, by omega⟩ : Fin 10240) col : S10240x10240.Idx) ∈ ((View.whole main_v3_1).slice (win1_4.rect ⟨5 * (r.val / 1024) + col.val / 2048, ht⟩)).set
    rw [View.set_slice_whole, Rect.mem_set_unit]
    intro a
    match a with
    | ⟨0, _⟩ =>
      show win1_4.index ⟨5 * (r.val / 1024) + col.val / 2048, ht⟩ 0 * 1024 ≤ r.val ∧ r.val < win1_4.index ⟨5 * (r.val / 1024) + col.val / 2048, ht⟩ 0 * 1024 + win1_4.xsize (grid1.coords ⟨5 * (r.val / 1024) + col.val / 2048, ht⟩) 0
      rw [(idx1_4 _).1, (xs1_4 _).1]
      show (5 * (r.val / 1024) + col.val / 2048) / 5 * 1024 ≤ r.val ∧ r.val < (5 * (r.val / 1024) + col.val / 2048) / 5 * 1024 + 1024
      have := col.isLt
      omega
    | ⟨1, _⟩ =>
      show win1_4.index ⟨5 * (r.val / 1024) + col.val / 2048, ht⟩ 1 * 2048 ≤ col.val ∧ col.val < win1_4.index ⟨5 * (r.val / 1024) + col.val / 2048, ht⟩ 1 * 2048 + win1_4.xsize (grid1.coords ⟨5 * (r.val / 1024) + col.val / 2048, ht⟩) 1
      rw [(idx1_4 _).2, (xs1_4 _).2]
      show (5 * (r.val / 1024) + col.val / 2048) % 5 * 2048 ≤ col.val ∧ col.val < (5 * (r.val / 1024) + col.val / 2048) % 5 * 2048 + 2048
      have := col.isLt
      omega
  exact arrAt_forall_of_leaves (rd1 V c) 4 (P4 V c) (hP4 V c) cfg1.N ⟨5 * (r.val / 1024) + col.val / 2048, ht⟩ _ ht
    (flush1_4 _) hmem F4 h4 r col rfl rfl

/-! ## Both -/

/-- What is known of the two result arrays after the region. -/
theorem exit_facts (c : Dev nD)
    (F3 : Buf (Elt Ideal) ((cfg1.win 3).arr.view.loc (c.tc : Thread nD τ)))
    (F4 : Buf (Elt Ideal) ((cfg1.win 4).arr.view.loc (c.tc : Thread nD τ)))
    (h3 : (rd1 V c).ArrAt 3 cfg1.N F3) (h4 : (rd1 V c).ArrAt 4 cfg1.N F4) : Q1 V c F3 F4 :=
  ⟨fun r q => exit3 V c F3 h3 r q, fun r col => exit4 V c F4 h4 r col⟩

end Cert.KernelIdeal.Pf

end
-- ==== Proof.Pf.Reg1Seg.lean ====
/- The second kernel region as a segment of the launch: the four entailments around the region's thread states — the
   arrays sorted out of the unscoped buffers at entry, the invariant at the first point, what the invariant gives back
   at the last, and the thread state at exit, where what is known of the two result arrays is read off the
   write-backs. -/
import proofs.«145375_g77163382440895_cont_9to1c4b_61_6_alg».proof.Proof.Pf.Reg1Data
import proofs.«145375_g77163382440895_cont_9to1c4b_61_6_alg».proof.Proof.Pf.Reg1Exit
import proofs.«145375_g77163382440895_cont_9to1c4b_61_6_alg».proof.Proof.Gen.KernelIdeal.Regions

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

local notation "𝕄" => M2 Ideal

variable (V : Entry)
variable (Ex : Dev nD → sProp (M2 Ideal))

/-- Every array is held at the full share. -/
theorem rd1_share (c : Dev nD) (w : Fin cfg1.W) : (rd1 V c).share w = fullShare := by
  unfold RDat.share; split <;> rfl

/-- ENTRY: the windows' arrays at the proof data's entry contents, the core's `owes`, the generator register and what
    bypasses the region, sorted out of the thread state the region is entered from. -/
theorem hentry1 (c : Dev nD) :
    iprop(pre1 V Ex c ∗ Pipeline.ownSems0 (fun k : PEmpty => k.elim) c ∗ levAts (fun _ : GSem nD τ sig => (∅ : Finset Unit)) (fun _ _ => (0 : ℕ)))
      ⊢ |={Set.univ}=> iprop((rd1 V c).arrays (rd1 V c).A ∗ Pipeline.prefHeld (pcfgs (F := Ideal) 1).pre c (fun _ => fullShare) (adm (F := Ideal) 1).1
          ∗ (rd1 V c).owesAt () 0 ∗ X1 c ∗ Z1 V Ex c) := by
  have hsplit := Pipeline.RDat.arrays_of_unscopedBufs (p := 1) (pcfgs (F := Ideal)) adm
    (Pipeline.RDat.familyOf (pcfgs (F := Ideal)) adm 1 (rd1 V)) launch1.win launch1.arr_whole c
    (fun w => by rw [Pipeline.RDat.familyOf_self]; exact rd1_share V c w) (fun b => V c b)
    (fun w => by rw [Pipeline.RDat.familyOf_self]; exact rd1_A V c w)
  rw [Pipeline.RDat.familyOf_self, Pipeline.unscopedBufs_held] at hsplit
  rw [Pipeline.ownSems0_none]
  unfold pre1 X1 Z1
  iintro ⟨⟨Hub, Hp, HO, HEx⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.RDat.owesAt Pipeline.owesWithin
    icases HO with ⟨%W, HO⟩; iexists W; isplitr; · ipureintro; exact fun _ _ => Or.inl trivial
    iexact HO
  isplitl [Hp]; · iexact Hp
  isplitl [Hrest]; · iexact Hrest
  iexact HEx

/-- The invariant at the first point, from the generator register and the scoped buffers no window stages. -/
theorem hin1 (c : Dev nD) :
    iprop(X1 c ∗ Pipeline.prefHeld (pcfgs (F := Ideal) 1).pre c (fun _ => fullShare) (adm (F := Ideal) 1).1
        ∗ Pipeline.scopedRest (Pipeline.pin (pcfgs (F := Ideal)) adm 1).spec c) ⊢ (rd1 V c).Φ 0 := by
  rw [rd1_Φ]
  have hs := scopedRest1_eq (Ix := Unit) (Val := Elt Ideal) (Name := ℕ) (U := U2) (Lvl := ℕ) c
  unfold Φ1 scopedOthers1 X1
  iintro ⟨Hp, -, Hr⟩
  ihave Hr' := (Entails.of_eq hs) $$ Hr
  icases Hr' with ⟨H1, H2, H3, H4, H5, H6, H7, ⟨%s, Hs⟩, H9, H10, H11, H12, H13, H14, H15⟩
  isplitl [H1 H2 H3 H4 H5 H6 H7 H9 H10 H11 H12 H13 H14 H15]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    iexact H15
  isplitl [Hp]; · iexact Hp
  iexists s
  isplitr
  · ipureintro; intro h; exact absurd (show (0 : Fin (cfg1.N + 1)).val % 5 = 0 from rfl) h
  rw [owns_whole]; iexact Hs

/-- The invariant at the last point gives back the generator register and those scoped buffers. -/
theorem hout1 (c : Dev nD) :
    (rd1 V c).Φ (Fin.last (Pipeline.pin (pcfgs (F := Ideal)) adm 1).N)
      ⊢ iprop(Y1 c ∗ Pipeline.ownSems0 (fun k : PEmpty => k.elim) c ∗ Pipeline.scopedRest (Pipeline.pin (pcfgs (F := Ideal)) adm 1).spec c) := by
  rw [rd1_Φ, Pipeline.ownSems0_none]
  have hs := scopedRest1_eq (Ix := Unit) (Val := Elt Ideal) (Name := ℕ) (U := U2) (Lvl := ℕ) c
  unfold Φ1 scopedOthers1 Y1
  iintro ⟨⟨H1, H2, H3, H4, H5, H6, H7, H9, H10, H11, H12, H13, H14, H15⟩, Hp, ⟨%s, -, Hs⟩⟩
  ihave Hs' := (Entails.of_eq (owns_whole (c : Thread nD τ) cc1_scratch0 fullShare s)) $$ Hs
  isplitl [Hp]; · iexact Hp
  isplitr; · iempintro
  iapply (Entails.of_eq hs.symm)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs']; · iexists s; iexact Hs'
  isplitl [H9]; · iexact H9
  isplitl [H10]; · iexact H10
  isplitl [H11]; · iexact H11
  isplitl [H12]; · iexact H12
  isplitl [H13]; · iexact H13
  isplitl [H14]; · iexact H14
  iexact H15

/-- The arrays at contents `A` and the bypassing buffers at the entry contents are every unscoped buffer held at
    the entry contents updated, at the two result arrays, to what `A` has there — the inputs' arrays being as at
    entry. -/
theorem held_of_arrays (c : Dev nD) (A : (w : Fin cfg1.W) → Buf (Elt Ideal) ((cfg1.win w).arr.view.loc (c.tc : Thread nD τ)))
    (h0 : A 0 = V c (Pipeline.arrRef spec1 0)) (h1 : A 1 = V c (Pipeline.arrRef spec1 1)) (h2 : A 2 = V c (Pipeline.arrRef spec1 2)) :
    iprop((bigSep Finset.univ fun w : Fin cfg1.W => ((cfg1.win w).arr.view.loc (c.tc : Thread nD τ) ↦[(cfg1.win w).arr.view.set]{(rd1 V c).share w} A w : sProp 𝕄))
        ∗ Pipeline.unscopedRest (Ix := Unit) (Name := ℕ) (U := U2) (Lvl := ℕ) spec1 c (fun b : Ref sig .tc => V c b))
      ⊢ StableHlo.held (c : Thread nD τ) (Pipeline.ucRefs τ sig)
          (Function.update (Function.update (V c) main_v3_0 (A 3)) main_v3_1 (A 4)) := by
  have hne : (Proc.devRef .tc main_v3_0 : DevRef τ sig) ≠ Proc.devRef .tc main_v3_1 := StableHlo.devRef_ne_of_ne (by decide)
  have hF0 : A 0 = Function.update (Function.update (V c) main_v3_0 (A 3)) main_v3_1 (A 4) (Proc.devRef .tc (Pipeline.arrRef spec1 0)) := by
    rw [Function.update_of_ne (StableHlo.devRef_ne_of_ne (by decide)), Function.update_of_ne (StableHlo.devRef_ne_of_ne (by decide))]; exact h0
  have hF1 : A 1 = Function.update (Function.update (V c) main_v3_0 (A 3)) main_v3_1 (A 4) (Proc.devRef .tc (Pipeline.arrRef spec1 1)) := by
    rw [Function.update_of_ne (StableHlo.devRef_ne_of_ne (by decide)), Function.update_of_ne (StableHlo.devRef_ne_of_ne (by decide))]; exact h1
  have hF2 : A 2 = Function.update (Function.update (V c) main_v3_0 (A 3)) main_v3_1 (A 4) (Proc.devRef .tc (Pipeline.arrRef spec1 2)) := by
    rw [Function.update_of_ne (StableHlo.devRef_ne_of_ne (by decide)), Function.update_of_ne (StableHlo.devRef_ne_of_ne (by decide))]; exact h2
  have hF3 : A 3 = Function.update (Function.update (V c) main_v3_0 (A 3)) main_v3_1 (A 4) (Proc.devRef .tc (Pipeline.arrRef spec1 3)) := by
    rw [Function.update_of_ne hne]; exact (Function.update_self (f := V c) (Proc.devRef .tc main_v3_0) (A 3)).symm
  have hF4 : A 4 = Function.update (Function.update (V c) main_v3_0 (A 3)) main_v3_1 (A 4) (Proc.devRef .tc (Pipeline.arrRef spec1 4)) :=
    (Function.update_self (f := Function.update (V c) main_v3_0 (A 3)) (Proc.devRef .tc main_v3_1) (A 4)).symm
  have hF : ∀ w : Fin cfg1.W, A w = Function.update (Function.update (V c) main_v3_0 (A 3)) main_v3_1 (A 4) (Proc.devRef .tc (Pipeline.arrRef spec1 w)) :=
    fun | 0 => hF0 | 1 => hF1 | 2 => hF2 | 3 => hF3 | 4 => hF4 | ⟨_ + 5, h⟩ => absurd h (Nat.not_lt.2 (Nat.le_add_left _ _))
  have hrest : ∀ b : Ref sig .tc, b ∉ Finset.univ.image (Pipeline.arrRef spec1) →
      Function.update (Function.update (V c) main_v3_0 (A 3)) main_v3_1 (A 4) (Proc.devRef .tc b) = V c (Proc.devRef .tc b) := by
    intro b hb
    have h3 : b ≠ main_v3_0 := fun e => hb (Finset.mem_image.mpr ⟨3, Finset.mem_univ _, e.symm⟩)
    have h4 : b ≠ main_v3_1 := fun e => hb (Finset.mem_image.mpr ⟨4, Finset.mem_univ _, e.symm⟩)
    rw [Function.update_of_ne (StableHlo.devRef_ne_of_ne h4), Function.update_of_ne (StableHlo.devRef_ne_of_ne h3)]
  rw [← Pipeline.unscopedBufs_held (Ix := Unit) (Name := ℕ) (U := U2) (Lvl := ℕ),
    Pipeline.unscopedBufs_split cfgs 1 winFacts1.arr_unscoped winFacts1.arr_inj c]
  refine sep_mono (Entails.of_eq (bigSep_congr fun w _ => ?_)) (Entails.of_eq ?_)
  · rw [(arr_whole1 w).set_eq_univ, rd1_share V c w, hF w]; rfl
  · unfold Pipeline.unscopedRest
    exact (bigSep_congr fun b hb => by beta_reduce; rw [hrest b (Finset.mem_sdiff.mp hb).2])

/-- EXIT: the arrays at what the write-backs left, the core's `owes`, the generator register and what bypassed the
    region make the thread state the region leaves. -/
theorem hexit1 (c : Dev nD) :
    iprop((rd1 V c).arraysAt (Pipeline.pin (pcfgs (F := Ideal)) adm 1).N ∗ (rd1 V c).owesAt () (Fin.last (Pipeline.pin (pcfgs (F := Ideal)) adm 1).N) ∗ Y1 c ∗ Z1 V Ex c)
      ⊢ |={Set.univ}=> post1 V Ex c := by
  classical
  unfold RDat.arraysAt Y1 Z1 post1
  iintro ⟨Ha, HO, HY, Hrest, HEx⟩
  ihave Ha' := (BI.bigSep_exists_pi Finset.univ (fun (w : Fin cfg1.W) F => iprop(⌜(rd1 V c).ArrAt w cfg1.N F⌝
      ∗ (cfg1.win w).arr.view.loc (c.tc : Thread nD τ) ↦[(cfg1.win w).arr.view.set]{(rd1 V c).share w} F))) $$ Ha
  icases Ha' with ⟨%A, Ha⟩
  ihave Ha2 := (BI.bigSep_pure_sep Finset.univ (fun w => (rd1 V c).ArrAt w cfg1.N (A w))
      (fun w => ((cfg1.win w).arr.view.loc (c.tc : Thread nD τ) ↦[(cfg1.win w).arr.view.set]{(rd1 V c).share w} A w : sProp 𝕄))) $$ Ha
  icases Ha2 with ⟨%hA', Ha⟩
  have hA := fun w => hA' w (Finset.mem_univ w)
  have h0 : A 0 = V c (Pipeline.arrRef spec1 0) := by
    have h := hA 0; rw [RDat.ArrAt_in (rd1 V c) 0 rfl] at h; exact h.trans (rd1_A V c 0)
  have h1 : A 1 = V c (Pipeline.arrRef spec1 1) := by
    have h := hA 1; rw [RDat.ArrAt_in (rd1 V c) 1 rfl] at h; exact h.trans (rd1_A V c 1)
  have h2 : A 2 = V c (Pipeline.arrRef spec1 2) := by
    have h := hA 2; rw [RDat.ArrAt_in (rd1 V c) 2 rfl] at h; exact h.trans (rd1_A V c 2)
  have hQ := exit_facts V c (A 3) (A 4) (hA 3) (hA 4)
  imodintro
  iexists (fun c' => (Subsingleton.elim c c') ▸ A 3), (fun c' => (Subsingleton.elim c c') ▸ A 4)
  isplitr
  · ipureintro; intro c'; obtain rfl := Subsingleton.elim c c'; exact hQ
  isplitl [Ha Hrest]
  · iapply (held_of_arrays V c A h0 h1 h2)
    isplitl [Ha] <;> iassumption
  isplitl [HY]; · iexact HY
  isplitl [HO]
  · unfold Pipeline.RDat.owesAt Pipeline.owesWithin
    icases HO with ⟨%W, -, HO⟩; iexists W; iexact HO
  iexact HEx

end Cert.KernelIdeal.Pf

end
-- ==== Proof.Pf.Runs2.lean ====
/- The third kernel's body, run once on whole staging buffers and the accumulator, in each of the three cases of its
   reduction axis: first block (reset, then add), a middle block (add), the last block (the second operand's tail rows
   masked off, the finished sum stored to the result's buffer). -/
import proofs.«145375_g77163382440895_cont_9to1c4b_61_6_alg».proof.Proof.Pf.Base
import Idealize.ShloMosaic.Lib.Pipeline.Value

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

variable {F : FTy → Type} [FloatOps F]

local notation "𝕄" => M2 F

/-! ## The three conditions, from the coordinate along the reduction axis

The body tests that coordinate (one of five values) for being zero, below four, and four, each as a chain of word
comparisons; with the coordinate's value known each chain is a closed computation. -/

/-- The coordinate along the reduction axis is below five. -/
private theorem k2_lt (i : grid2.Coords) : (i 1).val < 5 := (i 1).isLt

private theorem k2c1_pos (i : grid2.Coords) (hk : (i 1).val = 0) :
    Scalar.cmpi .ne (Scalar.extui (Scalar.cmpi .eq (BitVec.ofNat 32 (i 1).val) 0#32)) 0#32 = 1#1 := by
  rw [hk]; decide

private theorem k2c1_neg (i : grid2.Coords) (hk : (i 1).val ≠ 0) :
    ¬ Scalar.cmpi .ne (Scalar.extui (Scalar.cmpi .eq (BitVec.ofNat 32 (i 1).val) 0#32)) 0#32 = 1#1 := by
  have h5 := k2_lt i
  generalize (i 1).val = n at hk h5
  interval_cases n <;> first | exact absurd rfl hk | decide

private theorem k2c2_pos (i : grid2.Coords) (hk : (i 1).val < 4) :
    Scalar.cmpi .ne (Scalar.extui (Scalar.cmpi .slt (BitVec.ofNat 32 (i 1).val) 4#32)) 0#32 = 1#1 := by
  generalize (i 1).val = n at hk
  interval_cases n <;> decide

private theorem k2c2_neg (i : grid2.Coords) (hk : (i 1).val = 4) :
    ¬ Scalar.cmpi .ne (Scalar.extui (Scalar.cmpi .slt (BitVec.ofNat 32 (i 1).val) 4#32)) 0#32 = 1#1 := by
  rw [hk]; decide

private theorem k2c3_pos (i : grid2.Coords) (hk : (i 1).val = 4) : k2_cond3 i = 1#1 := by
  unfold k2_cond3; rw [hk]; decide

private theorem k2c3_neg (i : grid2.Coords) (hk : (i 1).val < 4) : ¬ k2_cond3 i = 1#1 := by
  unfold k2_cond3
  generalize (i 1).val = n at hk
  interval_cases n <;> decide

/-! ## Whole-rectangle accesses of a whole buffer

Every access of this body is through the rectangle of the buffer's own sizes at zero offsets. -/

/-- The offsets of every access of this body: zero along both axes. -/
private theorem zeros2 : (![0, 0] : Fin 2 → Nat) = fun _ => 0 := funext fun a => by fin_cases a <;> rfl

/-- A load of the whole rectangle at zero offsets, through a whole memref held at the raw contents that read `X`,
    reads `X`. -/
private theorem readAt_whole_unread {S : Shape} {e : EltTy} {m : Memref sig .tc .vmem S e} (h : m.IsWhole) (X : S.Idx → Elt F e)
    {off : Fin S.rank → Nat} (hz : off = fun _ => 0) (inb : ∀ a, off a + S.size a ≤ S.size a) :
    View.readAt (Elt F) m.view (Rect.unit off S.size inb).toLoadRect (h.unread X) = X := by
  have e1 : View.readAt (Elt F) m.view (Rect.unit off S.size inb).toLoadRect (h.unread X) = View.ld X (Rect.unit off S.size inb) :=
    funext fun x => congrFun (h.read_unread X) _
  rw [e1, View.ld_unit_zero hz inb X]

/-- A store of the whole rectangle at zero offsets, made last, leaves its payload: whatever the buffer held and
    whatever was stored before. -/
private theorem read_writes_whole {S : Shape} {e : EltTy} {m : Memref sig .tc .vmem S e} (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w := by
  rw [View.read_writes_eq_canon _ _ _ (fun y => ⟨_, List.mem_cons_self, View.mem_set_unit_zero hz inb y⟩),
    View.canon_cons_unit_zero hz inb w L]

/-- First block of the reduction. -/
theorem run2_first (c : Dev nD) (E : Set ℕ) (i : grid2.Coords)
    (a2 : Memref sig .tc .vmem S1024x2048 .bf16) (h2 : a2.IsWhole) (a3 : Memref sig .tc .vmem S2048x128 .f32) (h3 : a3.IsWhole)
    (a4 : Memref sig .tc .vmem S1024x128 .f32) (h4 : a4.IsWhole) (a5 : Memref sig .tc .vmem S1024x128 .f32) (h5 : a5.IsWhole)
    (xa : Vec F S1024x2048 .bf16) (xy : Vec F S2048x128 .f32) (K : PUnit → sProp 𝕄)
    (hk : (i 1).val = 0) (xo : Vec F S1024x128 .f32) :
    iprop(owns (c : Thread nD τ) a2 fullShare xa ∗ owns (c : Thread nD τ) a3 fullShare xy ∗ owns (c : Thread nD τ) a4 fullShare xo ∗ (∃ s, owns (c : Thread nD τ) a5 fullShare s)
        ∗ (iprop(owns (c : Thread nD τ) a2 fullShare xa ∗ owns (c : Thread nD τ) a3 fullShare xy ∗ owns (c : Thread nD τ) a4 fullShare xo
              ∗ owns (c : Thread nD τ) a5 fullShare (k2_pay2 (k2_pay1 (F := F)) xa xy)) -∗ K ⟨⟩))
      ⊢ wp frame (wpE (defs₀ (F := F)) Variants.none c none) E (cc2__stage2_kernel i a2 h2 a3 h3 a4 h4 a5 h5) K := by
  -- at the first block the reset and the accumulation both run; the write-out does not
  have hk4 : (i 1).val < 4 := by omega
  have hc1 := k2c1_pos i hk
  have hc2 := k2c2_pos i hk4
  have hc3 := k2c3_neg i hk4
  simp only [cc2__stage2_kernel_eq_skeleton]; unfold cc2__stage2_kernel_skel
  unfold owns
  iintro ⟨⟨%f2, %hf2, H2⟩, ⟨%f3, %hf3, H3⟩, ⟨%f4, %hf4, H4⟩, ⟨%s, %f5, -, H5⟩, Hk⟩
  obtain rfl := h2.eq_unread hf2
  obtain rfl := h3.eq_unread hf3
  sl_exec (disch := first | exact hc1 | exact hc2 | exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists f4; isplitr; · ipureintro; exact hf4
    iexact H4
  iexists _; isplitr
  swap; · iexact H5
  ipureintro
  -- the accumulator ends at the sum's store; the accumulator that sum read is what the reset had just stored
  rw [read_writes_whole _ zeros2, readAt_whole_unread h2 xa zeros2, readAt_whole_unread h3 xy zeros2]
  unfold run2_first.sl.v9 run2_first.sl.H5_1
  rw [View.readCov_unit_zero _ zeros2]

/-- A middle block. -/
theorem run2_mid (c : Dev nD) (E : Set ℕ) (i : grid2.Coords)
    (a2 : Memref sig .tc .vmem S1024x2048 .bf16) (h2 : a2.IsWhole) (a3 : Memref sig .tc .vmem S2048x128 .f32) (h3 : a3.IsWhole)
    (a4 : Memref sig .tc .vmem S1024x128 .f32) (h4 : a4.IsWhole) (a5 : Memref sig .tc .vmem S1024x128 .f32) (h5 : a5.IsWhole)
    (xa : Vec F S1024x2048 .bf16) (xy : Vec F S2048x128 .f32) (K : PUnit → sProp 𝕄)
    (hk0 : (i 1).val ≠ 0) (hk4 : (i 1).val < 4) (xo : Vec F S1024x128 .f32) (s : Vec F S1024x128 .f32) :
    iprop(owns (c : Thread nD τ) a2 fullShare xa ∗ owns (c : Thread nD τ) a3 fullShare xy ∗ owns (c : Thread nD τ) a4 fullShare xo ∗ owns (c : Thread nD τ) a5 fullShare s
        ∗ (iprop(owns (c : Thread nD τ) a2 fullShare xa ∗ owns (c : Thread nD τ) a3 fullShare xy ∗ owns (c : Thread nD τ) a4 fullShare xo
              ∗ owns (c : Thread nD τ) a5 fullShare (k2_pay2 s xa xy)) -∗ K ⟨⟩))
      ⊢ wp frame (wpE (defs₀ (F := F)) Variants.none c none) E (cc2__stage2_kernel i a2 h2 a3 h3 a4 h4 a5 h5) K := by
  -- at a middle block only the accumulation runs
  have hc1 := k2c1_neg i hk0
  have hc2 := k2c2_pos i hk4
  have hc3 := k2c3_neg i hk4
  simp only [cc2__stage2_kernel_eq_skeleton]; unfold cc2__stage2_kernel_skel
  unfold owns
  iintro ⟨⟨%f2, %hf2, H2⟩, ⟨%f3, %hf3, H3⟩, ⟨%f4, %hf4, H4⟩, ⟨%f5, %hf5, H5⟩, Hk⟩
  obtain rfl := h2.eq_unread hf2
  obtain rfl := h3.eq_unread hf3
  obtain rfl := h5.eq_unread hf5
  sl_exec (disch := first | exact hc1 | exact hc2 | exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists f4; isplitr; · ipureintro; exact hf4
    iexact H4
  iexists _; isplitr
  swap; · iexact H5
  ipureintro
  -- the accumulator ends at the sum's store, of the three whole buffers as they were read
  rw [read_writes_whole _ zeros2, readAt_whole_unread h5 s zeros2, readAt_whole_unread h2 xa zeros2,
    readAt_whole_unread h3 xy zeros2]

/-- The last block. -/
theorem run2_last (c : Dev nD) (E : Set ℕ) (i : grid2.Coords)
    (a2 : Memref sig .tc .vmem S1024x2048 .bf16) (h2 : a2.IsWhole) (a3 : Memref sig .tc .vmem S2048x128 .f32) (h3 : a3.IsWhole)
    (a4 : Memref sig .tc .vmem S1024x128 .f32) (h4 : a4.IsWhole) (a5 : Memref sig .tc .vmem S1024x128 .f32) (h5 : a5.IsWhole)
    (xa : Vec F S1024x2048 .bf16) (xy : Vec F S2048x128 .f32) (K : PUnit → sProp 𝕄)
    (hk : (i 1).val = 4) (s : Vec F S1024x128 .f32) :
    iprop(owns (c : Thread nD τ) a2 fullShare xa ∗ owns (c : Thread nD τ) a3 fullShare xy ∗ (∃ d, owns (c : Thread nD τ) a4 fullShare d) ∗ owns (c : Thread nD τ) a5 fullShare s
        ∗ (iprop(owns (c : Thread nD τ) a2 fullShare xa ∗ owns (c : Thread nD τ) a3 fullShare xy ∗ owns (c : Thread nD τ) a4 fullShare (k2_pay3 xy s xa)
              ∗ owns (c : Thread nD τ) a5 fullShare s) -∗ K ⟨⟩))
      ⊢ wp frame (wpE (defs₀ (F := F)) Variants.none c none) E (cc2__stage2_kernel i a2 h2 a3 h3 a4 h4 a5 h5) K := by
  -- at the last block neither the reset nor the plain accumulation runs; the masked sum is written out
  have hk0 : (i 1).val ≠ 0 := by omega
  have hc1 := k2c1_neg i hk0
  have hc2 := k2c2_neg i hk
  have hc3 := k2c3_pos i hk
  simp only [cc2__stage2_kernel_eq_skeleton]; unfold cc2__stage2_kernel_skel
  unfold owns
  iintro ⟨⟨%f2, %hf2, H2⟩, ⟨%f3, %hf3, H3⟩, ⟨%d, %f4, -, H4⟩, ⟨%f5, %hf5, H5⟩, Hk⟩
  obtain rfl := h2.eq_unread hf2
  obtain rfl := h3.eq_unread hf3
  obtain rfl := h5.eq_unread hf5
  sl_exec (disch := first | exact hc1 | exact hc2 | exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    -- the result's buffer ends at the one store, of the three whole buffers as they were read
    rw [read_writes_whole _ zeros2, readAt_whole_unread h3 xy zeros2, readAt_whole_unread h5 s zeros2,
      readAt_whole_unread h2 xa zeros2]
  iexists _; isplitr; · ipureintro; exact h5.read_unread _
  iexact H5

end Cert.KernelIdeal.Pf

end
-- ==== Proof.Pf.Reg2.lean ====
/- The third kernel's region at given entry contents: its proof data (each window's staging contents after the body at
   each grid point, the accumulator carried along the reduction axis named point by point), the body's obligation at every
   point from the three runs of the body, and the region's four entailments around the thread state "every unscoped buffer
   at the entry contents, the generator register at some state, nothing owed". -/
import proofs.«145375_g77163382440895_cont_9to1c4b_61_6_alg».proof.Proof.Pf.Runs2
import proofs.«145375_g77163382440895_cont_9to1c4b_61_6_alg».proof.Proof.Gen.KernelIdeal.Regions
import Idealize.ShloMosaic.Lib.Pipeline.Regions
import Idealize.ShloMosaic.Lib.Pipeline.RegionsLoop
import Idealize.ShloMosaic.Lib.Pipeline.FrameBody
import Idealize.ShloMosaic.Lib.Pipeline.FrameSuffix

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

variable {F : FTy → Type} [FloatOps F]

local notation "𝕄" => M2 F

section Region2

variable (V : (c : Dev nD) → Valuation τ sig (Elt F))

/-! ## The windows' blocks -/

/-- Window `w`'s block at point `t`, read off its array as the region finds it: the block's part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's block (never cut: the bf16 copy has 10240 rows and columns). -/
def ablk2 (c : Dev nD) (t : Fin cfg2.N) : Vec F S1024x2048 .bf16 := iblk2 V c 0 t

/-- The second operand's block filled out past the array's end with zeros: on the rows inside the array the block. -/
def yfull2 (c : Dev nD) (t : Fin cfg2.N) : Vec F S2048x128 .f32 :=
  win2_1.fill (grid2.coords t) (fun _ => Scalar.ofBits .f32 0#32) (iblk2 V c 1 t)

/-! ## The accumulator, point by point -/

/-- The accumulator after the body at point `n`: reset and one product added at a first block, one more product added
    at a middle block, unchanged at a last block. -/
def acc2After (c : Dev nD) : (n : ℕ) → n < cfg2.N → Vec F S1024x128 .f32
  | 0, hn => k2_pay2 k2_pay1 (ablk2 V c ⟨0, hn⟩) (yfull2 V c ⟨0, hn⟩)
  | n + 1, hn =>
    if (n + 1) % 5 = 0 then k2_pay2 k2_pay1 (ablk2 V c ⟨n + 1, hn⟩) (yfull2 V c ⟨n + 1, hn⟩)
    else if (n + 1) % 5 = 4 then acc2After c n (Nat.lt_of_succ_lt hn)
    else k2_pay2 (acc2After c n (Nat.lt_of_succ_lt hn)) (ablk2 V c ⟨n + 1, hn⟩) (yfull2 V c ⟨n + 1, hn⟩)

/-- The accumulator as the body at point `n` finds it (at the very first point nothing names it: the reset value
    stands in, and nothing reads this there). -/
def acc2Before (c : Dev nD) : (n : ℕ) → n < cfg2.N → Vec F S1024x128 .f32
  | 0, _ => k2_pay1
  | n + 1, hn => acc2After V c n (Nat.lt_of_succ_lt hn)

/-! ## The invariant and the proof data -/

/-- Before point `t`: the scoped buffers that are neither a staging buffer nor the accumulator, at anything; the
    generator register at some state; the accumulator, after the first point at what the point before left. -/
def Phi2 (c : Dev nD) (t : Fin (cfg2.N + 1)) : sProp 𝕄 :=
  iprop(Pipeline.scopedRestBut (Ix := Unit) (Name := ℕ) (U := U2) (Lvl := ℕ) (Val := Elt F) spec2 c [cc2_scratch0] ∗ (∃ r, prngReg c r)
    ∗ ∃ s, ⌜∀ h : t.val ≠ 0, s = acc2After V c (t.val - 1) (by have := t.isLt; omega)⌝
        ∗ owns (c : Thread nD τ) (Memref.whole cc2_scratch0) fullShare s)

/-- The proof data: the arrays as the region finds them; after the body the first operand's buffer at its block, the
    second's at its block (filled out), the result's — consulted at last blocks only — at the masked sum. -/
def dat2 (c : Dev nD) : Dat τ (Elt F) Unit ℕ U2 ℕ cfg2 c where
  A w := V c (Pipeline.arrRef spec2 w)
  after w t := match w with
    | ⟨0, _⟩ => ablk2 V c t
    | ⟨1, _⟩ => yfull2 V c t
    | ⟨2, _⟩ => k2_pay3 (yfull2 V c t) (acc2Before V c t.val t.isLt) (ablk2 V c t)
  Φ t := Phi2 V c t
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = ablk2 V c t := by dsimp only [dat2]
theorem after2_1 (c : Dev nD) (t : Fin cfg2.N) : (dat2 V c).after 1 t = yfull2 V c t := by dsimp only [dat2]
theorem after2_2 (c : Dev nD) (t : Fin cfg2.N) :
    (dat2 V c).after 2 t = k2_pay3 (yfull2 V c t) (acc2Before V c t.val t.isLt) (ablk2 V c t) := by dsimp only [dat2]

/-! ## The grid -/

/-- The coordinate along the reduction axis of point `t`. -/
theorem coord1_2 : ∀ t : Fin cfg2.N, (grid2.coords t 1).val = t.val % 5 :=
  (by decide +kernel : ∀ t : Fin grid2.N, (grid2.coords t 1).val = t.val % 5)

/-- The second operand's block is cut only at a last block, there to its first 1808 rows. -/
theorem xsize2_1 : ∀ (t : Fin cfg2.N) (a : Fin 2),
    win2_1.xsize (grid2.coords t) a = if t.val % 5 = 4 then (![1808, 128] : Fin 2 → ℕ) a else (![2048, 128] : Fin 2 → ℕ) a :=
  (by decide +kernel : ∀ (t : Fin grid2.N) (a : Fin 2),
    win2_1.xsize (grid2.coords t) a = if t.val % 5 = 4 then (![1808, 128] : Fin 2 → ℕ) a else (![2048, 128] : Fin 2 → ℕ) a)

theorem clip2_1_none : ∀ (t : Fin cfg2.N), t.val % 5 ≠ 4 → ∀ a, (cfg2.win 1).clip (cfg2.grid.coords t) a = none :=
  (by decide +kernel : ∀ (t : Fin grid2.N), t.val % 5 ≠ 4 → ∀ a : Fin 2, win2_1.clip (grid2.coords t) a = none)

/-- The result's window is idle exactly away from the last blocks, -/
theorem idle2_2 : ∀ t : Fin cfg2.N, cfg2.idle 2 (cfg2.grid.coords t) = !decide (t.val % 5 = 4) :=
  (by decide +kernel : ∀ t : Fin grid2.N, idle2 2 (grid2.coords t) = !decide (t.val % 5 = 4))

/-- and is neither fetched nor, away from the last blocks, written back. -/
theorem noFlush2_2 (t : Fin cfg2.N) (h : t.val % 5 ≠ 4) : (cfg2.win 2).flush t = false := by
  cases hf : (cfg2.win 2).flush t
  · rfl
  · exact absurd ((flush2_2 t).mp hf) h

/-! ## What the body finds in the operands' buffers -/

/-- The first operand's buffer, fetched at every point and never cut, holds its block. -/
theorem before2_0 (c : Dev nD) (t : Fin cfg2.N) (d) : (dat2 V c).before 0 t d = ablk2 V c t := by
  unfold Dat.before; rw [if_pos (fetch2_0 t)]; rfl

/-- The second operand's, fetched at every point, holds its block on the rows inside the array, anything past them. -/
theorem before2_1 (c : Dev nD) (t : Fin cfg2.N) (d) :
    (dat2 V c).before 1 t d = win2_1.fill (grid2.coords t) d (iblk2 V c 1 t) := by
  unfold Dat.before; rw [if_pos (fetch2_1 t)]; rfl

/-- Away from the last blocks nothing is past them: the buffer holds the block. -/
theorem fill2_1_uncut (c : Dev nD) (t : Fin cfg2.N) (h : t.val % 5 ≠ 4) (d) :
    win2_1.fill (grid2.coords t) d (iblk2 V c 1 t) = yfull2 V c t := by
  funext j
  have hm : win2_1.moved (grid2.coords t) j = true :=
    (win2_1.moved_iff _ j).mpr fun a => by
      have := (j a).isLt; unfold Window.xsize; rw [show win2_1.clip (grid2.coords t) a = none from clip2_1_none t h a]; exact this
  unfold yfull2 Window.fill; rw [dif_pos hm, dif_pos hm]

/-! ## The last step does not read the second operand past row 1808 -/

/-- The row mask of the last step read at coordinates: rows below 1808 take the first operand, the others the second.
    (Below 2048 the signed 32-bit comparison with 1808 is the comparison of naturals.) -/
private theorem rowMask_apply {α : Type} (X Y : S2048x128.Idx → α) (j : Fin 2048) (q : Fin 128) :
    select (cmpi .slt (iota .tc S2048x128 32 ([0] : List (Fin 2)) iota_S2048x128_d0_w32) (broadcast S2048x128 1808#32)) X Y (ix2 j q)
      = if j.val < 1808 then X (ix2 j q) else Y (ix2 j q) := by
  have hc : ∀ l : Fin 2048, IntOp.cmpi .slt (BitVec.ofNat 32 l.val) 1808#32 = if l.val < 1808 then 1#1 else 0#1 := by
    decide +kernel
  have hm : cmpi .slt (iota .tc S2048x128 32 ([0] : List (Fin 2)) iota_S2048x128_d0_w32) (broadcast S2048x128 1808#32) (ix2 j q)
      = if j.val < 1808 then 1#1 else 0#1 :=
    (congrArg (IntOp.cmpi .slt · 1808#32) (iota_single_apply .tc S2048x128 32 0 iota_S2048x128_d0_w32 (ix2 j q))).trans (hc j)
  rw [ValueIdx.select_apply, hm]
  by_cases h : j.val < 1808
  · rw [if_pos h, if_pos h]; exact ValueIdx.select_one _ _
  · rw [if_neg h, if_neg h]; exact ValueIdx.select_zero _ _

/-- At a last block the masked sum is the same whatever the second operand's buffer holds past the array's end: its
    rows from 1808 on are replaced by zeros before the product. -/
theorem k2_pay3_fill (t : Fin cfg2.N) (h : t.val % 5 = 4) (d d' : S2048x128.Idx → Elt F .f32)
    (g : (win2_1.xblock (grid2.coords t)).Idx → Elt F .f32) (s : Vec F S1024x128 .f32) (xa : Vec F S1024x2048 .bf16) :
    k2_pay3 (win2_1.fill (grid2.coords t) d g) s xa = k2_pay3 (win2_1.fill (grid2.coords t) d' g) s xa := by
  have hsel : ∀ (z : S2048x128.Idx → Elt F .f32),
      select (cmpi .slt (iota .tc S2048x128 32 ([0] : List (Fin 2)) iota_S2048x128_d0_w32) (broadcast S2048x128 1808#32))
          (win2_1.fill (grid2.coords t) d g) z
        = select (cmpi .slt (iota .tc S2048x128 32 ([0] : List (Fin 2)) iota_S2048x128_d0_w32) (broadcast S2048x128 1808#32))
          (win2_1.fill (grid2.coords t) d' g) z := by
    intro z; funext j
    obtain ⟨p, q, rfl⟩ : ∃ (p : Fin 2048) (q : Fin 128), j = ix2 p q := ⟨j 0, j 1, ValueIdx.eq_ix2 j⟩
    rw [rowMask_apply, rowMask_apply]
    by_cases hj : p.val < 1808
    · rw [if_pos hj, if_pos hj]
      have hm : win2_1.moved (grid2.coords t) (ix2 p q) = true :=
        (win2_1.moved_iff _ _).mpr fun a => by
          rw [xsize2_1 t a, if_pos h]
          fin_cases a
          · exact hj
          · exact q.isLt
      unfold Window.fill; rw [dif_pos hm, dif_pos hm]
    · rw [if_neg hj, if_neg hj]
  unfold k2_pay3
  simp only [shapeCast_self]
  rw [hsel]

/-! ## The accumulator's recursion, case by case -/

theorem acc2After_congr (c : Dev nD) {n n' : ℕ} (h : n = n') (hn : n < cfg2.N) (hn' : n' < cfg2.N) :
    acc2After V c n hn = acc2After V c n' hn' := by subst h; rfl

theorem acc2After_first (c : Dev nD) (t : Fin cfg2.N) (h : t.val % 5 = 0) :
    acc2After V c t.val t.isLt = k2_pay2 k2_pay1 (ablk2 V c t) (yfull2 V c t) := by
  obtain ⟨n, hn⟩ := t
  cases n with
  | zero => rfl
  | succ n => exact if_pos h

theorem acc2Before_pos (c : Dev nD) (t : Fin cfg2.N) (h : t.val ≠ 0) :
    acc2Before V c t.val t.isLt = acc2After V c (t.val - 1) (Nat.lt_of_le_of_lt (Nat.sub_le _ _) t.isLt) := by
  obtain ⟨n, hn⟩ := t
  cases n with
  | zero => exact absurd rfl h
  | succ n => rfl

theorem acc2After_mid (c : Dev nD) (t : Fin cfg2.N) (h0 : t.val % 5 ≠ 0) (h4 : t.val % 5 ≠ 4) :
    acc2After V c t.val t.isLt = k2_pay2 (acc2Before V c t.val t.isLt) (ablk2 V c t) (yfull2 V c t) := by
  obtain ⟨n, hn⟩ := t
  cases n with
  | zero => exact absurd (Nat.zero_mod _) h0
  | succ n => exact (if_neg h0).trans (if_neg h4)

theorem acc2After_last (c : Dev nD) (t : Fin cfg2.N) (h4 : t.val % 5 = 4) :
    acc2After V c t.val t.isLt = acc2Before V c t.val t.isLt := by
  obtain ⟨n, hn⟩ := t
  cases n with
  | zero => exact absurd (show (0 : ℕ) % 5 = 4 from h4) (by norm_num)
  | succ n =>
    have h4' : (n + 1) % 5 = 4 := h4
    exact (if_neg (by omega)).trans (if_pos h4')

/-! ## The invariant around a point -/

/-- What the invariant hands the body at point `t`: after the first point the accumulator at what the body finds. -/
theorem Phi2_elim (c : Dev nD) (t : Fin cfg2.N) :
    Phi2 V c t.castSucc ⊢ iprop(Pipeline.scopedRestBut (Ix := Unit) (Name := ℕ) (U := U2) (Lvl := ℕ) (Val := Elt F) spec2 c [cc2_scratch0] ∗ (∃ r, prngReg c r)
      ∗ ∃ s, ⌜t.val ≠ 0 → s = acc2Before V c t.val t.isLt⌝ ∗ owns (c : Thread nD τ) (Memref.whole cc2_scratch0) fullShare s) := by
  unfold Phi2
  iintro ⟨Hr, Hg, %s, %hs, Hs⟩
  isplitl [Hr]; · iexact Hr
  isplitl [Hg]; · iexact Hg
  iexists s; isplitr
  · ipureintro; intro hz
    exact (hs (by rw [Fin.coe_castSucc]; exact hz)).trans
      ((acc2After_congr V c (by rw [Fin.coe_castSucc]) _ _).trans (acc2Before_pos V c t hz).symm)
  iexact Hs

/-- What it takes back: the accumulator at what the body at `t` leaves. -/
theorem Phi2_intro (c : Dev nD) (t : Fin cfg2.N) :
    iprop(Pipeline.scopedRestBut (Ix := Unit) (Name := ℕ) (U := U2) (Lvl := ℕ) (Val := Elt F) spec2 c [cc2_scratch0] ∗ (∃ r, prngReg c r)
      ∗ owns (c : Thread nD τ) (Memref.whole cc2_scratch0) fullShare (acc2After V c t.val t.isLt)) ⊢ Phi2 V c t.succ := by
  unfold Phi2
  iintro ⟨Hr, Hg, Hs⟩
  isplitl [Hr]; · iexact Hr
  isplitl [Hg]; · iexact Hg
  iexists _; isplitr
  swap; · iexact Hs
  ipureintro; intro _
  exact acc2After_congr V c (by rw [Fin.val_succ]; omega) _ _

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leaves 0 t ∗ (dat2 V c).leaves 1 t ∗ (dat2 V c).leaves 2 t)

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = Phi2 V c t.succ from rfl, show (dat2 V c).Φ t.castSucc = Phi2 V c t.castSucc from rfl,
    show (dat2 V c).leaves 0 t = owns (c : Thread nD τ) (st2_0 t) fullShare ((dat2 V c).after 0 t) from rfl, after2_0,
    show (dat2 V c).leaves 1 t = iprop(∃ d, owns (c : Thread nD τ) (st2_1 t) fullShare
      (win2_1.fill (grid2.coords t) d (win2_1.cut (grid2.coords t) ((dat2 V c).after 1 t)))) from rfl, after2_1,
    show win2_1.cut (grid2.coords t) (yfull2 V c t) = iblk2 V c 1 t from win2_1.cut_fill _ _ _]

  have hk := coord1_2 t
  have hN : t.val < 50 := lt_of_lt_of_eq t.isLt (show cfg2.N = 50 from N_2)
  by_cases h4 : t.val % 5 = 4
  · -- a last block: the result's window is live, and stated on the part written back; the accumulator is kept
    have hz : t.val ≠ 0 := by omega
    rw [show (dat2 V c).leaves 2 t = iprop(∃ d, owns (c : Thread nD τ) (st2_2 t) fullShare
        ((cfg2.win 2).fill (cfg2.grid.coords t) d ((cfg2.win 2).cut (cfg2.grid.coords t) ((dat2 V c).after 2 t)))) from by
      unfold Dat.leaves; rw [idle2_2 t, decide_eq_true h4]; rfl, after2_2]
    iintro ⟨HP, Ho, ⟨%d0, H0⟩, ⟨%d1, H1⟩, ⟨%d2, H2⟩⟩
    ihave HP' := (Phi2_elim V c t) $$ HP
    icases HP' with ⟨Hr, Hg, %s, %hs, Hs⟩
    obtain rfl := hs hz
    iapply (run2_last c Set.univ (grid2.coords t) _ _ _ _ _ _ _ _ (ablk2 V c t)
      (win2_1.fill (grid2.coords t) d1 (iblk2 V c 1 t)) _ (by rw [hk]; exact h4) (acc2Before V c t.val t.isLt))
    isplitl [H0]; · iexact H0
    isplitl [H1]; · iexact H1
    isplitl [H2]; · iexists _; iexact H2
    isplitl [Hs]; · iexact Hs
    iintro ⟨H0, H1, H2, Hs⟩
    isplitl [Hr Hg Hs]
    · iapply (Phi2_intro V c t)
      isplitl [Hr]; · iexact Hr
      isplitl [Hg]; · iexact Hg
      rw [acc2After_last V c t h4]; iexact Hs
    isplitl [Ho]; · iexact Ho
    isplitl [H0]; · iexact H0
    isplitl [H1]; · iexists d1; iexact H1
    -- the masked sum is the same whatever lies past the second operand's last row inside the array
    have hY : k2_pay3 (yfull2 V c t) (acc2Before V c t.val t.isLt) (ablk2 V c t)
        = k2_pay3 (win2_1.fill (grid2.coords t) d1 (iblk2 V c 1 t)) (acc2Before V c t.val t.isLt) (ablk2 V c t) :=
      k2_pay3_fill t h4 _ d1 _ _ _
    iexists (k2_pay3 (win2_1.fill (grid2.coords t) d1 (iblk2 V c 1 t)) (acc2Before V c t.val t.isLt) (ablk2 V c t))
    rw [hY, (cfg2.win 2).fill_cut]
    iexact H2
  · -- not a last block: the result's window is idle and not written back, so its buffer goes back as found
    rw [Dat.leaves_idle (dat2 V c) 2 t (by rw [idle2_2 t, decide_eq_false h4]; rfl) (noFlush2_2 t h4)]
    iintro ⟨HP, Ho, ⟨%d0, H0⟩, ⟨%d1, H1⟩, ⟨%d2, H2⟩⟩
    ihave HP' := (Phi2_elim V c t) $$ HP
    icases HP' with ⟨Hr, Hg, %s, %hs, Hs⟩
    rw [fill2_1_uncut V c t h4 d1]
    by_cases h0 : t.val % 5 = 0
    · -- a first block: the accumulator is reset, whatever it held
      iapply (run2_first c Set.univ (grid2.coords t) _ _ _ _ _ _ _ _ (ablk2 V c t) (yfull2 V c t) _ (by rw [hk]; exact h0)
        ((dat2 V c).before 2 t d2))
      isplitl [H0]; · iexact H0
      isplitl [H1]; · iexact H1
      isplitl [H2]; · iexact H2
      isplitl [Hs]; · iexists s; iexact Hs
      iintro ⟨H0, H1, H2, Hs⟩
      isplitl [Hr Hg Hs]
      · iapply (Phi2_intro V c t)
        isplitl [Hr]; · iexact Hr
        isplitl [Hg]; · iexact Hg
        rw [acc2After_first V c t h0]; iexact Hs
      isplitl [Ho]; · iexact Ho
      isplitl [H0]; · iexact H0
      isplitl [H1]; · iexists d1; rw [fill2_1_uncut V c t h4 d1]; iexact H1
      iexists d2; iexact H2
    · -- a middle block: one more product onto what the point before left
      have hz : t.val ≠ 0 := fun h => h0 (by rw [h])
      obtain rfl := hs hz
      iapply (run2_mid c Set.univ (grid2.coords t) _ _ _ _ _ _ _ _ (ablk2 V c t) (yfull2 V c t) _
        (by rw [hk]; exact h0) (by rw [hk]; omega) ((dat2 V c).before 2 t d2) (acc2Before V c t.val t.isLt))
      isplitl [H0]; · iexact H0
      isplitl [H1]; · iexact H1
      isplitl [H2]; · iexact H2
      isplitl [Hs]; · iexact Hs
      iintro ⟨H0, H1, H2, Hs⟩
      isplitl [Hr Hg Hs]
      · iapply (Phi2_intro V c t)
        isplitl [Hr]; · iexact Hr
        isplitl [Hg]; · iexact Hg
        rw [acc2After_mid V c t h0 h4]; iexact Hs
      isplitl [Ho]; · iexact Ho
      isplitl [H0]; · iexact H0
      isplitl [H1]; · iexists d1; rw [fill2_1_uncut V c t h4 d1]; iexact H1
      iexists d2; iexact H2

/-- The body obligation, on the part each cut window's transfers move, at every point. -/
theorem hbody2L (c : Dev nD) : BodyObligationLoose (dat2 (F := F) V c) (defs₀ (F := F)) Variants.none () Set.univ := fun t => by
  rw [bigSep_W2, bigSep_W2]
  exact sound_body2 V c t

/-! ## The region's record: the relational reading, the result, the thread states -/

variable (Ex : Dev nD → sProp (M2 F))

/-- The proof data read relationally. -/
def rd2 (c : Dev nD) : RDat τ (Elt F) Unit ℕ U2 ℕ cfg2 c := (dat2 V c).toR

/-- The body obligation of the relational reading. -/
theorem hbody2 (c : Dev nD) : (rd2 V c).BodyObligation (defs₀ (F := F)) Variants.none () Set.univ := (hbody2L V c).toR

/-- What the region leaves in the result's array: the entry contents with every last block's masked sum written over
    its rows inside the array. -/
def o5 (c : Dev nD) : Buf (Elt F) ((c : Thread nD τ).loc main_v4) := (dat2 V c).arrAt 2 cfg2.N

/-- The thread state the region is entered from: every unscoped buffer at the entry contents, the generator register at
    some state, nothing owed, and what rides along. -/
def pre2 (c : Dev nD) : sProp 𝕄 :=
  iprop(StableHlo.held (c : Thread nD τ) (Pipeline.ucRefs τ sig) (V c) ∗ (∃ r, prngReg c r)
    ∗ (∃ W, owes (c : Thread nD τ) (0 : CellTallies nD τ sig Unit) W) ∗ Ex c)

/-- The one it leaves: the same with the result's array at what the region leaves there. -/
def post2 (c : Dev nD) : sProp 𝕄 :=
  iprop(StableHlo.held (c : Thread nD τ) (Pipeline.ucRefs τ sig) (Function.update (V c) main_v4 (o5 V c)) ∗ (∃ r, prngReg c r)
    ∗ (∃ W, owes (c : Thread nD τ) (0 : CellTallies nD τ sig Unit) W) ∗ Ex c)

/-- What enters the invariant, what it gives back, what bypasses the region. -/
def X2 (c : Dev nD) : sProp 𝕄 := iprop(∃ r, prngReg c r)
def Y2 (c : Dev nD) : sProp 𝕄 := iprop(∃ r, prngReg c r)
def Z2 (c : Dev nD) : sProp 𝕄 :=
  iprop(Pipeline.unscopedRest (Ix := Unit) (Name := ℕ) (U := U2) (Lvl := ℕ) spec2 c (fun b => V c b) ∗ Ex c)

/-- The three pipelines' proof data with this region's in its place: the library states what it proves of a region's
    arrays for a family. The other two members are placeholders nothing reads. -/
def fam2 : (p : Fin 3) → (c : Dev nD) → Dat τ (Elt F) Unit ℕ U2 ℕ (Pipeline.pin (pcfgs (F := F)) adm p) c
  | ⟨0, _⟩ => fun c => { A := fun w => V c (Pipeline.arrRef spec0 w), after := fun _ _ _ => Classical.arbitrary _, Φ := fun _ => iprop(emp), q := fun _ => fullShare, owed := fun _ => 0 }
  | ⟨1, _⟩ => fun c => { A := fun w => V c (Pipeline.arrRef spec1 w), after := fun _ _ _ => Classical.arbitrary _, Φ := fun _ => iprop(emp), q := fun _ => fullShare, owed := fun _ => 0 }
  | ⟨2, _⟩ => fun c => dat2 V c

set_option backward.isDefEq.respectTransparency.types false in
/-- ENTRY: the region's arrays split out of the unscoped buffers; the generator register and the rest set aside. -/
theorem hentry2 (L : GSem nD τ sig → Finset Unit) (lv : GSem nD τ sig → Unit → ℕ) (c : Dev nD) :
    iprop(pre2 V Ex c ∗ Pipeline.ownSems0 (fun k : PEmpty => k.elim) c ∗ levAts L lv)
      ⊢ |={Set.univ}=> iprop((rd2 V c).arrays (rd2 V c).A ∗ Pipeline.prefHeld (pcfgs (F := F) 2).pre c (fun _ => fullShare) (adm (F := F) 2).1
          ∗ (rd2 V c).owesAt () 0 ∗ X2 (F := F) c ∗ Z2 V Ex c) := by
  rw [Pipeline.ownSems0_none]
  have hsplit := Pipeline.RDat.arrays_of_unscopedBufs (p := 2) (pcfgs (F := F)) adm (fun p c => (fam2 V p c).toR) launch2.win launch2.arr_whole c
    ((fam2 V 2 c).toR.share_full fun _ => rfl) (fun b => V c b) fun _ => rfl
  rw [Pipeline.unscopedBufs_held] at hsplit
  unfold pre2 X2 Z2
  iintro ⟨⟨Hub, Hp, HO, He⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.RDat.owesAt Pipeline.owesWithin
    icases HO with ⟨%W, HO⟩; iexists W; isplitr; · ipureintro; exact fun _ _ => Or.inl trivial
    iexact HO
  isplitl [Hp]; · iexact Hp
  isplitl [Hrest]; · iexact Hrest
  iexact He

/-- The scoped rest split at the accumulator: it, whole at some contents, and the remainder unopened. -/
theorem scopedRest2_split (c : Dev nD) :
    (Pipeline.scopedRest (Ix := Unit) (Name := ℕ) (U := U2) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := U2) (Lvl := ℕ) (Val := Elt F) spec2 c [cc2_scratch0]) :=
  Pipeline.scopedRest_split_of_list spec2 c [cc2_scratch0] (by decide) (by decide)

/-- The invariant at the first point: the accumulator taken out of the scoped rest, at whatever it holds. -/
theorem hin2 (c : Dev nD) :
    iprop(X2 (F := F) c ∗ Pipeline.prefHeld (pcfgs (F := F) 2).pre c (fun _ => fullShare) (adm (F := F) 2).1
        ∗ Pipeline.scopedRest (Ix := Unit) (Name := ℕ) (U := U2) (Lvl := ℕ) (Val := Elt F) spec2 c) ⊢ (rd2 V c).Φ 0 := by
  rw [show (rd2 V c).Φ 0 = Phi2 V c 0 from rfl,
    scopedRest2_split c]
  unfold Phi2 X2
  iintro ⟨Hp, -, ⟨%f, Hs⟩, Hr⟩
  isplitl [Hr]; · iexact Hr
  isplitl [Hp]; · iexact Hp
  iexists f; isplitr
  · ipureintro; intro h; exact absurd rfl h
  rw [owns_whole]; iexact Hs

/-- The invariant at the last point gives the generator register and the scoped rest back, the accumulator's contents
    forgotten. -/
theorem hout2 (c : Dev nD) :
    (rd2 V c).Φ (Fin.last cfg2.N) ⊢ iprop(Y2 (F := F) c ∗ Pipeline.ownSems0 (fun k : PEmpty => k.elim) c
        ∗ Pipeline.scopedRest (Ix := Unit) (Name := ℕ) (U := U2) (Lvl := ℕ) (Val := Elt F) spec2 c) := by
  rw [Pipeline.ownSems0_none, show (rd2 V c).Φ (Fin.last cfg2.N) = Phi2 V c (Fin.last cfg2.N) from rfl,
    scopedRest2_split c]
  unfold Phi2 Y2
  simp only [owns_whole]
  iintro ⟨Hr, Hg, %s, -, Hs⟩
  isplitl [Hg]; · iexact Hg
  isplitr; · iempintro
  isplitl [Hs]
  · iexists s; iexact Hs
  iexact Hr

/-- At the exit each of the region's arrays holds what the write-backs leave: the two operands what they held, the
    result what the region leaves; -/
theorem hF2 (c : Dev nD) (w : Fin cfg2.W) :
    (fam2 V 2 c).arrAt w cfg2.N = (fun b : Ref sig .tc => Function.update (V c) main_v4 (o5 V c) b) (Pipeline.arrRef spec2 w) := by
  match w with
  | ⟨0, _⟩ =>
    exact ((dat2 V c).arrAt_in 0 rfl _).trans
      (Function.update_of_ne (a := (Proc.devRef .tc main_v3_1 : DevRef τ sig)) (a' := Proc.devRef .tc main_v4)
        (StableHlo.devRef_ne_of_ne (by decide)) (o5 V c) (V c)).symm
  | ⟨1, _⟩ =>
    exact ((dat2 V c).arrAt_in 1 rfl _).trans
      (Function.update_of_ne (a := (Proc.devRef .tc main_v3_0 : DevRef τ sig)) (a' := Proc.devRef .tc main_v4)
        (StableHlo.devRef_ne_of_ne (by decide)) (o5 V c) (V c)).symm
  | ⟨2, _⟩ => exact (Function.update_self (Proc.devRef .tc main_v4 : DevRef τ sig) (o5 V c) (V c)).symm

/-- and every other unscoped buffer what it held at entry. -/
theorem hrest2 (c : Dev nD) : ∀ b : Ref sig .tc, b ∉ Finset.univ.image (Pipeline.arrRef spec2) →
    (fun b : Ref sig .tc => Function.update (V c) main_v4 (o5 V c) b) b = (fun b : Ref sig .tc => V c b) b := fun b hb =>
  Function.update_of_ne (a := (Proc.devRef .tc b : DevRef τ sig)) (a' := Proc.devRef .tc main_v4)
    (StableHlo.devRef_ne_of_ne (fun e => hb (Finset.mem_image.mpr ⟨2, Finset.mem_univ _, e.symm⟩))) (o5 V c) (V c)

set_option backward.isDefEq.respectTransparency.types false in
/-- EXIT: the region's arrays put back among the unscoped buffers, the result's at what the region leaves. -/
theorem hexit2 (c : Dev nD) :
    iprop((rd2 V c).arraysAt cfg2.N ∗ (rd2 V c).owesAt () (Fin.last cfg2.N) ∗ Y2 (F := F) c ∗ Z2 V Ex c)
      ⊢ |={Set.univ}=> post2 V Ex c := by
  have hjoin := Pipeline.unscopedBufs_of_arrays (p := 2) (pcfgs (F := F)) adm (Ix := Unit) (Name := ℕ) (U := U2) (Lvl := ℕ)
    launch2.win launch2.arr_whole c (fam2 V) ((fam2 V 2 c).share_full fun _ => rfl)
    (fun b => V c b) (fun b => Function.update (V c) main_v4 (o5 V c) b) ((fam2 V 2 c).arrAt · cfg2.N) (hF2 V c) (hrest2 V c)
  rw [Pipeline.unscopedBufs_held] at hjoin
  rw [show (rd2 V c).arraysAt cfg2.N = (fam2 V 2 c).arrays ((fam2 V 2 c).arrAt · cfg2.N) from (dat2 V c).toR_arraysAt_eq cfg2.N]
  unfold post2 Y2 Z2
  iintro ⟨Ha, HO, HY, Hrest, He⟩
  imodintro
  isplitl [Ha Hrest]
  · iapply hjoin
    isplitl [Ha]; · iexact Ha
    iexact Hrest
  isplitl [HY]; · iexact HY
  isplitl [HO]
  · unfold Pipeline.RDat.owesAt Pipeline.owesWithin
    icases HO with ⟨%W, -, HO⟩; iexists W; iexact HO
  iexact He

end Region2

end Cert.KernelIdeal.Pf

end
-- ==== Proof.Pf.Launch.lean ====
/- The run of the whole program over the extended reals: three kernel regions and the two host operations between the
   first and the second. The first two regions and the host stretch are segments of the launch; the third region, whose
   proof data depend on what the second leaves in the bf16 copy of the adjacency (its rows past the adjacency's end hold
   words nothing names), is entered inside a host segment once those contents are fixed, its staging cells funded from a
   second copy of the rounds algebra. The result array ends at one function of the launch memory, whatever those rows
   held. -/
import proofs.«145375_g77163382440895_cont_9to1c4b_61_6_alg».proof.Proof.Pf.Reg0
import proofs.«145375_g77163382440895_cont_9to1c4b_61_6_alg».proof.Proof.Pf.Reg1Body
import proofs.«145375_g77163382440895_cont_9to1c4b_61_6_alg».proof.Proof.Pf.Reg1Seg
import proofs.«145375_g77163382440895_cont_9to1c4b_61_6_alg».proof.Proof.Pf.Reg2
import proofs.«145375_g77163382440895_cont_9to1c4b_61_6_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

open Idealize.ShloMosaic.Pipeline (HostSeg)

local notation "𝕄" => M2 Ideal

variable (m : (ℓ : Loc nD τ sig) → Buf (Elt Ideal) ℓ) (ρ : Dev nD → PrngReg)

abbrev 𝒱₀ : Variants := Variants.none
abbrev L0 : GSem nD τ sig → Finset Unit := fun _ => ∅
abbrev lv0 : GSem nD τ sig → Unit → ℕ := fun _ _ => 0
abbrev EPL : Emb (UR sig nD τ) (M2 Ideal) := embL
abbrev EPR : Emb (UR sig nD τ) (M2 Ideal) := embR

/-- The second copy's ghost state for the third pipeline's staging cells, on core `c`. -/
def G2 (c : Dev nD) : sProp 𝕄 :=
  iprop(Pipeline.cellsGhost (Pipeline.pin (pcfgs (F := Ideal)) adm) EPR 2 c
    ∗ Pipeline.toksInit (Pipeline.pin (pcfgs (F := Ideal)) adm) EPR 2 c)

/-- The second copy's ghost state for every pipeline, on core `c`. -/
def G2All (c : Dev nD) : sProp 𝕄 :=
  iprop((bigSep Finset.univ fun p => Pipeline.cellsGhost (Pipeline.pin (pcfgs (F := Ideal)) adm) EPR p c)
    ∗ (bigSep Finset.univ fun p => Pipeline.toksInit (Pipeline.pin (pcfgs (F := Ideal)) adm) EPR p c))

/-! ## The buffers between the items -/

abbrev B (c : Dev nD) (r : Ref sig .tc) : Type := Buf (Elt Ideal) ((c : Thread nD τ).loc r)

/-- At launch. -/
abbrev V0 : (c : Dev nD) → Valuation τ sig (Elt Ideal) := fun c b => m (c, b)
/-- After the first region: its result array at what the region leaves. -/
abbrev V1 : (c : Dev nD) → Valuation τ sig (Elt Ideal) := fun c => Function.update (V0 m c) main_v0 (o1 (V0 m) c)
/-- After the two host operations. -/
abbrev V2 : (c : Dev nD) → Valuation τ sig (Elt Ideal) := fun c => StableHlo.after hostOps1 (V1 m c)
/-- After the second region, its two results at `o3`, `o4`. -/
abbrev V3 (o3 : (c : Dev nD) → B c main_v3_0) (o4 : (c : Dev nD) → B c main_v3_1) : (c : Dev nD) → Valuation τ sig (Elt Ideal) :=
  fun c => Function.update (Function.update (V2 m c) main_v3_0 (o3 c)) main_v3_1 (o4 c)
/-- After the third region. -/
abbrev V4 (o3 : (c : Dev nD) → B c main_v3_0) (o4 : (c : Dev nD) → B c main_v3_1) : (c : Dev nD) → Valuation τ sig (Elt Ideal) :=
  fun c => Function.update (V3 m o3 o4 c) main_v4 (o5 (V3 m o3 o4) c)

/-! ## The proof data: two families -/

/-- The first family: the first two regions at their entry contents (its third member is never entered). -/
def rdA : (p : Fin 3) → (c : Dev nD) → RDat τ (Elt Ideal) Unit ℕ U2 ℕ (Pipeline.pin (pcfgs (F := Ideal)) adm p) c
  | ⟨0, _⟩ => fun c => rd0 (V0 m) c
  | ⟨1, _⟩ => fun c => rd1 (V2 m) c
  | ⟨2, _⟩ => fun c => rd2 (V2 m) c

/-- The second family: the third region at its entry contents, once the second region's results are fixed. -/
def rdX (o3 : (c : Dev nD) → B c main_v3_0) (o4 : (c : Dev nD) → B c main_v3_1) :
    (p : Fin 3) → (c : Dev nD) → RDat τ (Elt Ideal) Unit ℕ U2 ℕ (Pipeline.pin (pcfgs (F := Ideal)) adm p) c
  | ⟨0, _⟩ => fun c => rd0 (V0 m) c
  | ⟨1, _⟩ => fun c => rd1 (V2 m) c
  | ⟨2, _⟩ => fun c => rd2 (V3 m o3 o4) c

/-! ## The segments -/

def R0 : Pipeline.RDat.RegionSeg (pcfgs (F := Ideal)) adm (rdA m) () defs₀ 𝒱₀ L0 lv0 0 where
  win := launch0.win.to₀
  block_pos := launch0.block_pos
  stage_whole := launch0.stage_whole
  K := PEmpty
  osem k := k.elim
  ho := Pipeline.OwnSemFacts.none _
  hbody c := hbody0 (V0 m) c
  hwaits := Pipeline.RDat.hwaits_of_owed_zero _ _ _ _ L0 lv0 0 fun _ _ => rfl
  pre c := pre0 (V0 m) G2 c
  post c := post0 (V0 m) G2 c
  X c := X0 c
  Y c := Y0 c
  Z c := Z0 (V0 m) G2 c
  hentry c := hentry0 (V0 m) G2 L0 lv0 c
  hin c := hin0 (V0 m) c
  hout c := hout0 (V0 m) c
  hexit c := hexit0 (V0 m) G2 c

/-- What rides beside the buffers. -/
abbrev Rr (c : Dev nD) : sProp 𝕄 :=
  iprop((∃ r, prngReg c r) ∗ (∃ W, owes (c : Thread nD τ) (0 : CellTallies nD τ sig Unit) W) ∗ G2 c)

def H1 : HostSeg (Name := ℕ) (U := U2) (pcfgs (F := Ideal)) defs₀ 𝒱₀ L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V1 m) Rr

def R1 : Pipeline.RDat.RegionSeg (pcfgs (F := Ideal)) adm (rdA m) () defs₀ 𝒱₀ L0 lv0 1 where
  win := launch1.win.to₀
  block_pos := launch1.block_pos
  stage_whole := launch1.stage_whole
  K := PEmpty
  osem k := k.elim
  ho := Pipeline.OwnSemFacts.none _
  hbody c := hbody1 (V2 m) c
  hwaits := Pipeline.RDat.hwaits_of_owed_zero _ _ _ _ L0 lv0 1 fun _ _ => rfl
  pre c := pre1 (V2 m) G2 c
  post c := post1 (V2 m) G2 c
  X c := X1 c
  Y c := Y1 c
  Z c := Z1 (V2 m) G2 c
  hentry c := hentry1 (V2 m) G2 c
  hin c := hin1 (V2 m) c
  hout c := hout1 (V2 m) c
  hexit c := hexit1 (V2 m) G2 c

/-- The third region's record, once the second region's results are fixed. -/
def R2 (o3 : (c : Dev nD) → B c main_v3_0) (o4 : (c : Dev nD) → B c main_v3_1) :
    Pipeline.RDat.RegionSeg (pcfgs (F := Ideal)) adm (rdX m o3 o4) () defs₀ 𝒱₀ L0 lv0 2 where
  win := launch2.win.to₀
  block_pos := launch2.block_pos
  stage_whole := launch2.stage_whole
  K := PEmpty
  osem k := k.elim
  ho := Pipeline.OwnSemFacts.none _
  hbody c := hbody2 (V3 m o3 o4) c
  hwaits := Pipeline.RDat.hwaits_of_owed_zero _ _ _ _ L0 lv0 2 fun _ _ => rfl
  pre c := pre2 (V3 m o3 o4) (fun _ => iprop(emp)) c
  post c := post2 (V3 m o3 o4) (fun _ => iprop(emp)) c
  X c := X2 c
  Y c := Y2 c
  Z c := Z2 (V3 m o3 o4) (fun _ => iprop(emp)) c
  hentry c := hentry2 (V3 m o3 o4) (fun _ => iprop(emp)) L0 lv0 c
  hin c := hin2 (V3 m o3 o4) c
  hout c := hout2 (V3 m o3 o4) c
  hexit c := hexit2 (V3 m o3 o4) (fun _ => iprop(emp)) c

/-- The last thread state, the core's `owes` apart: every unscoped buffer at its contents, for SOME results of the
    second region of which `Q1` holds. -/
def Tn (c : Dev nD) : sProp 𝕄 :=
  iprop(∃ (o3 : (c' : Dev nD) → B c' main_v3_0) (o4 : (c' : Dev nD) → B c' main_v3_1), ⌜∀ c', Q1 (V2 m) c' (o3 c') (o4 c')⌝
    ∗ StableHlo.held (c : Thread nD τ) (Pipeline.ucRefs τ sig) (V4 m o3 o4 c) ∗ (∃ r, prngReg c r))

/-- The third region as a host segment: from the second region's exit — its results at some contents of which `Q1`
    holds — the region is entered at the proof data for those contents. -/
def H2 : HostSeg (Name := ℕ) (U := U2) (pcfgs (F := Ideal)) defs₀ 𝒱₀ L0 lv0 where
  prog := Prog.lift (.customCall (Pipeline.entry 2) ())
  pre c := post1 (V2 m) G2 c
  post c := iprop(Tn m c ∗ ∃ W, owes (c : Thread nD τ) (0 : CellTallies nD τ sig Unit) W)
  run c {β} k K := by
    unfold post1 G2
    iintro ⟨Hk, Hbd, ⟨%o3, %o4, %hQ, Hh, Hp, HO, Hg, Ht⟩, #Hla⟩
    simp only [Prog.lift, Prog.bind_op, Prog.bind_ret]
    iapply (Pipeline.RDat.RegionSeg.wp (pcfgs (F := Ideal)) adm (rdX m o3 o4) () cellOf_inj EPR defs₀ 𝒱₀ L0 lv0 (R2 m o3 o4) c none (fun u h => nomatch h) k K)
    isplitr [Hbd Hh Hp HO Hg Ht]
    · dsimp only [R2]; unfold post2
      iintro ⟨Hbd, Hh, Hp, HO, -⟩
      iapply Hk
      isplitl [Hbd]; · iexact Hbd
      isplitr [HO]
      · unfold Tn
        iexists o3, o4
        isplitr; · ipureintro; exact hQ
        isplitl [Hh]; · iexact Hh
        iexact Hp
      · iexact HO
    · dsimp only [R2]; unfold pre2
      isplitl [Hbd]; · iexact Hbd
      isplitl [Hh Hp HO]
      · isplitl [Hh]; · iexact Hh
        isplitl [Hp]; · iexact Hp
        isplitl [HO]; · iexact HO
        iempintro
      isplitr; · iexact Hla
      isplitl [Hg]; · iexact Hg
      iexact Ht

abbrev segs : List (Pipeline.RDat.Seg (pcfgs (F := Ideal)) adm (rdA m) () defs₀ 𝒱₀ L0 lv0) :=
  [.region (R0 m), .host (H1 m), .region (R1 m), .host (H2 m)]

/-- No item writes an argument: each is read back off the last valuation as launched. -/
theorem V4_arg (c : Dev nD) (o3 : (c : Dev nD) → B c main_v3_0) (o4 : (c : Dev nD) → B c main_v3_1) (r : Ref sig .tc)
    (h0 : r ≠ main_v0) (h1 : r ∉ hostOps1_W) (h3 : r ≠ main_v3_0) (h4 : r ≠ main_v3_1) (h5 : r ≠ main_v4) :
    V4 m o3 o4 c r = m ((c : Thread nD τ).loc r) := by
  simp only [V4, V3, Function.update_of_ne (StableHlo.devRef_ne_of_ne h5 : (Proc.devRef .tc r : DevRef τ sig) ≠ Proc.devRef .tc main_v4),
    Function.update_of_ne (StableHlo.devRef_ne_of_ne h4 : (Proc.devRef .tc r : DevRef τ sig) ≠ Proc.devRef .tc main_v3_1),
    Function.update_of_ne (StableHlo.devRef_ne_of_ne h3 : (Proc.devRef .tc r : DevRef τ sig) ≠ Proc.devRef .tc main_v3_0)]
  refine (StableHlo.after_of_writes_sub hostOps1 _ hostOps1_writes h1).trans ?_
  simp only [V1, Function.update_of_ne (StableHlo.devRef_ne_of_ne h0 : (Proc.devRef .tc r : DevRef τ sig) ≠ Proc.devRef .tc main_v0)]

/-- THE RUN, given that the third region's result is one function `vf` of the launch memory whatever the second left in
    the rows nothing names (`hv`). -/
theorem run_main_of (vf : (c : Dev nD) → B c main_v4)
    (hv : ∀ (c : Dev nD) (o3 : (c : Dev nD) → B c main_v3_0) (o4 : (c : Dev nD) → B c main_v3_1),
      (∀ c', Q1 (V2 m) c' (o3 c') (o4 c')) → o5 (V3 m o3 o4) c = vf c) :
    θ_run defs (onTc (τ := τ) (main (F := Ideal))) ⟨m, fun _ => 0, ρ⟩ (fun r => ∀ c : Dev nD,
      r.2.mem ((c.tc : Thread nD τ).loc main_v4) = vf c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.RDat.θ_run_regions_kit (pcfgs (F := Ideal)) adm (rdA m) () cellOf_inj EPL defs₀ 𝒱₀ L0 lv0 m ρ main (segs m)
    (fun c Q => ?hmain) ?hnd (O₀ := 0) (hL := fun _ _ => rfl) (G := G2All)
    (u₀ := (initOf (Pipeline.cells cfgs cellOf_inj) (Pipeline.launchToks cfgs cellOf_inj), initOf (Pipeline.cells cfgs cellOf_inj) (Pipeline.launchToks cfgs cellOf_inj)))
    (hu₀ := ?hu0)
    (T₀ := fun c => pre0 (V0 m) G2 c) (Tₙ := Tn m)
    (hch := ?hch) (hinit := ?hinit)
    (QY := fun c s => s.mem ((c.tc : Thread nD τ).loc main_v4) = vf c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?hfin) (hQ := fun _ h => h)
  case hmain =>
    rewrite [main_chain c, Pipeline.RDat.Seg.run_eq_chain,
      show (segs m).map Pipeline.RDat.Seg.prog = [
        Prog.lift (.customCall (Pipeline.entry 0) ()),
        StableHlo.seq hostOps1,
        Prog.lift (.customCall (Pipeline.entry 1) ()),
        Prog.lift (.customCall (Pipeline.entry 2) ()) ] from rfl]
    exact .rfl
  case hnd =>
    simp only [segs, Pipeline.RDat.Seg.pipes_host, Pipeline.RDat.Seg.pipes_region, Pipeline.RDat.Seg.pipes_nil]; decide
  case hu0 =>
    refine (ownU_pair (nD := nD) (τ := τ) (sig := sig) (Ix := Unit) (Val := Elt Ideal) (Name := ℕ) (Lvl := ℕ) (initOf (Pipeline.cells cfgs cellOf_inj) (Pipeline.launchToks cfgs cellOf_inj)) (initOf (Pipeline.cells cfgs cellOf_inj) (Pipeline.launchToks cfgs cellOf_inj))).trans ?_
    iintro ⟨HL, HR⟩
    imod (Pipeline.fund_ghost (Pipeline.pin (pcfgs (F := Ideal)) adm) EPR cellOf_inj) $$ HR with ⟨Hg, Ht⟩
    imodintro
    isplitl [HL]; · iexact HL
    unfold G2All
    rw [bigSep_sep']
    isplitl [Hg]; · iexact Hg
    iexact Ht
  case hch =>
    exact ⟨fun _ => .rfl, fun _ => .rfl, fun _ => .rfl, fun _ => .rfl, fun _ => .rfl⟩
  case hinit =>
    refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    unfold G2All pre0
    iintro ⟨⟨Hh, -, HO, -, Hp, Hg, Ht⟩, -⟩
    imodintro
    isplitl [Hh]; · iexact Hh
    isplitl [Hp]; · iexists _; iexact Hp
    isplitl [HO]; · iexists ∅; iexact HO
    unfold G2
    isplitl [Hg]
    · iapply (show (bigSep Finset.univ fun p => Pipeline.cellsGhost (Pipeline.pin (pcfgs (F := Ideal)) adm) EPR p c : sProp 𝕄) ⊢ Pipeline.cellsGhost (Pipeline.pin (pcfgs (F := Ideal)) adm) EPR 2 c from bigSep_elim (Finset.mem_univ (2 : Fin 3))); iexact Hg
    · iapply (show (bigSep Finset.univ fun p => Pipeline.toksInit (Pipeline.pin (pcfgs (F := Ideal)) adm) EPR p c : sProp 𝕄) ⊢ Pipeline.toksInit (Pipeline.pin (pcfgs (F := Ideal)) adm) EPR 2 c from bigSep_elim (Finset.mem_univ (2 : Fin 3))); iexact Ht
  case hfin =>
    unfold Tn StableHlo.held
    iintro ⟨⟨%o3, %o4, %hQ, Hh, -⟩, HSI⟩
    ihave Hr := (pointsTo_read_all (Pipeline.ucRefs τ sig) (fun b => ((c : Thread nD τ).1, b)) (V4 m o3 o4 c) s') $$ [Hh HSI]
    · isplitl [Hh] <;> iassumption
    icases Hr with ⟨%h, HSI⟩
    imodintro
    isplitr
    · ipureintro
      have hu : ∀ r : Ref sig .tc, ¬ (Proc.devRef .tc r : DevRef τ sig).isScoped → Proc.devRef .tc r ∈ Pipeline.ucRefs τ sig :=
        fun r hr => Finset.mem_filter.mpr ⟨StableHlo.devRef_mem_tcRefs r, hr⟩
      refine ⟨(h _ (hu main_v4 (by decide))).trans ?_, (h _ (hu main_arg0 (by decide))).trans ?_, (h _ (hu main_arg1 (by decide))).trans ?_,
        (h _ (hu main_arg2 (by decide))).trans ?_, (h _ (hu main_arg3 (by decide))).trans ?_, (h _ (hu main_arg4 (by decide))).trans ?_⟩
      · simp only [V4, Function.update_self]; exact hv c o3 o4 hQ
      · exact V4_arg m c _ _ main_arg0 (by decide) (by decide) (by decide) (by decide) (by decide)
      · exact V4_arg m c _ _ main_arg1 (by decide) (by decide) (by decide) (by decide) (by decide)
      · exact V4_arg m c _ _ main_arg2 (by decide) (by decide) (by decide) (by decide) (by decide)
      · exact V4_arg m c _ _ main_arg3 (by decide) (by decide) (by decide) (by decide) (by decide)
      · exact V4_arg m c _ _ main_arg4 (by decide) (by decide) (by decide) (by decide) (by decide)
    · iexact HSI

end Cert.KernelIdeal.Pf

end
-- ==== Proof.Pf.Reg0Value.lean ====
/- What the first region leaves in its result array, at the ideal values: entry (k, col) of the stacked right-hand side
   [w1 | x w2]. The five row blocks of 2000 cover the 10000 rows; row k lies in block k / 2000 at local row k % 2000;
   the left half of a block is the block of w1, the right half the product of the block of x with w2. -/
import proofs.«145375_g77163382440895_cont_9to1c4b_61_6_alg».proof.Proof.Pf.Reg0
import proofs.«145375_g77163382440895_cont_9to1c4b_61_6_alg».proof.Proof.Pf.PayIdeal
import proofs.«145375_g77163382440895_cont_9to1c4b_61_6_alg».proof.Proof.Pf.Blocked
import Idealize.ShloMosaic.Lib.Pipeline.Value

set_option maxRecDepth 16384

noncomputable section

namespace Cert.KernelIdeal.Pf

open Cert.KernelIdeal Cert.KernelIdeal.Gen
open Idealize.ShloMosaic Idealize.ShloMosaic.TcCoe
open Idealize.SL Idealize.SL.Sem
open Idealize.ShloMosaic.ValueIdx (ix1 ix2 idx2_lt0 idx2_lt1 eq_ix2)
open Idealize.ShloMosaic.Pipeline (Dat RDat Cfg Window)
open scoped BigOperators

section Region0Value

variable (V : (c : Dev nD) → Valuation τ sig (Elt Ideal))

/-! ## Where a block sits in its array -/

/-- The block index of the three row-blocked windows at point `t` is (t, 0). -/
theorem index0_0 (t : Fin cfg0.N) : win0_0.index t 0 = t.val ∧ win0_0.index t 1 = 0 := by
  rcases fin_N0 t with rfl | rfl | rfl | rfl | rfl <;> decide
theorem index0_1 (t : Fin cfg0.N) : win0_1.index t 0 = t.val ∧ win0_1.index t 1 = 0 := by
  rcases fin_N0 t with rfl | rfl | rfl | rfl | rfl <;> decide
theorem index0_3 (t : Fin cfg0.N) : win0_3.index t 0 = t.val ∧ win0_3.index t 1 = 0 := by
  rcases fin_N0 t with rfl | rfl | rfl | rfl | rfl <;> decide
/-- The third operand's one block is at (0, 0). -/
theorem index0_2 (t : Fin cfg0.N) : win0_2.index t 0 = 0 ∧ win0_2.index t 1 = 0 := by
  rcases fin_N0 t with rfl | rfl | rfl | rfl | rfl <;> decide

/-- The first operand's block at point `t`, entry (r, j): the array's entry (2000 t + r, j). -/
theorem iblk0_0_apply (c : Dev nD) (t : Fin cfg0.N) (r : Fin 2000) (j : Fin 128) (hk : 2000 * t.val + r.val < 10000) :
    (iblk0 V c 0 t : Vec Ideal S2000x128 .f32) (ix2 r j) = V c main_arg0 (ix2 ⟨2000 * t.val + r.val, hk⟩ j) := by
  unfold iblk0
  rw [View.read_apply]
  show V c main_arg0 _ = V c main_arg0 _
  congr 1
  funext a
  apply Fin.ext
  match a with
  | ⟨0, _⟩ => show win0_0.index t 0 * 2000 + 1 * r.val = 2000 * t.val + r.val; rw [(index0_0 t).1]; omega
  | ⟨1, _⟩ => show win0_0.index t 1 * 128 + 1 * j.val = j.val; rw [(index0_0 t).2]; omega

/-- The second operand's block at point `t`, entry (r, q): the array's entry (2000 t + r, q). -/
theorem iblk0_1_apply (c : Dev nD) (t : Fin cfg0.N) (r : Fin 2000) (q : Fin 128) (hk : 2000 * t.val + r.val < 10000) :
    (iblk0 V c 1 t : Vec Ideal S2000x128 .f32) (ix2 r q) = V c main_arg2 (ix2 ⟨2000 * t.val + r.val, hk⟩ q) := by
  unfold iblk0
  rw [View.read_apply]
  show V c main_arg2 _ = V c main_arg2 _
  congr 1
  funext a
  apply Fin.ext
  match a with
  | ⟨0, _⟩ => show win0_1.index t 0 * 2000 + 1 * r.val = 2000 * t.val + r.val; rw [(index0_1 t).1]; omega
  | ⟨1, _⟩ => show win0_1.index t 1 * 128 + 1 * q.val = q.val; rw [(index0_1 t).2]; omega

/-- The third operand's block is the whole array. -/
theorem iblk0_2_apply (c : Dev nD) (t : Fin cfg0.N) (j : Fin 128) (q : Fin 128) :
    (iblk0 V c 2 t : Vec Ideal S128x128 .f32) (ix2 j q) = V c main_arg3 (ix2 j q) := by
  unfold iblk0
  rw [View.read_apply]
  show V c main_arg3 _ = V c main_arg3 _
  congr 1
  funext a
  apply Fin.ext
  match a with
  | ⟨0, _⟩ => show win0_2.index t 0 * 128 + 1 * j.val = j.val; rw [(index0_2 t).1]; omega
  | ⟨1, _⟩ => show win0_2.index t 1 * 128 + 1 * q.val = q.val; rw [(index0_2 t).2]; omega

/-! ## The result array -/

/-- The stacked right-hand side as contents of the result array. -/
def G0 (c : Dev nD) : Buf (Elt Ideal) ((c : Thread nD τ).loc main_v0) :=
  fun i => Cert.Spec.wcat (V c main_arg0) (V c main_arg2) (V c main_arg3) ⟨(i 0).val, idx2_lt0 i⟩ ⟨(i 1).val, idx2_lt1 i⟩

theorem G0_apply (c : Dev nD) (k : Fin 10000) (col : Fin 256) :
    G0 V c (ix2 k col) = Cert.Spec.wcat (V c main_arg0) (V c main_arg2) (V c main_arg3) k col := rfl

/-- An element (r, col) of the result's block at point `t` sits in the array at (2000 t + r, col). -/
theorem emb0_3 (t : Fin cfg0.N) (r : Fin 2000) (col : Fin 256) (hk : 2000 * t.val + r.val < 10000) :
    ((cfg0.win 3).blk t).view.emb (ix2 r col) = ix2 (⟨2000 * t.val + r.val, hk⟩ : Fin 10000) col := by
  funext a
  apply Fin.ext
  match a with
  | ⟨0, _⟩ => show win0_3.index t 0 * 2000 + 1 * r.val = 2000 * t.val + r.val; rw [(index0_3 t).1]; omega
  | ⟨1, _⟩ => show win0_3.index t 1 * 256 + 1 * col.val = col.val; rw [(index0_3 t).2]; omega

/-- A column of the right half is below 256. -/
theorem k0_right_lt (q : Fin 128) : 128 + q.val < 256 := by omega

/-- What each point writes back is its block of the stacked right-hand side: the left half of the body's result is the
    block of w1, the right half the product of the block of x with w2, a plain sum at the ideal values. -/
theorem flushed0_eq (c : Dev nD) (t : Fin cfg0.N) (hf : (cfg0.win 3).flush t = true) :
    (dat0 V c).flushed 3 t = ((cfg0.win 3).blk t).view.read (Elt Ideal) (G0 V c) := by
  have hN : cfg0.N = 5 := N_0
  have ht := t.isLt
  show (cfg0.win 3).cut (grid0.coords t) ((dat0 V c).after 3 t) = _
  rw [after0_3]
  funext y
  obtain ⟨r, col, rfl⟩ : ∃ (r : Fin 2000) (col : Fin 256), y = ix2 r col := ⟨y 0, y 1, eq_ix2 y⟩
  have hk : 2000 * t.val + r.val < 10000 := by have := r.isLt; omega
  rw [View.read_apply, emb0_3 t r col hk, G0_apply]
  show out0 _ _ _ (ix2 r col) = _
  by_cases hc : col.val < 128
  · have h1 := out0_left (iblk0 V c 0 t) (iblk0 V c 1 t) (iblk0 V c 2 t) r ⟨col.val, hc⟩
    have h2 := Cert.Blocked.wcat_left (V c main_arg0) (V c main_arg2) (V c main_arg3) ⟨2000 * t.val + r.val, hk⟩ ⟨col.val, hc⟩
    exact h1.trans ((iblk0_1_apply V c t r ⟨col.val, hc⟩ hk).trans h2.symm)
  · obtain ⟨q, hq⟩ : ∃ q : Fin 128, col = (⟨128 + q.val, k0_right_lt q⟩ : Fin 256) :=
      ⟨⟨col.val - 128, by have := col.isLt; omega⟩, Fin.ext (by show col.val = 128 + (col.val - 128); omega)⟩
    subst hq
    have h1 := out0_right (iblk0 V c 0 t) (iblk0 V c 1 t) (iblk0 V c 2 t) r q
    have h2 := Cert.Blocked.wcat_right (V c main_arg0) (V c main_arg2) (V c main_arg3) ⟨2000 * t.val + r.val, hk⟩ q
    refine h1.trans (Eq.trans ?_ h2.symm)
    rw [k0_pay1_apply]
    unfold Cert.Spec.xw2
    refine Finset.sum_congr rfl fun j _ => ?_
    rw [iblk0_0_apply V c t r j hk, iblk0_2_apply V c t j q]

/-- The five row blocks cover the result array: row k is in block k / 2000. -/
theorem cover0_arr (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 5 := N_0
  have h0 : (i 0 : Nat) < 10000 := (i 0).isLt
  have h1 : (i 1 : Nat) < 256 := (i 1).isLt
  obtain ⟨t, htv⟩ : ∃ t : Fin cfg0.N, t.val = (i 0).val / 2000 := ⟨⟨(i 0).val / 2000, by omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 2000 ≤ (i 0 : Nat) ∧ (i 0 : Nat) < win0_3.index t 0 * 2000 + 2000
    rw [(index0_3 t).1, htv]; omega
  | ⟨1, _⟩ =>
    show win0_3.index t 1 * 256 ≤ (i 1 : Nat) ∧ (i 1 : Nat) < win0_3.index t 1 * 256 + 256
    rw [(index0_3 t).2]; omega

/-- The region's result array, at the ideal values, is the stacked right-hand side [w1 | x w2]. -/
theorem o1_apply (c : Dev nD) (k : Fin 10000) (col : Fin 256) :
    o1 (F := Ideal) V c (ix2 k col) = Cert.Spec.wcat (V c main_arg0) (V c main_arg2) (V c main_arg3) k col := by
  unfold o1
  rw [(dat0 V c).arrAt_eq_of_cover 3 (G0 V c) (flushed0_eq V c) (cover0_arr c)]
  rfl

end Region0Value

end Cert.KernelIdeal.Pf

end
-- ==== Proof.Pf.Tile.lean ====
/- The gate vector as the second kernel finds it: the host turns the 128-by-1 argument into a single row of 128 lanes
   and repeats that row down an 8-row tile. Row 0 of the tile at lane `q` is the argument's entry `q`; no other
   buffer but the two the host writes changes. -/
import proofs.«145375_g77163382440895_cont_9to1c4b_61_6_alg».proof.Proof.Pf.Base
import proofs.«145375_g77163382440895_cont_9to1c4b_61_6_alg».proof.Proof.Gen.KernelIdeal.Regions
import Idealize.ShloMosaic.Lib.StableHlo.Run
import Idealize.ShloMosaic.Lib.Pipeline.Value
import Idealize.ShloMosaic.Lib.ValueLayout

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat RDat Cfg Window BodyObligation BodyObligationLoose cellOf)

variable {F : FTy → Type} [FloatOps F]

/-- After the host stretch the tile buffer holds the argument, viewed as one row, repeated down the tile's rows. -/
theorem after_hostOps1_v2 (V : (c : Dev nD) → Valuation τ sig (Elt F)) (c : Dev nD) :
    StableHlo.after hostOps1 (V c) (Proc.devRef .tc main_v2)
      = broadcastInDim S8x128 ![0, 1] bcast_S1x128_S8x128_0_1
          (shapeCast S1x128 (V c (Proc.devRef .tc main_arg4)) shapeCasts_S128x1_S1x128) := by
  after_results; rfl

/-- Row 0 of the tile at lane `q` is the column's entry `q`: the repeat reads the single row, and the single row at
    lane `q` and the column at row `q` have the same row-major position. -/
theorem tile_row0 (X : Vec F S128x1 .f32) (q : Fin 128) :
    broadcastInDim S8x128 ![0, 1] bcast_S1x128_S8x128_0_1 (shapeCast S1x128 X shapeCasts_S128x1_S1x128) (ix2 (0 : Fin 8) q)
      = X (ix2 q (0 : Fin 1)) := by
  refine (broadcastInDim_apply ![0, 1] bcast_S1x128_S8x128_0_1 _ (ix2 (0 : Fin 8) q) (ix2 (0 : Fin 1) q) fun a => ?_).trans ?_
  · match a with
    | ⟨0, _⟩ => rfl
    | ⟨1, _⟩ => rfl
  · exact shapeCast_apply X shapeCasts_S128x1_S1x128 (ix2 (0 : Fin 1) q) (ix2 q (0 : Fin 1)) (by
      rw [Shape.rowMajor_val_two, Shape.rowMajor_val_two]
      show q.val * 1 + 0 = 0 * 128 + q.val
      omega)

/-- So after the host stretch row 0 of the tile buffer is the gate argument. -/
theorem v2_row0 (V : (c : Dev nD) → Valuation τ sig (Elt F)) (c : Dev nD) (q : Fin 128) :
    StableHlo.after hostOps1 (V c) (Proc.devRef .tc main_v2) (ix2 (0 : Fin 8) q)
      = V c (Proc.devRef .tc main_arg4) (ix2 q (0 : Fin 1)) := by
  rw [after_hostOps1_v2]
  exact tile_row0 _ q

/-- A buffer other than the two the host stretch writes keeps its contents. -/
theorem after_hostOps1_of (V : (c : Dev nD) → Valuation τ sig (Elt F)) (c : Dev nD) (r : Ref sig .tc) (h : r ∉ hostOps1_W) :
    StableHlo.after hostOps1 (V c) (Proc.devRef .tc r) = V c (Proc.devRef .tc r) :=
  StableHlo.after_of_writes_sub hostOps1 _ hostOps1_writes h

end Cert.KernelIdeal.Pf

end
-- ==== Proof.Pf.Reg2Value.lean ====
/- What the third region leaves in its result array, at the ideal values: entry (r, q) of the product of the bf16 copy's
   first 10000 rows with y, the 10000 terms of the row's sum taken in five blocks of 2048 with y's rows past the 10000th
   replaced by zero. Row r is written back by the last point of its row block r / 1024; what is written there is the
   accumulator after four blocks plus the fifth block's masked product, and the accumulator after k blocks is the
   blocked sum's, by induction on k. -/
import proofs.«145375_g77163382440895_cont_9to1c4b_61_6_alg».proof.Proof.Pf.Reg2
import proofs.«145375_g77163382440895_cont_9to1c4b_61_6_alg».proof.Proof.Pf.PayIdeal
import proofs.«145375_g77163382440895_cont_9to1c4b_61_6_alg».proof.Proof.Pf.Blocked
import Idealize.ShloMosaic.Lib.Pipeline.Value

set_option maxRecDepth 16384

noncomputable section

namespace Cert.KernelIdeal.Pf

open Cert.KernelIdeal Cert.KernelIdeal.Gen
open Idealize.ShloMosaic Idealize.ShloMosaic.TcCoe
open Idealize.SL Idealize.SL.Sem
open Idealize.ShloMosaic.ValueIdx (ix1 ix2 idx2_lt0 idx2_lt1 eq_ix2)
open Idealize.ShloMosaic.Pipeline (Dat RDat Cfg Window)
open scoped BigOperators

section Region2Value

variable (V : (c : Dev nD) → Valuation τ sig (Elt Ideal))

/-! ## The grid's points and the windows' blocks -/

/-- Point `t` of the 10 x 5 grid is row block t / 5, column block t % 5: the first operand's block index, -/
theorem index2_0 : ∀ t : Fin cfg2.N, win2_0.index t 0 = t.val / 5 ∧ win2_0.index t 1 = t.val % 5 :=
  (by decide +kernel : ∀ t : Fin grid2.N, win2_0.index t 0 = t.val / 5 ∧ win2_0.index t 1 = t.val % 5)
/-- the second operand's, -/
theorem index2_1 : ∀ t : Fin cfg2.N, win2_1.index t 0 = t.val % 5 ∧ win2_1.index t 1 = 0 :=
  (by decide +kernel : ∀ t : Fin grid2.N, win2_1.index t 0 = t.val % 5 ∧ win2_1.index t 1 = 0)
/-- the result's. -/
theorem index2_2 : ∀ t : Fin cfg2.N, win2_2.index t 0 = t.val / 5 ∧ win2_2.index t 1 = 0 :=
  (by decide +kernel : ∀ t : Fin grid2.N, win2_2.index t 0 = t.val / 5 ∧ win2_2.index t 1 = 0)
/-- The result's block is cut only in the last row block, there to its first 784 rows. -/
theorem xsize2_2 : ∀ (t : Fin cfg2.N) (a : Fin 2),
    win2_2.xsize (grid2.coords t) a = if t.val / 5 = 9 then (![784, 128] : Fin 2 → ℕ) a else (![1024, 128] : Fin 2 → ℕ) a :=
  (by decide +kernel : ∀ (t : Fin grid2.N) (a : Fin 2),
    win2_2.xsize (grid2.coords t) a = if t.val / 5 = 9 then (![784, 128] : Fin 2 → ℕ) a else (![1024, 128] : Fin 2 → ℕ) a)

/-- The bf16 copy's rows below 10000, and y, as functions of coordinates. -/
abbrev rowsAb2 (c : Dev nD) : Fin 10000 → Fin 10240 → EReal := fun r col => V c main_v3_1 (ix2 (⟨r.val, by omega⟩ : Fin 10240) col)
abbrev colsY2 (c : Dev nD) : Fin 10000 → Fin 128 → EReal := fun k q => V c main_v3_0 (ix2 k q)

/-- The first operand's block at point `t`, entry (p, j): the array's entry (1024 (t / 5) + p, 2048 (t % 5) + j). -/
theorem ablk2_apply (c : Dev nD) (t : Fin cfg2.N) (p : Fin 1024) (j : Fin 2048)
    (h0 : 1024 * (t.val / 5) + p.val < 10240) (h1 : 2048 * (t.val % 5) + j.val < 10240) :
    ablk2 V c t (ix2 p j) = V c main_v3_1 (ix2 (⟨1024 * (t.val / 5) + p.val, h0⟩ : Fin 10240) (⟨2048 * (t.val % 5) + j.val, h1⟩ : Fin 10240)) := by
  unfold ablk2 iblk2
  rw [View.read_apply]
  show V c main_v3_1 _ = V c main_v3_1 _
  congr 1
  funext a
  apply Fin.ext
  match a with
  | ⟨0, _⟩ => show win2_0.index t 0 * 1024 + 1 * p.val = 1024 * (t.val / 5) + p.val; rw [(index2_0 t).1]; omega
  | ⟨1, _⟩ => show win2_0.index t 1 * 2048 + 1 * j.val = 2048 * (t.val % 5) + j.val; rw [(index2_0 t).2]; omega

/-- The second operand's block at point `t`, on a row inside the array: the array's entry (2048 (t % 5) + j, q). -/
theorem yfull2_apply (c : Dev nD) (t : Fin cfg2.N) (j : Fin 2048) (q : Fin 128) (h : 2048 * (t.val % 5) + j.val < 10000) :
    yfull2 V c t (ix2 j q) = V c main_v3_0 (ix2 (⟨2048 * (t.val % 5) + j.val, h⟩ : Fin 10000) q) := by
  have hm : win2_1.moved (grid2.coords t) (ix2 j q) = true :=
    (win2_1.moved_iff _ _).mpr fun a => by
      rw [xsize2_1 t a]
      match a with
      | ⟨0, _⟩ =>
        show j.val < (if t.val % 5 = 4 then (1808 : ℕ) else 2048)
        split
        · omega
        · exact j.isLt
      | ⟨1, _⟩ =>
        show q.val < (if t.val % 5 = 4 then (128 : ℕ) else 128)
        split <;> exact q.isLt
  unfold yfull2 Window.fill
  rw [dif_pos hm]
  unfold iblk2
  rw [View.read_apply]
  show V c main_v3_0 _ = V c main_v3_0 _
  congr 1
  funext a
  apply Fin.ext
  match a with
  | ⟨0, _⟩ => show win2_1.index t 0 * 2048 + 1 * j.val = 2048 * (t.val % 5) + j.val; rw [(index2_1 t).1]; omega
  | ⟨1, _⟩ => show win2_1.index t 1 * 128 + 1 * q.val = q.val; rw [(index2_1 t).2]; omega

/-! ## The accumulator, block by block -/

/-- One more block of the blocked sum. -/
theorem acc2_succ (Ab : Fin 10000 → Fin 10240 → EReal) (Y : Fin 10000 → Fin 128 → EReal) (r : Fin 10000) (q : Fin 128)
    (n : ℕ) (h : n < 5) :
    Cert.Blocked.acc2 Ab Y r q (n + 1) = Cert.Blocked.acc2 Ab Y r q n + Cert.Blocked.part2 Ab Y r q ⟨n, h⟩ := by
  show (if h' : n < 5 then Cert.Blocked.acc2 Ab Y r q n + Cert.Blocked.part2 Ab Y r q ⟨n, h'⟩ else Cert.Blocked.acc2 Ab Y r q n) = _
  exact dif_pos h

/-- The blocked sum does not depend on how the row's bound is proved. -/
theorem acc2_row_congr (Ab : Fin 10000 → Fin 10240 → EReal) (Y : Fin 10000 → Fin 128 → EReal) {r r' : Fin 10000} (h : r.val = r'.val)
    (q : Fin 128) (n : ℕ) : Cert.Blocked.acc2 Ab Y r q n = Cert.Blocked.acc2 Ab Y r' q n := by
  obtain rfl := Fin.ext h; rfl

/-- A block's product away from the last column block, where every row of y's block is inside the array: the blocked
    sum's block. -/
theorem block2_inner (c : Dev nD) (t : Fin cfg2.N) (hk : t.val % 5 ≤ 3) (p : Fin 1024) (q : Fin 128)
    (hr : 1024 * (t.val / 5) + p.val < 10000) :
    ∑ j : Fin 2048, ablk2 V c t (ix2 p j) * yfull2 V c t (ix2 j q)
      = Cert.Blocked.part2 (rowsAb2 V c) (colsY2 V c) ⟨1024 * (t.val / 5) + p.val, hr⟩ q ⟨t.val % 5, by omega⟩ := by
  unfold Cert.Blocked.part2
  refine Finset.sum_congr rfl fun j _ => ?_
  have hj := j.isLt
  have hlt : 2048 * (t.val % 5) + j.val < 10000 := by omega
  rw [ablk2_apply V c t p j (by omega) (by omega), yfull2_apply V c t j q hlt]
  show _ = _ * (if h : 2048 * (t.val % 5) + j.val < 10000 then _ else _)
  rw [dif_pos hlt]

/-- The last column block's product, y's rows from 1808 on replaced by zero: the blocked sum's last block, whose rows
    past the 10000th are those. -/
theorem block2_last (c : Dev nD) (t : Fin cfg2.N) (hk : t.val % 5 = 4) (p : Fin 1024) (q : Fin 128)
    (hr : 1024 * (t.val / 5) + p.val < 10000) :
    ∑ j : Fin 2048, ablk2 V c t (ix2 p j) * (if j.val < 1808 then yfull2 V c t (ix2 j q) else 0)
      = Cert.Blocked.part2 (rowsAb2 V c) (colsY2 V c) ⟨1024 * (t.val / 5) + p.val, hr⟩ q ⟨t.val % 5, by omega⟩ := by
  unfold Cert.Blocked.part2
  refine Finset.sum_congr rfl fun j _ => ?_
  have hj := j.isLt
  rw [ablk2_apply V c t p j (by omega) (by omega)]
  show _ = _ * (if h : 2048 * (t.val % 5) + j.val < 10000 then _ else _)
  by_cases hlt : j.val < 1808
  · have hlt' : 2048 * (t.val % 5) + j.val < 10000 := by omega
    rw [if_pos hlt, dif_pos hlt', yfull2_apply V c t j q hlt']
  · have hlt' : ¬ 2048 * (t.val % 5) + j.val < 10000 := by omega
    rw [if_neg hlt, dif_neg hlt']

/-- The accumulator's row p after the body at column block k ≤ 3 of row block i: the blocked sum of row 1024 i + p
    after k + 1 blocks. By induction on k: the first block resets to zero and adds its product; each later one adds
    its product to what the block before left. -/
theorem acc2After_apply (c : Dev nD) : ∀ (k : ℕ), k ≤ 3 → ∀ (t : Fin cfg2.N), t.val % 5 = k → ∀ (p : Fin 1024) (q : Fin 128)
    (hr : 1024 * (t.val / 5) + p.val < 10000),
    acc2After V c t.val t.isLt (ix2 p q) = Cert.Blocked.acc2 (rowsAb2 V c) (colsY2 V c) ⟨1024 * (t.val / 5) + p.val, hr⟩ q (k + 1)
  | 0, _, t, htk, p, q, hr => by
    rw [acc2After_first V c t htk, k2_pay2_apply, k2_pay1_apply, block2_inner V c t (by omega) p q hr,
      acc2_succ _ _ _ _ 0 (by norm_num)]
    show _ = Cert.Blocked.acc2 _ _ _ _ 0 + Cert.Blocked.part2 _ _ _ _ ⟨0, _⟩
    have e : (⟨t.val % 5, by omega⟩ : Fin 5) = ⟨0, by norm_num⟩ := Fin.ext htk
    rw [e]; rfl
  | k + 1, hk, t, htk, p, q, hr => by
    have hz : t.val ≠ 0 := by omega
    have hN : t.val < 50 := lt_of_lt_of_eq t.isLt (show cfg2.N = 50 from N_2)
    have ht' : t.val - 1 < cfg2.N := Nat.lt_of_le_of_lt (Nat.sub_le _ _) t.isLt
    have hr' : 1024 * ((t.val - 1) / 5) + p.val < 10000 := by
      have : (t.val - 1) / 5 = t.val / 5 := by omega
      rw [this]; exact hr
    have ih := acc2After_apply c k (by omega) ⟨t.val - 1, ht'⟩ (by show (t.val - 1) % 5 = k; omega) p q hr'
    rw [acc2After_mid V c t (by omega) (by omega), k2_pay2_apply, acc2Before_pos V c t hz, block2_inner V c t (by omega) p q hr,
      acc2_succ _ _ _ _ (k + 1) (by omega)]
    have e : (⟨t.val % 5, by omega⟩ : Fin 5) = ⟨k + 1, by omega⟩ := Fin.ext htk
    rw [e]
    congr 1
    exact ih.trans (acc2_row_congr _ _ (by show 1024 * ((t.val - 1) / 5) + p.val = 1024 * (t.val / 5) + p.val; omega) q (k + 1))

/-- What the body leaves in the result's buffer at the last column block of row block i, row p: the blocked sum of row
    1024 i + p after all five blocks. -/
theorem after2_2_apply (c : Dev nD) (t : Fin cfg2.N) (h4 : t.val % 5 = 4) (p : Fin 1024) (q : Fin 128)
    (hr : 1024 * (t.val / 5) + p.val < 10000) :
    (dat2 V c).after 2 t (ix2 p q) = Cert.Blocked.out2 (rowsAb2 V c) (colsY2 V c) ⟨1024 * (t.val / 5) + p.val, hr⟩ q := by
  have hz : t.val ≠ 0 := by omega
  have ht' : t.val - 1 < cfg2.N := Nat.lt_of_le_of_lt (Nat.sub_le _ _) t.isLt
  have hr' : 1024 * ((t.val - 1) / 5) + p.val < 10000 := by
    have : (t.val - 1) / 5 = t.val / 5 := by omega
    rw [this]; exact hr
  have ih := acc2After_apply V c 3 le_rfl ⟨t.val - 1, ht'⟩ (by show (t.val - 1) % 5 = 3; omega) p q hr'
  rw [after2_2, k2_pay3_apply, acc2Before_pos V c t hz, block2_last V c t h4 p q hr]
  unfold Cert.Blocked.out2
  rw [acc2_succ _ _ _ _ 4 (by norm_num)]
  have e : (⟨t.val % 5, by omega⟩ : Fin 5) = ⟨4, by norm_num⟩ := Fin.ext h4
  rw [e]
  congr 1
  exact ih.trans (acc2_row_congr _ _ (by show 1024 * ((t.val - 1) / 5) + p.val = 1024 * (t.val / 5) + p.val; omega) q 4)

/-! ## The result array -/

/-- The blocked product as contents of the result array. -/
def outG2 (c : Dev nD) : Buf (Elt Ideal) ((c : Thread nD τ).loc main_v4) :=
  fun i => Cert.Blocked.out2 (rowsAb2 V c) (colsY2 V c) ⟨(i 0).val, idx2_lt0 i⟩ ⟨(i 1).val, idx2_lt1 i⟩

theorem outG2_apply (c : Dev nD) (r : Fin 10000) (q : Fin 128) :
    outG2 V c (ix2 r q) = Cert.Blocked.out2 (rowsAb2 V c) (colsY2 V c) r q := rfl

/-- The blocked product does not depend on how the coordinates' bounds are proved. -/
theorem out2_congr (Ab : Fin 10000 → Fin 10240 → EReal) (Y : Fin 10000 → Fin 128 → EReal) {r r' : Fin 10000} {q q' : Fin 128}
    (hr : r.val = r'.val) (hq : q.val = q'.val) : Cert.Blocked.out2 Ab Y r q = Cert.Blocked.out2 Ab Y r' q' := by
  obtain rfl := Fin.ext hr; obtain rfl := Fin.ext hq; rfl

/-- What a last column block's point writes back — the rows of the body's result inside the array — is its block of
    the blocked product. -/
theorem flushed2_eq (c : Dev nD) (t : Fin cfg2.N) (hf : (cfg2.win 2).flush t = true) :
    (dat2 V c).flushed 2 t = ((cfg2.win 2).blk t).view.read (Elt Ideal) (outG2 V c) := by
  have h4 : t.val % 5 = 4 := (flush2_2 t).mp hf
  funext y
  have hp : (y 0).val < 1024 := lt_of_lt_of_le (y 0).isLt (win2_2.xsize_le (grid2.coords t) 0)
  have hq : (y 1).val < 128 := lt_of_lt_of_le (y 1).isLt (win2_2.xsize_le (grid2.coords t) 1)
  have he0 : ((((cfg2.win 2).blk t).view.emb y) 0).val = 1024 * (t.val / 5) + (y 0).val := by
    show win2_2.index t 0 * 1024 + 1 * (y 0).val = _; rw [(index2_2 t).1]; omega
  have he1 : ((((cfg2.win 2).blk t).view.emb y) 1).val = (y 1).val := by
    show win2_2.index t 1 * 128 + 1 * (y 1).val = _; rw [(index2_2 t).2]; omega
  have hr : 1024 * (t.val / 5) + (y 0).val < 10000 := he0 ▸ idx2_lt0 (((cfg2.win 2).blk t).view.emb y)
  rw [View.read_apply]
  refine Eq.trans ?_ (cast_eq _ _).symm
  -- what is written back at a local index is the body's result at the same coordinates of the whole block
  have hx : (dat2 V c).flushed 2 t y = (dat2 V c).after 2 t (ix2 (⟨(y 0).val, hp⟩ : Fin 1024) (⟨(y 1).val, hq⟩ : Fin 128)) :=
    congrArg ((dat2 V c).after 2 t) (funext fun a => by match a with | ⟨0, _⟩ => rfl | ⟨1, _⟩ => rfl)
  rw [hx, after2_2_apply V c t h4 ⟨(y 0).val, hp⟩ ⟨(y 1).val, hq⟩ hr]
  exact out2_congr _ _ he0.symm he1.symm

/-- The last column blocks' points cover the result array: row r is in row block r / 1024, whose last point is
    5 (r / 1024) + 4; the last row block is cut to its 784 rows inside the array. -/
theorem cover2_arr (c : Dev nD) (i : ((cfg2.win 2).arr.view.loc (c.tc : Thread nD τ)).2.ty.Idx) :
    ∃ t : Fin cfg2.N, (cfg2.win 2).flush t = true ∧ i ∈ ((cfg2.win 2).blk t).view.set := by
  have hN : cfg2.N = 50 := N_2
  have h0 : (i 0 : Nat) < 10000 := (i 0).isLt
  have h1 : (i 1 : Nat) < 128 := (i 1).isLt
  obtain ⟨t, htv⟩ : ∃ t : Fin cfg2.N, t.val = 5 * ((i 0).val / 1024) + 4 := ⟨⟨5 * ((i 0).val / 1024) + 4, by omega⟩, rfl⟩
  refine ⟨t, (flush2_2 t).mpr (by omega), ?_⟩
  show i ∈ ((View.whole main_v4).slice (win2_2.rect t)).set
  rw [View.set_slice_whole, Rect.mem_set_unit]
  intro a
  have hdiv : t.val / 5 = (i 0).val / 1024 := by omega
  match a with
  | ⟨0, _⟩ =>
    show win2_2.index t 0 * 1024 ≤ (i 0 : Nat) ∧ (i 0 : Nat) < win2_2.index t 0 * 1024 + win2_2.xsize (grid2.coords t) 0
    rw [(index2_2 t).1, xsize2_2 t 0, hdiv]
    split
    · show _ ∧ _ < _ + 784; omega
    · show _ ∧ _ < _ + 1024; omega
  | ⟨1, _⟩ =>
    show win2_2.index t 1 * 128 ≤ (i 1 : Nat) ∧ (i 1 : Nat) < win2_2.index t 1 * 128 + win2_2.xsize (grid2.coords t) 1
    rw [(index2_2 t).2, xsize2_2 t 1]
    split
    · show _ ∧ _ < _ + 128; omega
    · show _ ∧ _ < _ + 128; omega

/-- The region's result array, at the ideal values, is the blocked product of the bf16 copy's first 10000 rows with y. -/
theorem o5_apply (c : Dev nD) (r : Fin 10000) (q : Fin 128) :
    o5 V c (ix2 r q) = Cert.Blocked.out2 (fun r col => V c main_v3_1 (ix2 ⟨r.val, by omega⟩ col)) (fun k q => V c main_v3_0 (ix2 k q)) r q := by
  unfold o5
  rw [(dat2 V c).arrAt_eq_of_cover 2 (outG2 V c) (flushed2_eq V c) (cover2_arr c)]
  rfl

end Region2Value

end Cert.KernelIdeal.Pf

end
-- ==== Proof.Pf.Final.lean ====
/- The value closing lemma and the run of the idealized kernel. Whatever the second region leaves in the rows of the bf16
   copy that nothing names, the third region's result is one function of the launch memory: the specification function
   G of the five arguments. The three kernels' results, entry by entry, are the arrays of the pure end-to-end lemma: the
   first region's result is the stacked right-hand side [w1 | x w2] of the arguments; the host stretch leaves the gate
   weights in row 0 of the tile and touches neither the adjacency nor the first region's result; the second region's two
   results are the highway combination read off those and the adjacency's rows followed by zeros; the third region's
   result is the blocked aggregation of the second's two results. -/
import proofs.«145375_g77163382440895_cont_9to1c4b_61_6_alg».proof.Proof.Pf.Launch
import proofs.«145375_g77163382440895_cont_9to1c4b_61_6_alg».proof.Proof.Pf.Reg0Value
import proofs.«145375_g77163382440895_cont_9to1c4b_61_6_alg».proof.Proof.Pf.Tile
import proofs.«145375_g77163382440895_cont_9to1c4b_61_6_alg».proof.Proof.Pf.Blocked
import proofs.«145375_g77163382440895_cont_9to1c4b_61_6_alg».proof.Proof.Pf.Reg2Value

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL.Sem
open Idealize.ShloMosaic.ValueIdx (ix1 ix2)

variable (m : (ℓ : Loc nD τ sig) → Buf (Elt Ideal) ℓ)

/-- The result, as a function of the launch memory: the specification function of the five arguments. -/
def vfinal (c : Dev nD) : B c main_v4 :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4))

/-- It is the specification function of the arguments, by definition. -/
theorem vfinal_eq (c : Dev nD) :
    vfinal m c = Cert.Spec.G (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The host stretch leaves the adjacency as launched, -/
theorem V2_arg1 (c : Dev nD) : V2 m c main_arg1 = m ((c : Thread nD τ).loc main_arg1) :=
  (after_hostOps1_of (V1 m) c main_arg1 (by decide)).trans
    (Function.update_of_ne (StableHlo.devRef_ne_of_ne (by decide)) _ _)

/-- and the first region's result as that region left it. -/
theorem V2_v0 (c : Dev nD) : V2 m c main_v0 = o1 (V0 m) c :=
  (after_hostOps1_of (V1 m) c main_v0 (by decide)).trans (Function.update_self _ _ _)

/-- Row 0 of the tile after the host stretch is the gate argument as launched. -/
theorem V2_v2_row0 (c : Dev nD) (q : Fin 128) :
    V2 m c main_v2 (ix2 (0 : Fin 8) q) = m ((c : Thread nD τ).loc main_arg4) (ix2 q (0 : Fin 1)) :=
  (v2_row0 (V1 m) c q).trans
    (congrFun (Function.update_of_ne (StableHlo.devRef_ne_of_ne (by decide)) _ _ : V1 m c main_arg4 = V0 m c main_arg4) _)

/-- After the second region its two results are where it left them. -/
theorem V3_v3_1 (o3 : (c : Dev nD) → B c main_v3_0) (o4 : (c : Dev nD) → B c main_v3_1) (c : Dev nD) :
    V3 m o3 o4 c main_v3_1 = o4 c := Function.update_self _ _ _
theorem V3_v3_0 (o3 : (c : Dev nD) → B c main_v3_0) (o4 : (c : Dev nD) → B c main_v3_1) (c : Dev nD) :
    V3 m o3 o4 c main_v3_0 = o3 c :=
  (Function.update_of_ne (StableHlo.devRef_ne_of_ne (by decide)) _ _).trans (Function.update_self _ _ _)

/-- Whatever the second region left in the rows nothing names, the third region's result is the specification. -/
theorem o5_eq_vfinal (c : Dev nD) (o3 : (c : Dev nD) → B c main_v3_0) (o4 : (c : Dev nD) → B c main_v3_1)
    (hQ : ∀ c', Q1 (V2 m) c' (o3 c') (o4 c')) : o5 (V3 m o3 o4) c = vfinal m c := by
  obtain ⟨h3, h4⟩ := hQ c
  rw [V2_arg1, V2_v0] at h3
  rw [V2_arg1] at h4
  refine Cert.Blocked.final_eq (m ((c : Thread nD τ).loc main_arg0)) (m ((c : Thread nD τ).loc main_arg1))
    (m ((c : Thread nD τ).loc main_arg2)) (m ((c : Thread nD τ).loc main_arg3)) (m ((c : Thread nD τ).loc main_arg4))
    (o1 (V0 m) c) (V2 m c main_v2) (o3 c) (o4 c) (o5 (V3 m o3 o4) c)
    (fun k col => o1_apply (V0 m) c k col) (V2_v2_row0 m c) h3 h4 (fun r q => ?_)
  rw [o5_apply, V3_v3_1, V3_v3_0]

/-- The run of the idealized kernel: it ends with its result at the specification function of the launch arguments and
    its arguments unchanged. -/
theorem run_main (ρ : Dev nD → PrngReg) :
    θ_run defs (onTc (τ := τ) (main (F := Ideal))) ⟨m, fun _ => 0, ρ⟩ (fun r => ∀ c : Dev nD,
      r.2.mem ((c.tc : Thread nD τ).loc main_v4) = vfinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_main_of m ρ (vfinal m) (o5_eq_vfinal m)

end Cert.KernelIdeal.Pf

end
-- ==== Proof.Pf.RefSide.lean ====
/- The reference program's result, over the extended reals, is the specification function G of Spec.lean.
   With A the (10000 x 10000) adjacency, x the features and w1, w2, wh the weights, the reference computes, stage by
   stage: A w1 and its activation a = max (A w1) 0; the product x w2, its aggregation A (x w2) and the activation
   b = max (A (x w2)) 0; for each row r the number s r = ∑ q, b r q * wh q and the gate T r = 1 / (1 + exp (-(s r))), which
   is the logistic function of s r by its definition; the combination y = T a + (1 - T) b, the gate broadcast along a
   row; and the result A y. Each stage is read at an index given by its two coordinates and identified with the
   corresponding function of Spec.lean; every contraction stays a finite sum over its one contracted coordinate, and
   two such sums are compared term by term. Nothing here needs the entries to be finite. -/
import proofs.«145375_g77163382440895_cont_9to1c4b_61_6_alg».proof.Proof.Gen.ReferenceIdeal.Run
import proofs.«145375_g77163382440895_cont_9to1c4b_61_6_alg».proof.Proof.Gen.ReferenceIdeal.Read
import proofs.«145375_g77163382440895_cont_9to1c4b_61_6_alg».proof.Proof.Pf.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Spec

/-- An array of the reference at the ideal instance: extended reals indexed by the shape. -/
abbrev Arr (s : Shape) : Type := (⟨s, .f32⟩ : BufTy).Contents (Elt Ideal)

/-! ## The constants: relu's zero and the gate's ones -/

/-- The single-precision pattern of 1.0 denotes the extended real one. -/
theorem one_f32 : Ideal.ofBits .f32 0x3F800000#32 = 1 := IdealRules.sign_bit.ideal_onePat .f32

theorem zero0 (i : S10000x128.Idx) : val_main_call0_v0 (F := Ideal) i = 0 := by
  rw [val_main_call0_v0_apply, val_main_call0_cst_apply, Ideal.ofBits_def, Ideal.ofBits_zero_f32]
theorem zero1 (i : S10000x128.Idx) : val_main_call1_v0 (F := Ideal) i = 0 := by
  rw [val_main_call1_v0_apply, val_main_call1_cst_apply, Ideal.ofBits_def, Ideal.ofBits_zero_f32]
theorem one8 (i : S10000x1.Idx) : val_main_v8 (F := Ideal) i = 1 := by
  rw [val_main_v8_apply, val_main_cst_apply, Ideal.ofBits_def, one_f32]
theorem one10 (i : S10000x1.Idx) : val_main_v10 (F := Ideal) i = 1 := by
  rw [val_main_v10_apply, val_main_cst_0_apply, Ideal.ofBits_def, one_f32]
theorem one14 (i : S10000x1.Idx) : val_main_v14 (F := Ideal) i = 1 := by
  rw [val_main_v14_apply, val_main_cst_1_apply, Ideal.ofBits_def, one_f32]

/-! ## The index functions of the contractions and broadcasts, at an index given by coordinates -/

theorem l0 (r : Fin 10000) (q : Fin 128) (k : Fin 10000) : lidx_main_v0 (ix2 r q) k = ix2 r k :=
  funext fun a => by match a with | ⟨0, _⟩ => rfl | ⟨1, _⟩ => rfl
theorem r0 (r : Fin 10000) (q : Fin 128) (k : Fin 10000) : ridx_main_v0 (ix2 r q) k = ix2 k q :=
  funext fun a => by match a with | ⟨0, _⟩ => rfl | ⟨1, _⟩ => rfl
theorem l2 (r : Fin 10000) (q : Fin 128) (k : Fin 128) : lidx_main_v2 (ix2 r q) k = ix2 r k :=
  funext fun a => by match a with | ⟨0, _⟩ => rfl | ⟨1, _⟩ => rfl
theorem r2 (r : Fin 10000) (q : Fin 128) (k : Fin 128) : ridx_main_v2 (ix2 r q) k = ix2 k q :=
  funext fun a => by match a with | ⟨0, _⟩ => rfl | ⟨1, _⟩ => rfl
theorem l3 (r : Fin 10000) (q : Fin 128) (k : Fin 10000) : lidx_main_v3 (ix2 r q) k = ix2 r k :=
  funext fun a => by match a with | ⟨0, _⟩ => rfl | ⟨1, _⟩ => rfl
theorem r3 (r : Fin 10000) (q : Fin 128) (k : Fin 10000) : ridx_main_v3 (ix2 r q) k = ix2 k q :=
  funext fun a => by match a with | ⟨0, _⟩ => rfl | ⟨1, _⟩ => rfl
theorem l5 (r : Fin 10000) (z : Fin 1) (k : Fin 128) : lidx_main_v5 (ix2 r z) k = ix2 r k :=
  funext fun a => by match a with | ⟨0, _⟩ => rfl | ⟨1, _⟩ => rfl
theorem r5 (r : Fin 10000) (k : Fin 128) : ridx_main_v5 (ix2 r (0 : Fin 1)) k = ix2 k (0 : Fin 1) :=
  funext fun a => by match a with | ⟨0, _⟩ => rfl | ⟨1, _⟩ => rfl
theorem b12 (r : Fin 10000) (q : Fin 128) : idx_main_v12 (ix2 r q) = ix2 r (0 : Fin 1) :=
  funext fun a => by match a with | ⟨0, _⟩ => rfl | ⟨1, _⟩ => rfl
theorem b16 (r : Fin 10000) (q : Fin 128) : idx_main_v16 (ix2 r q) = ix2 r (0 : Fin 1) :=
  funext fun a => by match a with | ⟨0, _⟩ => rfl | ⟨1, _⟩ => rfl
theorem l19 (r : Fin 10000) (q : Fin 128) (k : Fin 10000) : lidx_main_v19 (ix2 r q) k = ix2 r k :=
  funext fun a => by match a with | ⟨0, _⟩ => rfl | ⟨1, _⟩ => rfl
theorem r19 (r : Fin 10000) (q : Fin 128) (k : Fin 10000) : ridx_main_v19 (ix2 r q) k = ix2 k q :=
  funext fun a => by match a with | ⟨0, _⟩ => rfl | ⟨1, _⟩ => rfl

/-! ## The stages, one at a time -/

/-- The first aggregation A w1. -/
theorem st_v0 (x1 : Arr S10000x10000) (x2 : Arr S10000x128) (r : Fin 10000) (q : Fin 128) :
    val_main_v0 (F := Ideal) x1 x2 (ix2 r q) = agg x1 (fun k q => x2 (ix2 k q)) r q := by
  rw [val_main_v0_apply]
  unfold agg
  refine Finset.sum_congr rfl fun k _ => ?_
  rw [l0, r0]

/-- Its activation a = max (A w1) 0. -/
theorem st_v1 (x1 : Arr S10000x10000) (x2 : Arr S10000x128) (r : Fin 10000) (q : Fin 128) :
    val_main_v1 (F := Ideal) x1 x2 (ix2 r q) = actA x1 x2 r q := by
  rw [val_main_v1_apply, st_v0, zero0, Ideal.maximumf_def]
  rfl

/-- The feature product x w2. -/
theorem st_v2 (x0 : Arr S10000x128) (x3 : Arr S128x128) (r : Fin 10000) (q : Fin 128) :
    val_main_v2 (F := Ideal) x0 x3 (ix2 r q) = xw2 x0 x3 r q := by
  rw [val_main_v2_apply]
  unfold xw2
  refine Finset.sum_congr rfl fun k _ => ?_
  rw [l2, r2]

/-- The second aggregation A (x w2). -/
theorem st_v3 (x0 : Arr S10000x128) (x1 : Arr S10000x10000) (x3 : Arr S128x128) (r : Fin 10000) (q : Fin 128) :
    val_main_v3 (F := Ideal) x0 x1 x3 (ix2 r q) = agg x1 (xw2 x0 x3) r q := by
  rw [val_main_v3_apply]
  unfold agg
  refine Finset.sum_congr rfl fun k _ => ?_
  rw [l3, r3, st_v2]

/-- Its activation b = max (A (x w2)) 0. -/
theorem st_v4 (x0 : Arr S10000x128) (x1 : Arr S10000x10000) (x3 : Arr S128x128) (r : Fin 10000) (q : Fin 128) :
    val_main_v4 (F := Ideal) x0 x1 x3 (ix2 r q) = actB x1 x0 x3 r q := by
  rw [val_main_v4_apply, st_v3, zero1, Ideal.maximumf_def]
  rfl

/-- The gate's argument: row r of b against wh. -/
theorem st_v5 (x0 : Arr S10000x128) (x1 : Arr S10000x10000) (x3 : Arr S128x128) (x4 : Arr S128x1) (r : Fin 10000) :
    val_main_v5 (F := Ideal) x0 x1 x3 x4 (ix2 r (0 : Fin 1)) = ∑ q : Fin 128, actB x1 x0 x3 r q * x4 (ix2 q (0 : Fin 1)) := by
  rw [val_main_v5_apply]
  refine Finset.sum_congr rfl fun k _ => ?_
  rw [l5, r5, st_v4]

/-- The gate: 1 / (1 + exp (-s)) is the logistic function of s. -/
theorem st_v11 (x0 : Arr S10000x128) (x1 : Arr S10000x10000) (x3 : Arr S128x128) (x4 : Arr S128x1) (r : Fin 10000) :
    val_main_v11 (F := Ideal) x0 x1 x3 x4 (ix2 r (0 : Fin 1)) = gate x1 x0 x3 x4 r := by
  rw [val_main_v11_apply, one10, val_main_v9_apply, one8, val_main_v7_apply, val_main_v6_apply, st_v5,
    Ideal.hostDivf_def, Ideal.addf_def, Ideal.hostUnary_exp_def, Ideal.hostNegf_def, Ideal.negf_def]
  rfl

/-- The highway combination y = T a + (1 - T) b. -/
theorem st_v18 (x0 : Arr S10000x128) (x1 : Arr S10000x10000) (x2 : Arr S10000x128) (x3 : Arr S128x128) (x4 : Arr S128x1)
    (r : Fin 10000) (q : Fin 128) :
    val_main_v18 (F := Ideal) x0 x1 x2 x3 x4 (ix2 r q) = yv x0 x1 x2 x3 x4 r q := by
  rw [val_main_v18_apply, val_main_v13_apply, val_main_v17_apply, val_main_v12_apply, val_main_v16_apply, b12, b16,
    val_main_v15_apply, one14, st_v11, st_v1, st_v4, Ideal.addf_def, Ideal.mulf_def, Ideal.mulf_def, Ideal.subf_def]
  rfl

/-- The reference's result is the specification function. -/
theorem ref_is_G (x0 : (⟨S10000x128, .f32⟩ : BufTy).Contents (Elt Ideal)) (x1 : (⟨S10000x10000, .f32⟩ : BufTy).Contents (Elt Ideal))
    (x2 : (⟨S10000x128, .f32⟩ : BufTy).Contents (Elt Ideal)) (x3 : (⟨S128x128, .f32⟩ : BufTy).Contents (Elt Ideal))
    (x4 : (⟨S128x1, .f32⟩ : BufTy).Contents (Elt Ideal)) :
    Cert.ReferenceIdeal.Read.val_main_v19 (F := Ideal) x0 x1 x2 x3 x4 = Cert.Spec.G x0 x1 x2 x3 x4 := by
  funext i
  obtain ⟨r, q, rfl⟩ : ∃ (r : Fin 10000) (q : Fin 128), i = ix2 r q := ⟨i 0, i 1, eq_ix2 i⟩
  rw [val_main_v19_apply, G_apply]
  unfold outv agg
  refine Finset.sum_congr rfl fun k _ => ?_
  rw [l19, r19, st_v18]

end Cert.ReferenceIdeal.RefValue

end
-- ==== Proof.lean ====
/- The certificate of this kernel against its reference.
   WHAT IS CLAIMED. Three programs are run from any launch memory: the kernel over bit patterns, the same kernel read over
   the extended reals, and the reference read over the extended reals. Each terminates on every weakly fair execution,
   nothing faulting, and leaves its five argument arrays as launched (the three frames). The reading over the extended
   reals rewrote no operation of the kernel, so there is nothing to preserve (that claim is `True`). And from memories
   that agree on the arguments, the kernel's result array and the reference's are equal entry by entry as extended reals:
   both are the one function Cert.Spec.G of the five arguments x, A, w1, w2, wh,
       a = max (A w1) 0,   b = max (A (x w2)) 0,   T = logistic (b wh)   (one gate per row),
       out = A (T ⊙ a + (1 − T) ⊙ b).
   THE LAW THAT JOINS THE TWO SIDES. The reference takes each contraction as one sum over its terms. The kernel takes the
   10000 terms of a row's sum in five blocks of 2048, adds each block's partial sum to an accumulator that starts at
   zero, and replaces the 240 terms of the last block that lie past the 10000th by zero; its last stage reads the
   adjacency through a copy widened to 10240 columns, the added columns zero. A finite sum over the extended reals may
   be regrouped and its zero terms dropped (addition there is commutative and associative, and a product with a zero
   factor is zero), so each blocked accumulation is the plain sum. The precondition that the inputs are finite is not used: every run cited
   below is stated and proved from any launch memory.
   WHERE EACH PART IS PROVED. Pf/Spec.lean defines G. Pf/RefSide.lean: the reference's result is G (`ref_is_G`), stage by
   stage through the reference's generated run and read modules. Pf/Blocked.lean: the blocked accumulations are the sums
   of G (`final_eq`). Pf/Final.lean, over Pf/Launch.lean and the region modules: the kernel's run over the extended reals
   ends with its result at `vfinal`, which is G of the launch arguments (`run_main`, `vfinal_eq`). PfK/LaunchF.lean: the
   kernel over bit patterns runs and leaves its arguments as launched (`frame_run`). Below: the five claims from those,
   and their conjunction under the side conditions the programs state, which the generated modules prove. -/
import proofs.«145375_g77163382440895_cont_9to1c4b_61_6_alg».proof.Defs
import proofs.«145375_g77163382440895_cont_9to1c4b_61_6_alg».proof.Proof.Gen.Kernel
import proofs.«145375_g77163382440895_cont_9to1c4b_61_6_alg».proof.Proof.Gen.KernelIdeal
import proofs.«145375_g77163382440895_cont_9to1c4b_61_6_alg».proof.Proof.Gen.ReferenceIdeal
import proofs.«145375_g77163382440895_cont_9to1c4b_61_6_alg».proof.Proof.Gen.Pre_finite_inputs
import proofs.«145375_g77163382440895_cont_9to1c4b_61_6_alg».proof.Proof.Pf.Final
import proofs.«145375_g77163382440895_cont_9to1c4b_61_6_alg».proof.Proof.Pf.RefSide
import proofs.«145375_g77163382440895_cont_9to1c4b_61_6_alg».proof.Proof.PfK.LaunchF

noncomputable section

namespace Cert.Proof

open Idealize.ShloMosaic Idealize.SL.Sem

/-- The kernel over bit patterns runs and leaves its arguments as launched. -/
theorem frame_k : Cert.frame_Kernel := fun m ρ _ => Cert.Kernel.Pf.frame_run m ρ

/-- The kernel over the extended reals: its run, the result forgotten. -/
theorem frame_ki : Cert.frame_KernelIdeal := fun m ρ _ =>
  (θ_run Cert.KernelIdeal.defs _ _).mono (fun _ h c => (h c).2) (Cert.KernelIdeal.Pf.run_main m ρ)

/-- The reference over the extended reals: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the reading over the extended reals. -/
theorem preserves : Cert.preserves_Kernel_KernelIdeal := trivial

/-- Over the extended reals both results are the specification function of the arguments, on which the two memories
    agree: the reference's composed term is its last stage, which is G; the kernel's result is G of its own arguments. -/
theorem algebraic : Cert.algebraic_KernelIdeal_ReferenceIdeal := by
  intro m ρ m' ρ' _ hagree
  refine ⟨fun c => Cert.KernelIdeal.Pf.vfinal m c, Cert.KernelIdeal.Pf.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_is_G, (hagree c).1, (hagree c).2.1, (hagree c).2.2.1,
    (hagree c).2.2.2.1, (hagree c).2.2.2.2]
  exact (Cert.KernelIdeal.Pf.vfinal_eq m c).symm

/-- Everything the certificate claims, under the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
